-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S2048 : S_.BroadcastsInDim S2048 (![] : Fin 0 → Fin S2048.rank)
  reducesTo_S2048_S_d0 : S2048.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S64x64 .f32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg16
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_arg14 main_arg15 main_arg16 main_arg17 main_v48 main_v49 main_v50

def fn_part1 {F : FTy → Type} [FloatOps F] (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x16 .f32) (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x2048 .f32 := Host.absf main_arg2
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S1x2048 : Shape := ⟨2, ![1, 2048]⟩
abbrev S2048x1 : Shape := ⟨2, ![2048, 1]⟩
abbrev S1x32 : Shape := ⟨2, ![1, 32]⟩
abbrev S1x64 : Shape := ⟨2, ![1, 64]⟩
abbrev S10000x32 : Shape := ⟨2, ![10000, 32]⟩
abbrev S10000x1 : Shape := ⟨2, ![10000, 1]⟩
abbrev S2048x64 : Shape := ⟨2, ![2048, 64]⟩
abbrev S1000x2048 : Shape := ⟨2, ![1000, 2048]⟩
abbrev S1000x128 : Shape := ⟨2, ![1000, 128]⟩
abbrev S1000x16 : Shape := ⟨2, ![1000, 16]⟩
abbrev S1000x32 : Shape := ⟨2, ![1000, 32]⟩
abbrev S1000x1 : Shape := ⟨2, ![1000, 1]⟩
abbrev S1000 : Shape := ⟨1, ![1000]⟩
abbrev S1000x64 : Shape := ⟨2, ![1000, 64]⟩
abbrev S1x2 : Shape := ⟨2, ![1, 2]⟩
abbrev S10000x2 : Shape := ⟨2, ![10000, 2]⟩
abbrev S1000x2 : Shape := ⟨2, ![1000, 2]⟩

abbrev nBuf : Space → Nat
  | .hbm => 34
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S1x2048, .f32⟩
  | .hbm, ⟨19, _⟩ => ⟨S2048x1, .f32⟩
  | .hbm, ⟨20, _⟩ => ⟨S1x32, .f32⟩
  | .hbm, ⟨21, _⟩ => ⟨S1x32, .f32⟩
  | .hbm, ⟨22, _⟩ => ⟨S1x64, .f32⟩
  | .hbm, ⟨23, _⟩ => ⟨S1x32, .f32⟩
  | .hbm, ⟨24, _⟩ => ⟨S1x64, .f32⟩
  | .hbm, ⟨25, _⟩ => ⟨S10000x32, .f32⟩
  | .hbm, ⟨26, _⟩ => ⟨S10000x1, .f32⟩
  | .hbm, ⟨27, _⟩ => ⟨S1x2048, .f32⟩
  | .hbm, ⟨28, _⟩ => ⟨S2048x64, .f32⟩
  | .hbm, ⟨29, _⟩ => ⟨S2048x1, .f32⟩
  | .hbm, ⟨30, _⟩ => ⟨S1x64, .f32⟩
  | .hbm, ⟨31, _⟩ => ⟨S2048x64, .f32⟩
  | .hbm, ⟨32, _⟩ => ⟨S1x2, .f32⟩
  | .hbm, ⟨33, _⟩ => ⟨S10000x2, .f32⟩
  | .local _ .vmem, ⟨0, _⟩ => ⟨S1000x2048, .f32⟩
  | .local _ .vmem, ⟨1, _⟩ => ⟨S1000x2048, .f32⟩
  | .local _ .vmem, ⟨2, _⟩ => ⟨S1000x128, .f32⟩
  | .local _ .vmem, ⟨3, _⟩ => ⟨S1000x128, .f32⟩
  | .local _ .vmem, ⟨4, _⟩ => ⟨S1000x16, .f32⟩
  | .local _ .vmem, ⟨5, _⟩ => ⟨S1000x16, .f32⟩
  | .local _ .vmem, ⟨6, _⟩ => ⟨S1x2048, .f32⟩
  | .local _ .vmem, ⟨7, _⟩ => ⟨S128x32, .f32⟩
  | .local _ .vmem, ⟨8, _⟩ => ⟨S1x32, .f32⟩
  | .local _ .vmem, ⟨9, _⟩ => ⟨S16x32, .f32⟩
  | .local _ .vmem, ⟨10, _⟩ => ⟨S1x32, .f32⟩
  | .local _ .vmem, ⟨11, _⟩ => ⟨S64x64, .f32⟩
  | .local _ .vmem, ⟨12, _⟩ => ⟨S1x64, .f32⟩
  | .local _ .vmem, ⟨13, _⟩ => ⟨S64x32, .f32⟩
  | .local _ .vmem, ⟨14, _⟩ => ⟨S1x32, .f32⟩
  | .local _ .vmem, ⟨15, _⟩ => ⟨S32x64, .f32⟩
  | .local _ .vmem, ⟨16, _⟩ => ⟨S1x64, .f32⟩
  | .local _ .vmem, ⟨17, _⟩ => ⟨S1000x32, .f32⟩
  | .local _ .vmem, ⟨18, _⟩ => ⟨S1000x32, .f32⟩
  | .local _ .vmem, ⟨19, _⟩ => ⟨S1000x1, .f32⟩
  | .local _ .vmem, ⟨20, _⟩ => ⟨S1000x1, .f32⟩
  | .local _ .vmem, ⟨21, _⟩ => ⟨S1x2048, .f32⟩
  | .local _ .vmem, ⟨22, _⟩ => ⟨S2048x64, .f32⟩
  | .local _ .vmem, ⟨23, _⟩ => ⟨S1000x2048, .f32⟩
  | .local _ .vmem, ⟨24, _⟩ => ⟨S1000x2048, .f32⟩
  | .local _ .vmem, ⟨25, _⟩ => ⟨S1000x1, .f32⟩
  | .local _ .vmem, ⟨26, _⟩ => ⟨S1000x1, .f32⟩
  | .local _ .vmem, ⟨27, _⟩ => ⟨S2048x64, .f32⟩
  | .local _ .vmem, ⟨28, _⟩ => ⟨S2048x1, .f32⟩
  | .local _ .vmem, ⟨29, _⟩ => ⟨S2048x1, .f32⟩
  | .local _ .vmem, ⟨30, _⟩ => ⟨S64x64, .f32⟩
  | .local _ .vmem, ⟨31, _⟩ => ⟨S1x64, .f32⟩
  | .local _ .vmem, ⟨32, _⟩ => ⟨S2048x64, .f32⟩
  | .local _ .vmem, ⟨33, _⟩ => ⟨S1000x2048, .f32⟩
  | .local _ .vmem, ⟨34, _⟩ => ⟨S1000x2048, .f32⟩
  | .local _ .vmem, ⟨35, _⟩ => ⟨S1000x1, .f32⟩
  | .local _ .vmem, ⟨36, _⟩ => ⟨S1000x1, .f32⟩
  | .local _ .vmem, ⟨37, _⟩ => ⟨S2048x64, .f32⟩
  | .local _ .vmem, ⟨38, _⟩ => ⟨S2048x1, .f32⟩
  | .local _ .vmem, ⟨39, _⟩ => ⟨S2048x1, .f32⟩
  | .local _ .vmem, ⟨40, _⟩ => ⟨S64x2, .f32⟩
  | .local _ .vmem, ⟨41, _⟩ => ⟨S1x2, .f32⟩
  | .local _ .vmem, ⟨42, _⟩ => ⟨S1000x2, .f32⟩
  | .local _ .vmem, ⟨43, _⟩ => ⟨S1000x2, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v7_2 : Ref sig .tc := ⟨.hbm, 27, rfl⟩
abbrev main_v7_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg17_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem17_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem7_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1000x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S2048_S1x2048 : S2048.ShapeCasts S1x2048
  shapeCasts_S2048_S2048x1 : S2048.ShapeCasts S2048x1
  shapeCasts_S32_S1x32 : S32.ShapeCasts S1x32
  shapeCasts_S64_S1x64 : S64.ShapeCasts S1x64
  inb_S1x2048_S1x2048_0_0 : ∀ a, (![0, 0] : Fin 2 → Nat) a + S1x2048.size a ≤ S1x2048.size a
  h_S1x2048 : 0 < S1x2048.numel
  inb_S2048x64_S2048x64_0_0 : ∀ a, (![0, 0] : Fin 2 → Nat) a + S2048x64.size a ≤ S2048x64.size a
  h_S2048x64 : 0 < S2048x64.numel
  inb_S1000x2048_S1000x2048_0_0 : ∀ a, (![0, 0] : Fin 2 → Nat) a + S1000x2048.size a ≤ S1000x2048.size a
  h_S1000x2048 : 0 < S1000x2048.numel
  shapeCasts_S1x2048_S1x2048 : S1x2048.ShapeCasts S1x2048
  broadcasts_S1x2048_S1000x2048 : S1x2048.Broadcasts S1000x2048
  reduces_S1000x2048_S1000 : S1000x2048.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  reduces_S1000x2048_S2048 : S1000x2048.Reduces [0] S2048
  inb_S1000x128_S1000x128_0_0 : ∀ a, (![0, 0] : Fin 2 → Nat) a + S1000x128.size a ≤ S1000x128.size a
  h_S1000x128 : 0 < S1000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x16_S1000x16_0_0 : ∀ a, (![0, 0] : Fin 2 → Nat) a + S1000x16.size a ≤ S1000x16.size a
  h_S1000x16 : 0 < S1000x16.numel
  inb_S16x32_S16x32_0_0 : ∀ a, (![0, 0] : Fin 2 → Nat) a + S16x32.size a ≤ S16x32.size a
  h_S16x32 : 0 < S16x32.numel
  concatenates_S1000x32_S1000x32_S1000x64_d1 : Shape.Concatenates [S1000x32, S1000x32] S1000x64 1
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x32_S64x32_0_0 : ∀ a, (![0, 0] : Fin 2 → Nat) a + S64x32.size a ≤ S64x32.size a
  h_S64x32 : 0 < S64x32.numel
  inb_S1000x32_S1000x32_0_0 : ∀ a, (![0, 0] : Fin 2 → Nat) a + S1000x32.size a ≤ S1000x32.size a
  h_S1000x32 : 0 < S1000x32.numel
  inb_S32x64_S32x64_0_0 : ∀ a, (![0, 0] : Fin 2 → Nat) a + S32x64.size a ≤ S32x64.size a
  h_S32x64 : 0 < S32x64.numel
  broadcasts_S1000x1_S1000x64 : S1000x1.Broadcasts S1000x64
  shapeCasts_S2048x64_S2048x64 : S2048x64.ShapeCasts S2048x64
  shapeCasts_S1x2048_S2048x1 : S1x2048.ShapeCasts S2048x1
  shapeCasts_S1000x1_S1000x1 : S1000x1.ShapeCasts S1000x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  dot_S1000x128_S128x32_S1000x32_1_0_0_1_n_n_wf : DotDims.WF S1000x128 S128x32 S1000x32 [1] [0] [0] [1] [] []
  dot_S1000x16_S16x32_S1000x32_1_0_0_1_n_n_wf : DotDims.WF S1000x16 S16x32 S1000x32 [1] [0] [0] [1] [] []
  dot_S1000x64_S64x64_S1000x64_1_0_0_1_n_n_wf : DotDims.WF S1000x64 S64x64 S1000x64 [1] [0] [0] [1] [] []
  dot_S1000x64_S64x32_S1000x32_1_0_0_1_n_n_wf : DotDims.WF S1000x64 S64x32 S1000x32 [1] [0] [0] [1] [] []
  dot_S1000x32_S32x64_S1000x64_1_0_0_1_n_n_wf : DotDims.WF S1000x32 S32x64 S1000x64 [1] [0] [0] [1] [] []
  dot_S1000x2048_S1000x64_S2048x64_0_0_1_1_n_n_wf : DotDims.WF S1000x2048 S1000x64 S2048x64 [0] [0] [1] [1] [] []
  dot_S1000x2048_S2048x64_S1000x64_1_0_0_1_n_n_wf : DotDims.WF S1000x2048 S2048x64 S1000x64 [1] [0] [0] [1] [] []
  dot_S1000x64_S64x2_S1000x2_1_0_0_1_n_n_wf : DotDims.WF S1000x64 S64x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S10000x16.size a
  hwx0_2 : ∀ i : grid0.Coords, EltTy.bits .f32 = 32 ∨ (Rect.block (s := S10000x16) S1000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .f32 = 32 ∨ (Rect.block (s := S64x32) S64x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x64.size a ≤ S32x64.size a
  hwx0_12 : ∀ i : grid0.Coords, EltTy.bits .f32 = 32 ∨ (Rect.block (s := S32x64) S32x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x32.size a ≤ S10000x32.size a
  hwx0_14 : ∀ i : grid0.Coords, EltTy.bits .f32 = 32 ∨ (Rect.block (s := S10000x32) S1000x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x1.size a ≤ S10000x1.size a
  hwx0_15 : ∀ i : grid0.Coords, EltTy.bits .f32 = 32 ∨ (Rect.block (s := S10000x1) S1000x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2048.size a ≤ S1x2048.size a
  hwx0_16 : ∀ i : grid0.Coords, EltTy.bits .f32 = 32 ∨ (Rect.block (s := S1x2048) S1x2048.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2048x64.size a ≤ S2048x64.size a
  hwx0_17 : ∀ i : grid0.Coords, EltTy.bits .f32 = 32 ∨ (Rect.block (s := S2048x64) S2048x64.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x2048.size a ≤ S10000x2048.size a
  hwx1_0 : ∀ i : grid1.Coords, EltTy.bits .f32 = 32 ∨ (Rect.block (s := S10000x2048) S1000x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S10000x1.size a
  hwx1_1 : ∀ i : grid1.Coords, EltTy.bits .f32 = 32 ∨ (Rect.block (s := S10000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S2048x1.size a
  hwx1_3 : ∀ i : grid1.Coords, EltTy.bits .f32 = 32 ∨ (Rect.block (s := S2048x1) S2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S2048x1.size a
  hwx1_4 : ∀ i : grid1.Coords, EltTy.bits .f32 = 32 ∨ (Rect.block (s := S2048x1) S2048x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S2048x64.size a
  hwx1_7 : ∀ i : grid1.Coords, EltTy.bits .f32 = 32 ∨ (Rect.block (s := S2048x64) S2048x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x2048.size a ≤ S10000x2048.size a
  hwx2_0 : ∀ i : grid2.Coords, EltTy.bits .f32 = 32 ∨ (Rect.block (s := S10000x2048) S1000x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S2048x64.size a
  hwx2_2 : ∀ i : grid2.Coords, EltTy.bits .f32 = 32 ∨ (Rect.block (s := S2048x64) S2048x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S2048x1.size a
  hwx2_3 : ∀ i : grid2.Coords, EltTy.bits .f32 = 32 ∨ (Rect.block (s := S2048x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S2048x1.size a
  hwx2_4 : ∀ i : grid2.Coords, EltTy.bits .f32 = 32 ∨ (Rect.block (s := S2048x1) S2048x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .f32 = 32 ∨ (Rect.block (s := S64x2) S64x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x2.size a ≤ S10000x2.size a
  hwx2_7 : ∀ i : grid2.Coords, EltTy.bits .f32 = 32 ∨ (Rect.block (s := S10000x2) S1000x2.size (cc2_transform_7 i) (hinb2_7 i)).WholeWords (EltTy.packing .f32)

variable [Facts₀]

def dot_S1000x128_S128x32_S1000x32_1_0_0_1_n_n : DotDims S1000x128 S128x32 S1000x32 where
  lhsContracting := [1]
  rhsContracting := [0]
  lhsNonContracting := [0]
  rhsNonContracting := [1]
  lhsBatch := []
  rhsBatch := []
  wf := dot_S1000x128_S128x32_S1000x32_1_0_0_1_n_n_wf
def dot_S1000x16_S16x32_S1000x32_1_0_0_1_n_n : DotDims S1000x16 S16x32 S1000x32 where
  lhsContracting := [1]
  rhsContracting := [0]
  lhsNonContracting := [0]
  rhsNonContracting := [1]
  lhsBatch := []
  rhsBatch := []
  wf := dot_S1000x16_S16x32_S1000x32_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x2048_S1000x64_S2048x64_0_0_1_1_n_n : DotDims S1000x2048 S1000x64 S2048x64 where
  lhsContracting := [0]
  rhsContracting := [0]
  lhsNonContracting := [1]
  rhsNonContracting := [1]
  lhsBatch := []
  rhsBatch := []
  wf := dot_S1000x2048_S1000x64_S2048x64_0_0_1_1_n_n_wf
def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_arg2) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7_0) S1000x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_1) S1000x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v7_2) S1x2048.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7_3) S2048x64.size cc0_transform_17 reads0_17 true true 1 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg2) S1000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_3) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2048x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S2048x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S1000x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2048x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S2048x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S2048x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S64x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S1000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S10000x32 : Shape := ⟨2, ![10000, 32]⟩
abbrev S1x32 : Shape := ⟨2, ![1, 32]⟩
abbrev S10000x64 : Shape := ⟨2, ![10000, 64]⟩
abbrev S1x64 : Shape := ⟨2, ![1, 64]⟩
abbrev S_ : Shape := ⟨0, ![]⟩
abbrev S1x2048 : Shape := ⟨2, ![1, 2048]⟩
abbrev S10000 : Shape := ⟨1, ![10000]⟩
abbrev S10000x1 : Shape := ⟨2, ![10000, 1]⟩
abbrev S2048x10000 : Shape := ⟨2, ![2048, 10000]⟩
abbrev S2048x64 : Shape := ⟨2, ![2048, 64]⟩
abbrev S2048x1 : Shape := ⟨2, ![2048, 1]⟩
abbrev S10000x2 : Shape := ⟨2, ![10000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S1x2048, .f32⟩
  | .hbm, ⟨57, _⟩ => ⟨S10000x2048, .f32⟩
  | .hbm, ⟨58, _⟩ => ⟨S10000x2048, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S2048x10000, .f32⟩
  | .hbm, ⟨71, _⟩ => ⟨S2048x64, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x64, .f32⟩
  | .hbm, ⟨78, _⟩ => ⟨S2048x64, .f32⟩
  | .hbm, ⟨79, _⟩ => ⟨S10000x64, .f32⟩
  | .hbm, ⟨80, _⟩ => ⟨S10000x1, .f32⟩
  | .hbm, ⟨81, _⟩ => ⟨S10000x64, .f32⟩
  | .hbm, ⟨82, _⟩ => ⟨S10000x64, .f32⟩
  | .hbm, ⟨83, _⟩ => ⟨S_, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S1x64, .f32⟩
  | .hbm, ⟨88, _⟩ => ⟨S10000x64, .f32⟩
  | .hbm, ⟨89, _⟩ => ⟨S10000x64, .f32⟩
  | .hbm, ⟨90, _⟩ => ⟨S1x2048, .f32⟩
  | .hbm, ⟨91, _⟩ => ⟨S10000x2048, .f32⟩
  | .hbm, ⟨92, _⟩ => ⟨S10000x2048, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S2048, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000, .f32⟩
  | .hbm, ⟨101, _⟩ => ⟨S10000x1, .f32⟩
  | .hbm, ⟨102, _⟩ => ⟨S10000x64, .f32⟩
  | .hbm, ⟨103, _⟩ => ⟨S10000x64, .f32⟩
  | .hbm, ⟨104, _⟩ => ⟨S2048x10000, .f32⟩
  | .hbm, ⟨105, _⟩ => ⟨S2048x64, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S10000x64, .f32⟩
  | .hbm, ⟨114, _⟩ => ⟨S10000x1, .f32⟩
  | .hbm, ⟨115, _⟩ => ⟨S10000x64, .f32⟩
  | .hbm, ⟨116, _⟩ => ⟨S10000x64, .f32⟩
  | .hbm, ⟨117, _⟩ => ⟨S_, .f32⟩
  | .hbm, ⟨118, _⟩ => ⟨S10000x64, .f32⟩
  | .hbm, ⟨119, _⟩ => ⟨S10000x64, .f32⟩
  | .hbm, ⟨120, _⟩ => ⟨S10000x2, .f32⟩
  | .hbm, ⟨121, _⟩ => ⟨S1x2, .f32⟩
  | .hbm, ⟨122, _⟩ => ⟨S10000x2, .f32⟩
  | .hbm, ⟨123, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x64_d1 : Shape.Concatenates [S10000x32, S10000x32] S10000x64 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x32 : S_.BroadcastsInDim S10000x32 (![] : Fin 0 → Fin S10000x32.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  h_S_ : 0 < S_.numel
  reducesTo_S10000x2048_S2048_d0 : S10000x2048.ReducesTo [0] S2048
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x2048_S2048x10000_1_0 : S10000x2048.Transposes [1, 0] S2048x10000
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x128_S128x32_S10000x32_1_0_0_1_n_n_wf : DotDims.WF S10000x128 S128x32 S10000x32 [1] [0] [0] [1] [] []
  dot_S10000x16_S16x32_S10000x32_1_0_0_1_n_n_wf : DotDims.WF S10000x16 S16x32 S10000x32 [1] [0] [0] [1] [] []
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S2048x10000_S10000x64_S2048x64_1_0_0_1_n_n_wf : DotDims.WF S2048x10000 S10000x64 S2048x64 [1] [0] [0] [1] [] []
  dot_S10000x2048_S2048x64_S10000x64_1_0_0_1_n_n_wf : DotDims.WF S10000x2048 S2048x64 S10000x64 [1] [0] [0] [1] [] []
  dot_S10000x64_S64x2_S10000x2_1_0_0_1_n_n_wf : DotDims.WF S10000x64 S64x2 S10000x2 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2048x10000_S10000x64_S2048x64_1_0_0_1_n_n : DotDims S2048x10000 S10000x64 S2048x64 where
  lhsContracting := [1]
  rhsContracting := [0]
  lhsNonContracting := [0]
  rhsNonContracting := [1]
  lhsBatch := []
  rhsBatch := []
  wf := dot_S2048x10000_S10000x64_S2048x64_1_0_0_1_n_n_wf
def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

class Facts : Prop extends Facts₀ where

variable [Facts]
-- ==== Proof.Fold.lean ====
/-
  What each sweep finds in the arrays it reads, traced back through the program: an argument nobody has written is
  still the launch contents; a bias or the edge weights reshaped to a row or a column reads the vector at the same
  position; an earlier sweep's output is what that sweep's write-backs left; the degrees reshaped to a column read the
  degree row at the same position. And the two results are what the third and the first sweep left.
-/
import proofs.«168773_g40587440947829_cont_sun_m_1101_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg)

/-! ## Two casts read at an index -/

/-- A vector cast to a column reads, at `(i, u)`, the vector at `i`: both have row-major position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row cast to a column reads, at `(i, u)`, the row at `(0, i)`: both have row-major position `i`. -/
private theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) := by
  refine shapeCast_apply x h _ _ ?_
  have hu : u.val = 0 := by omega
  rw [Shape.rowMajor_val_two (i := ix2 (0 : Fin 1) i), Shape.rowMajor_val_two (i := ix2 i u)]
  show 0 * a + i.val = i.val * 1 + u.val
  rw [hu, Nat.zero_mul, Nat.zero_add, Nat.mul_one, Nat.add_zero]

/-! ## A stretch of reshapes leaves every buffer that is not one of its results

Each operation of a stretch writes its result only, so the fold of the stretch at any other buffer is the identity:
the buffer differs from each result in turn. -/

local macro "host_unwritten" ops:ident : tactic => `(tactic| (
  refine StableHlo.after_of_forall_not_mem _ _ (List.forall_iff_forall_mem.mp ?_)
  simp only [$ops:ident, List.Forall, StableHlo.reshape_writes, Finset.mem_singleton]
  repeat' apply And.intro
  all_goals exact StableHlo.devRef_ne_of_ne (by decide)))

/-! ## What the first sweep is handed -/

/-- An argument, unwritten before the first sweep. -/
theorem V1_arg2 (c : Dev nD) : V1 m ρ c main_arg2 = m ((c : Thread nD τ).loc main_arg2) :=
  (show W1 m ρ c (Proc.devRef .tc main_arg2) = W0 m ρ c (Proc.devRef .tc main_arg2) by host_unwritten hostOps0).trans rfl

/-- An argument, unwritten before the first sweep. -/
theorem V1_arg0 (c : Dev nD) : V1 m ρ c main_arg0 = m ((c : Thread nD τ).loc main_arg0) :=
  (show W1 m ρ c (Proc.devRef .tc main_arg0) = W0 m ρ c (Proc.devRef .tc main_arg0) by host_unwritten hostOps0).trans rfl

/-- An argument, unwritten before the first sweep. -/
theorem V1_arg1 (c : Dev nD) : V1 m ρ c main_arg1 = m ((c : Thread nD τ).loc main_arg1) :=
  (show W1 m ρ c (Proc.devRef .tc main_arg1) = W0 m ρ c (Proc.devRef .tc main_arg1) by host_unwritten hostOps0).trans rfl

/-- An argument, unwritten before the first sweep. -/
theorem V1_arg4 (c : Dev nD) : V1 m ρ c main_arg4 = m ((c : Thread nD τ).loc main_arg4) :=
  (show W1 m ρ c (Proc.devRef .tc main_arg4) = W0 m ρ c (Proc.devRef .tc main_arg4) by host_unwritten hostOps0).trans rfl

/-- An argument, unwritten before the first sweep. -/
theorem V1_arg6 (c : Dev nD) : V1 m ρ c main_arg6 = m ((c : Thread nD τ).loc main_arg6) :=
  (show W1 m ρ c (Proc.devRef .tc main_arg6) = W0 m ρ c (Proc.devRef .tc main_arg6) by host_unwritten hostOps0).trans rfl

/-- An argument, unwritten before the first sweep. -/
theorem V1_arg8 (c : Dev nD) : V1 m ρ c main_arg8 = m ((c : Thread nD τ).loc main_arg8) :=
  (show W1 m ρ c (Proc.devRef .tc main_arg8) = W0 m ρ c (Proc.devRef .tc main_arg8) by host_unwritten hostOps0).trans rfl

/-- An argument, unwritten before the first sweep. -/
theorem V1_arg10 (c : Dev nD) : V1 m ρ c main_arg10 = m ((c : Thread nD τ).loc main_arg10) :=
  (show W1 m ρ c (Proc.devRef .tc main_arg10) = W0 m ρ c (Proc.devRef .tc main_arg10) by host_unwritten hostOps0).trans rfl

/-- An argument, unwritten before the first sweep. -/
theorem V1_arg12 (c : Dev nD) : V1 m ρ c main_arg12 = m ((c : Thread nD τ).loc main_arg12) :=
  (show W1 m ρ c (Proc.devRef .tc main_arg12) = W0 m ρ c (Proc.devRef .tc main_arg12) by host_unwritten hostOps0).trans rfl

/-- The first stretch leaves the edge weights' row holding the weights cast to a row. -/
private theorem V1_v0_eq (c : Dev nD) :
    (V1 m ρ c main_v0 : S1x2048.Idx → EReal)
      = shapeCast S1x2048 (m ((c : Thread nD τ).loc main_arg3) : S2048.Idx → EReal) Facts₀.shapeCasts_S2048_S1x2048 := by
  dsimp only [V1, W1, hostOps0]; after_results; rfl

/-- The first stretch leaves the edge weights' column holding the weights cast to a column. -/
private theorem V1_v1_eq (c : Dev nD) :
    (V1 m ρ c main_v1 : S2048x1.Idx → EReal)
      = shapeCast S2048x1 (m ((c : Thread nD τ).loc main_arg3) : S2048.Idx → EReal) Facts₀.shapeCasts_S2048_S2048x1 := by
  dsimp only [V1, W1, hostOps0]; after_results; rfl

/-- The first stretch leaves this row holding its bias cast to a row. -/
private theorem V1_v2_eq (c : Dev nD) :
    (V1 m ρ c main_v2 : S1x32.Idx → EReal)
      = shapeCast S1x32 (m ((c : Thread nD τ).loc main_arg5) : S32.Idx → EReal) Facts₀.shapeCasts_S32_S1x32 := by
  dsimp only [V1, W1, hostOps0]; after_results; rfl

/-- The first stretch leaves this row holding its bias cast to a row. -/
private theorem V1_v3_eq (c : Dev nD) :
    (V1 m ρ c main_v3 : S1x32.Idx → EReal)
      = shapeCast S1x32 (m ((c : Thread nD τ).loc main_arg7) : S32.Idx → EReal) Facts₀.shapeCasts_S32_S1x32 := by
  dsimp only [V1, W1, hostOps0]; after_results; rfl

/-- The first stretch leaves this row holding its bias cast to a row. -/
private theorem V1_v4_eq (c : Dev nD) :
    (V1 m ρ c main_v4 : S1x64.Idx → EReal)
      = shapeCast S1x64 (m ((c : Thread nD τ).loc main_arg9) : S64.Idx → EReal) Facts₀.shapeCasts_S64_S1x64 := by
  dsimp only [V1, W1, hostOps0]; after_results; rfl

/-- The first stretch leaves this row holding its bias cast to a row. -/
private theorem V1_v5_eq (c : Dev nD) :
    (V1 m ρ c main_v5 : S1x32.Idx → EReal)
      = shapeCast S1x32 (m ((c : Thread nD τ).loc main_arg11) : S32.Idx → EReal) Facts₀.shapeCasts_S32_S1x32 := by
  dsimp only [V1, W1, hostOps0]; after_results; rfl

/-- The first stretch leaves this row holding its bias cast to a row. -/
private theorem V1_v6_eq (c : Dev nD) :
    (V1 m ρ c main_v6 : S1x64.Idx → EReal)
      = shapeCast S1x64 (m ((c : Thread nD τ).loc main_arg13) : S64.Idx → EReal) Facts₀.shapeCasts_S64_S1x64 := by
  dsimp only [V1, W1, hostOps0]; after_results; rfl

/-- The edge weights as a row. -/
theorem V1_w (c : Dev nD) (j : Fin 2048) :
    V1 m ρ c main_v0 (ix2 (0 : Fin 1) j) = m ((c : Thread nD τ).loc main_arg3) (ix1 j) := by
  rw [V1_v0_eq m ρ c]
  exact shapeCast_a_1a_apply _ _ _ _

/-- A bias as a row. -/
theorem V1_psib (c : Dev nD) (j : Fin 32) :
    V1 m ρ c main_v2 (ix2 (0 : Fin 1) j) = m ((c : Thread nD τ).loc main_arg5) (ix1 j) := by
  rw [V1_v2_eq m ρ c]
  exact shapeCast_a_1a_apply _ _ _ _

/-- A bias as a row. -/
theorem V1_phib (c : Dev nD) (j : Fin 32) :
    V1 m ρ c main_v3 (ix2 (0 : Fin 1) j) = m ((c : Thread nD τ).loc main_arg7) (ix1 j) := by
  rw [V1_v3_eq m ρ c]
  exact shapeCast_a_1a_apply _ _ _ _

/-- A bias as a row. -/
theorem V1_g1b (c : Dev nD) (j : Fin 64) :
    V1 m ρ c main_v4 (ix2 (0 : Fin 1) j) = m ((c : Thread nD τ).loc main_arg9) (ix1 j) := by
  rw [V1_v4_eq m ρ c]
  exact shapeCast_a_1a_apply _ _ _ _

/-- A bias as a row. -/
theorem V1_g2b (c : Dev nD) (j : Fin 32) :
    V1 m ρ c main_v5 (ix2 (0 : Fin 1) j) = m ((c : Thread nD τ).loc main_arg11) (ix1 j) := by
  rw [V1_v5_eq m ρ c]
  exact shapeCast_a_1a_apply _ _ _ _

/-- A bias as a row. -/
theorem V1_c1b (c : Dev nD) (j : Fin 64) :
    V1 m ρ c main_v6 (ix2 (0 : Fin 1) j) = m ((c : Thread nD τ).loc main_arg13) (ix1 j) := by
  rw [V1_v6_eq m ρ c]
  exact shapeCast_a_1a_apply _ _ _ _

/-! ## What the second sweep is handed -/

/-- An argument, unwritten before the second sweep: the second stretch does not write it and the first sweep only reads it. -/
theorem V3_arg2 (c : Dev nD) : V3 m ρ c main_arg2 = m ((c : Thread nD τ).loc main_arg2) :=
  (show W3 m ρ c (Proc.devRef .tc main_arg2) = W2 m ρ c (Proc.devRef .tc main_arg2) by host_unwritten hostOps1).trans
    (((W2_arr m ρ c 0).trans (((dat0 (V1 m ρ) c).arrAt_in 0 rfl _).trans (A_eq0 (V1 m ρ) c 0))).trans (V1_arg2 m ρ c))

/-- An argument no stretch writes and the first sweep does not own is, after the first sweep, the launch contents. -/
private theorem W2_launch (c : Dev nD) (r : Ref sig .tc) (h0 : ∀ w, Pipeline.arrRef spec0 w ≠ r)
    (h1 : W1 m ρ c (Proc.devRef .tc r) = W0 m ρ c (Proc.devRef .tc r)) :
    W2 m ρ c (Proc.devRef .tc r) = W0 m ρ c (Proc.devRef .tc r) :=
  (W2_of_ne m ρ c r h0).trans h1

/-- An argument, unwritten before the second sweep. -/
theorem V3_arg14 (c : Dev nD) : V3 m ρ c main_arg14 = m ((c : Thread nD τ).loc main_arg14) :=
  (show W3 m ρ c (Proc.devRef .tc main_arg14) = W2 m ρ c (Proc.devRef .tc main_arg14) by host_unwritten hostOps1).trans
    ((W2_launch m ρ c main_arg14 (by decide) (by host_unwritten hostOps0)).trans rfl)

/-- The node scaling the first sweep left. -/
theorem V3_s (c : Dev nD) : V3 m ρ c main_v7_1 = (dat0 (V1 m ρ) c).arrAt 15 cfg0.N :=
  (show W3 m ρ c (Proc.devRef .tc main_v7_1) = W2 m ρ c (Proc.devRef .tc main_v7_1) by host_unwritten hostOps1).trans
    (W2_arr m ρ c 15)

/-- The aggregate the first sweep left. -/
theorem V3_m1 (c : Dev nD) : V3 m ρ c main_v7_3 = (dat0 (V1 m ρ) c).arrAt 17 cfg0.N :=
  (show W3 m ρ c (Proc.devRef .tc main_v7_3) = W2 m ρ c (Proc.devRef .tc main_v7_3) by host_unwritten hostOps1).trans
    (W2_arr m ρ c 17)

/-- The weights' column is not touched between the first stretch and the second sweep. -/
private theorem V3_v1 (c : Dev nD) : V3 m ρ c main_v1 = V1 m ρ c main_v1 :=
  (show W3 m ρ c (Proc.devRef .tc main_v1) = W2 m ρ c (Proc.devRef .tc main_v1) by host_unwritten hostOps1).trans
    (W2_of_ne m ρ c main_v1 (by decide))

/-- The edge weights as a column. -/
theorem V3_w (c : Dev nD) (e : Fin 2048) :
    V3 m ρ c main_v1 (ix2 e (0 : Fin 1)) = m ((c : Thread nD τ).loc main_arg3) (ix1 e) := by
  rw [V3_v1 m ρ c, V1_v1_eq m ρ c]
  exact shapeCast_a_a1_apply _ _ _ _

/-- The second stretch leaves the degrees' column holding the first sweep's degree row cast to a column. -/
private theorem V3_v8_eq (c : Dev nD) :
    (V3 m ρ c main_v8 : S2048x1.Idx → EReal)
      = shapeCast S2048x1 (W2 m ρ c (Proc.devRef .tc main_v7_2) : S1x2048.Idx → EReal) Facts₀.shapeCasts_S1x2048_S2048x1 := by
  dsimp only [V3, W3, hostOps1]; after_results; rfl

/-- The degrees the first sweep left, as a column. -/
theorem V3_de (c : Dev nD) (e : Fin 2048) :
    V3 m ρ c main_v8 (ix2 e (0 : Fin 1)) = (dat0 (V1 m ρ) c).arrAt 16 cfg0.N (ix2 (0 : Fin 1) e) := by
  rw [V3_v8_eq m ρ c]
  exact (shapeCast_1a_a1_apply _ _ _ _).trans (congrFun (W2_arr m ρ c 16) _)

/-- The second stretch leaves this row holding its bias, as launched, cast to a row. -/
private theorem V3_v9_eq (c : Dev nD) :
    (V3 m ρ c main_v9 : S1x64.Idx → EReal)
      = shapeCast S1x64 (W2 m ρ c (Proc.devRef .tc main_arg15) : S64.Idx → EReal) Facts₀.shapeCasts_S64_S1x64 := by
  dsimp only [V3, W3, hostOps1]; after_results; rfl

/-- A bias as a row. -/
theorem V3_c2b (c : Dev nD) (j : Fin 64) :
    V3 m ρ c main_v9 (ix2 (0 : Fin 1) j) = m ((c : Thread nD τ).loc main_arg15) (ix1 j) := by
  rw [V3_v9_eq m ρ c]
  exact (shapeCast_a_1a_apply _ _ _ _).trans
    (congrFun ((W2_launch m ρ c main_arg15 (by decide) (by host_unwritten hostOps0)).trans rfl) _)

/-! ## What the third sweep is handed -/

/-- An argument, unwritten before the third sweep: the third stretch does not write it and the second sweep only reads it. -/
theorem V5_arg2 (c : Dev nD) : V5 m ρ c main_arg2 = m ((c : Thread nD τ).loc main_arg2) :=
  (show W5 m ρ c (Proc.devRef .tc main_arg2) = W4 m ρ c (Proc.devRef .tc main_arg2) by host_unwritten hostOps2).trans
    (((W4_arr m ρ c 0).trans (((dat1 (V3 m ρ) c).arrAt_in 0 rfl _).trans (A_eq1 (V3 m ρ) c 0))).trans (V3_arg2 m ρ c))

/-- An argument, unwritten before the third sweep. -/
theorem V5_arg16 (c : Dev nD) : V5 m ρ c main_arg16 = m ((c : Thread nD τ).loc main_arg16) :=
  (show W5 m ρ c (Proc.devRef .tc main_arg16) = W4 m ρ c (Proc.devRef .tc main_arg16) by host_unwritten hostOps2).trans
    ((W4_of_ne m ρ c main_arg16 (by decide)).trans
      ((show W3 m ρ c (Proc.devRef .tc main_arg16) = W2 m ρ c (Proc.devRef .tc main_arg16) by host_unwritten hostOps1).trans
        ((W2_launch m ρ c main_arg16 (by decide) (by host_unwritten hostOps0)).trans rfl)))

/-- The node scaling the first sweep left: the second sweep only reads it. -/
theorem V5_s (c : Dev nD) : V5 m ρ c main_v7_1 = (dat0 (V1 m ρ) c).arrAt 15 cfg0.N :=
  (show W5 m ρ c (Proc.devRef .tc main_v7_1) = W4 m ρ c (Proc.devRef .tc main_v7_1) by host_unwritten hostOps2).trans
    (((W4_arr m ρ c 1).trans (((dat1 (V3 m ρ) c).arrAt_in 1 rfl _).trans (A_eq1 (V3 m ρ) c 1))).trans (V3_s m ρ c))

/-- The aggregate the second sweep left. -/
theorem V5_m2 (c : Dev nD) : V5 m ρ c main_v10 = (dat1 (V3 m ρ) c).arrAt 7 cfg1.N :=
  (show W5 m ρ c (Proc.devRef .tc main_v10) = W4 m ρ c (Proc.devRef .tc main_v10) by host_unwritten hostOps2).trans
    (W4_arr m ρ c 7)

/-- The weights' column: the second sweep only reads it. -/
private theorem V5_v1 (c : Dev nD) : V5 m ρ c main_v1 = V3 m ρ c main_v1 :=
  (show W5 m ρ c (Proc.devRef .tc main_v1) = W4 m ρ c (Proc.devRef .tc main_v1) by host_unwritten hostOps2).trans
    ((W4_arr m ρ c 3).trans (((dat1 (V3 m ρ) c).arrAt_in 3 rfl _).trans (A_eq1 (V3 m ρ) c 3)))

/-- The edge weights as a column. -/
theorem V5_w (c : Dev nD) (e : Fin 2048) :
    V5 m ρ c main_v1 (ix2 e (0 : Fin 1)) = m ((c : Thread nD τ).loc main_arg3) (ix1 e) := by
  rw [V5_v1 m ρ c]
  exact V3_w m ρ c e

/-- The degrees' column: the second sweep only reads it. -/
private theorem V5_v8 (c : Dev nD) : V5 m ρ c main_v8 = V3 m ρ c main_v8 :=
  (show W5 m ρ c (Proc.devRef .tc main_v8) = W4 m ρ c (Proc.devRef .tc main_v8) by host_unwritten hostOps2).trans
    ((W4_arr m ρ c 4).trans (((dat1 (V3 m ρ) c).arrAt_in 4 rfl _).trans (A_eq1 (V3 m ρ) c 4)))

/-- The degrees the first sweep left, as a column. -/
theorem V5_de (c : Dev nD) (e : Fin 2048) :
    V5 m ρ c main_v8 (ix2 e (0 : Fin 1)) = (dat0 (V1 m ρ) c).arrAt 16 cfg0.N (ix2 (0 : Fin 1) e) := by
  rw [V5_v8 m ρ c]
  exact V3_de m ρ c e

/-- The third stretch leaves the head's bias row holding the bias, as the second sweep left it, cast to a row. -/
private theorem V5_v11_eq (c : Dev nD) :
    (V5 m ρ c main_v11 : S1x2.Idx → EReal)
      = shapeCast S1x2 (W4 m ρ c (Proc.devRef .tc main_arg17) : S2.Idx → EReal) Facts₀.shapeCasts_S2_S1x2 := by
  dsimp only [V5, W5, hostOps2]; after_results; rfl

/-- The head's bias, written by nobody, is still the launch contents after the second sweep. -/
private theorem W4_arg17 (c : Dev nD) : W4 m ρ c (Proc.devRef .tc main_arg17) = m ((c : Thread nD τ).loc main_arg17) :=
  (W4_of_ne m ρ c main_arg17 (by decide)).trans
    ((show W3 m ρ c (Proc.devRef .tc main_arg17) = W2 m ρ c (Proc.devRef .tc main_arg17) by host_unwritten hostOps1).trans
      ((W2_launch m ρ c main_arg17 (by decide) (by host_unwritten hostOps0)).trans rfl))

/-- The head's bias as a row. -/
theorem V5_hdb (c : Dev nD) (j : Fin 2) :
    V5 m ρ c main_v11 (ix2 (0 : Fin 1) j) = m ((c : Thread nD τ).loc main_arg17) (ix1 j) := by
  rw [V5_v11_eq m ρ c]
  exact (shapeCast_a_1a_apply _ _ _ _).trans (congrFun (W4_arg17 m ρ c) _)

/-! ## The two results at the end -/

/-- The logits are what the third sweep left. -/
theorem W6_logits (c : Dev nD) : W6 m ρ c (Proc.devRef .tc main_v12) = (dat2 (V5 m ρ) c).arrAt 7 cfg2.N :=
  W6_arr m ρ c 7

/-- The gate is what the first sweep left: neither later sweep owns it and no later stretch writes it. -/
theorem W6_gate (c : Dev nD) : W6 m ρ c (Proc.devRef .tc main_v7_0) = (dat0 (V1 m ρ) c).arrAt 14 cfg0.N :=
  (W6_of_ne m ρ c main_v7_0 (by decide)).trans
    ((show W5 m ρ c (Proc.devRef .tc main_v7_0) = W4 m ρ c (Proc.devRef .tc main_v7_0) by host_unwritten hostOps2).trans
      ((W4_of_ne m ρ c main_v7_0 (by decide)).trans
        ((show W3 m ρ c (Proc.devRef .tc main_v7_0) = W2 m ρ c (Proc.devRef .tc main_v7_0) by host_unwritten hostOps1).trans
          (W2_arr m ρ c 14))))

end Cert.KernelIdeal.Fold

end
-- ==== Proof.Spec.lean ====
/-
  The mathematics both programs compute, stated once over the extended reals with every index a coordinate.

  A row of x (128 features) and the matching row of z (16 features) are each sent through a linear layer to 32
  features; a gate g in (0,1)^32 is the logistic of a two-layer perceptron of their concatenation; the fused row is
  g·z1 + (1 − g)·x1. Then two hypergraph convolutions over a dense incidence matrix H (10000 nodes, 2048
  hyperedges, edge weights w): a linear layer on the node features, a scaling of node n by
  s n = (∑ₑ H n e · w e + ε)^(-1/2), an aggregation to the hyperedges m e d = ∑ₙ H n e · X n d, a scaling of hyperedge
  e by w e / (∑ₙ H n e + ε), a scatter back to the nodes ∑ₑ H n e · m e d, the node scaling again, and a rectifier.
  A last linear layer gives two logits per node.

  The three sweeps over H that a tiled evaluation makes are stated here as functions of the arrays each sweep is
  handed (first, second, third below), so that a sweep can be proved on its own; the whole is their composition.
-/
import Idealize.ShloMosaic.PureOps.Ideal
import Idealize.ShloMosaic.Lib.ValueIdx

noncomputable section

open scoped BigOperators
open Idealize.ShloMosaic

namespace Cert.HGSpec

/-- The smoothing term ε (the binary value of the float nearest 1e-9). -/
abbrev eps : EReal := Ideal.ofBits .f32 0x3089705F#32
/-- The float one. -/
abbrev one : EReal := Ideal.ofBits .f32 0x3F800000#32

/-! ## One row -/

/-- A linear layer on one row: (a · W + b) at column d. -/
def lin {K D : Nat} (a : Fin K → EReal) (W : Fin K → Fin D → EReal) (b : Fin D → EReal) (d : Fin D) : EReal :=
  (∑ k : Fin K, a k * W k d) + b d

/-- Two rows of 32 side by side. -/
def cat (u v : Fin 32 → EReal) (k : Fin 64) : EReal :=
  if h : k.val < 32 then u ⟨k.val, h⟩ else v ⟨k.val - 32, by have := k.isLt; omega⟩

/-- The rectifier. -/
def relu (a : EReal) : EReal := max a 0

section Row
variable (psiW : Fin 128 → Fin 32 → EReal) (psib : Fin 32 → EReal) (phiW : Fin 16 → Fin 32 → EReal) (phib : Fin 32 → EReal)
  (g1W : Fin 64 → Fin 64 → EReal) (g1b : Fin 64 → EReal) (g2W : Fin 64 → Fin 32 → EReal) (g2b : Fin 32 → EReal)
  (c1W : Fin 32 → Fin 64 → EReal) (c1b : Fin 64 → EReal)

/-- The gate of one row: logistic of the perceptron of (x1, z1). -/
def gateRow (xr : Fin 128 → EReal) (zr : Fin 16 → EReal) (j : Fin 32) : EReal :=
  Ideal.logistic (lin (fun k => relu (lin (cat (lin xr psiW psib) (lin zr phiW phib)) g1W g1b k)) g2W g2b j)

/-- The fused row g·z1 + (1 − g)·x1. -/
def fusedRow (xr : Fin 128 → EReal) (zr : Fin 16 → EReal) (j : Fin 32) : EReal :=
  gateRow psiW psib phiW phib g1W g1b g2W g2b xr zr j * lin zr phiW phib j
    + (one - gateRow psiW psib phiW phib g1W g1b g2W g2b xr zr j) * lin xr psiW psib j

/-- The first convolution's linear layer on the fused row. -/
def conv1Row (xr : Fin 128 → EReal) (zr : Fin 16 → EReal) (d : Fin 64) : EReal :=
  lin (fusedRow psiW psib phiW phib g1W g1b g2W g2b xr zr) c1W c1b d
end Row

/-! ## The pieces of a convolution -/

/-- The node scaling (∑ₑ h e · w e + ε)^(-1/2) of one row h of H. -/
def nodeScale (h w : Fin 2048 → EReal) : EReal := Ideal.rsqrt ((∑ e : Fin 2048, h e * w e) + eps)

/-- The hyperedge degrees ∑ₙ H n e. -/
def edgeDeg (H : Fin 10000 → Fin 2048 → EReal) (e : Fin 2048) : EReal := ∑ n : Fin 10000, H n e

/-- Node to hyperedge: ∑ₙ H n e · X n d. -/
def gather (H : Fin 10000 → Fin 2048 → EReal) (X : Fin 10000 → Fin 64 → EReal) (e : Fin 2048) (d : Fin 64) : EReal :=
  ∑ n : Fin 10000, H n e * X n d

/-- The hyperedge scaling w e / (deg e + ε). -/
def edgeScale (w deg : Fin 2048 → EReal) (e : Fin 2048) : EReal := Ideal.div (w e) (deg e + eps)

/-- Hyperedge to node on one row h of H, scaled by the node's s and rectified:
    relu ((∑ₑ h e · (m e d · edgeScale e)) · s). -/
def scatterRow (h : Fin 2048 → EReal) (s : EReal) (m : Fin 2048 → Fin 64 → EReal) (w deg : Fin 2048 → EReal) (d : Fin 64) : EReal :=
  relu ((∑ e : Fin 2048, h e * (m e d * edgeScale w deg e)) * s)

/-! ## The three sweeps over H, each as a function of the arrays it is handed -/

section First
variable (H : Fin 10000 → Fin 2048 → EReal) (x : Fin 10000 → Fin 128 → EReal) (z : Fin 10000 → Fin 16 → EReal) (w : Fin 2048 → EReal)
  (psiW : Fin 128 → Fin 32 → EReal) (psib : Fin 32 → EReal) (phiW : Fin 16 → Fin 32 → EReal) (phib : Fin 32 → EReal)
  (g1W : Fin 64 → Fin 64 → EReal) (g1b : Fin 64 → EReal) (g2W : Fin 64 → Fin 32 → EReal) (g2b : Fin 32 → EReal)
  (c1W : Fin 32 → Fin 64 → EReal) (c1b : Fin 64 → EReal)

/-- The first sweep's gate output. -/
def firstGate (n : Fin 10000) (j : Fin 32) : EReal := gateRow psiW psib phiW phib g1W g1b g2W g2b (x n) (z n) j
/-- The first sweep's node scaling. -/
def firstScale (n : Fin 10000) : EReal := nodeScale (H n) w
/-- The first sweep's hyperedge aggregate of the scaled first-layer features. -/
def firstAgg (e : Fin 2048) (d : Fin 64) : EReal :=
  gather H (fun n d => conv1Row psiW psib phiW phib g1W g1b g2W g2b c1W c1b (x n) (z n) d * firstScale H w n) e d
end First

section Second
variable (H : Fin 10000 → Fin 2048 → EReal) (s : Fin 10000 → EReal) (m1 : Fin 2048 → Fin 64 → EReal) (w deg : Fin 2048 → EReal)
  (c2W : Fin 64 → Fin 64 → EReal) (c2b : Fin 64 → EReal)
/-- The second sweep: scatter the first aggregate back, apply the second layer, scale, aggregate again. -/
def secondAgg (e : Fin 2048) (d : Fin 64) : EReal :=
  gather H (fun n d => lin (scatterRow (H n) (s n) m1 w deg) c2W c2b d * s n) e d
end Second

section Third
variable (H : Fin 10000 → Fin 2048 → EReal) (s : Fin 10000 → EReal) (m2 : Fin 2048 → Fin 64 → EReal) (w deg : Fin 2048 → EReal)
  (hdW : Fin 64 → Fin 2 → EReal) (hdb : Fin 2 → EReal)
/-- The third sweep: scatter the second aggregate back and apply the head. -/
def thirdOut (n : Fin 10000) (o : Fin 2) : EReal := lin (scatterRow (H n) (s n) m2 w deg) hdW hdb o
end Third

/-! ## The whole -/

section Whole
variable (x : Fin 10000 → Fin 128 → EReal) (z : Fin 10000 → Fin 16 → EReal) (H : Fin 10000 → Fin 2048 → EReal) (w : Fin 2048 → EReal)
  (psiW : Fin 128 → Fin 32 → EReal) (psib : Fin 32 → EReal) (phiW : Fin 16 → Fin 32 → EReal) (phib : Fin 32 → EReal)
  (g1W : Fin 64 → Fin 64 → EReal) (g1b : Fin 64 → EReal) (g2W : Fin 64 → Fin 32 → EReal) (g2b : Fin 32 → EReal)
  (c1W : Fin 32 → Fin 64 → EReal) (c1b : Fin 64 → EReal) (c2W : Fin 64 → Fin 64 → EReal) (c2b : Fin 64 → EReal)
  (hdW : Fin 64 → Fin 2 → EReal) (hdb : Fin 2 → EReal)

/-- The logits: the three sweeps composed. -/
def logits (n : Fin 10000) (o : Fin 2) : EReal :=
  thirdOut H (firstScale H w)
    (secondAgg H (firstScale H w) (firstAgg H x z w psiW psib phiW phib g1W g1b g2W g2b c1W c1b) w (edgeDeg H) c2W c2b)
    w (edgeDeg H) hdW hdb n o
end Whole

end Cert.HGSpec

end
-- ==== Proof.Views.lean ====
/-
  Arrays of rank one and two read by their coordinates.
-/
import Idealize.ShloMosaic.PureOps.Ideal
import Idealize.ShloMosaic.Lib.ValueIdx

noncomputable section

open Idealize.ShloMosaic Idealize.ShloMosaic.ValueIdx

namespace Cert.HGView

/-- A matrix as a function of its row and its column. -/
abbrev mat {a b : Nat} (x : (⟨2, ![a, b]⟩ : Shape).Idx → EReal) (i : Fin a) (j : Fin b) : EReal := x (ix2 i j)
/-- A one-row matrix as a function of its column. -/
abbrev rowv {b : Nat} (x : (⟨2, ![1, b]⟩ : Shape).Idx → EReal) (j : Fin b) : EReal := x (ix2 (0 : Fin 1) j)
/-- A one-column matrix as a function of its row. -/
abbrev colv {a : Nat} (x : (⟨2, ![a, 1]⟩ : Shape).Idx → EReal) (i : Fin a) : EReal := x (ix2 i (0 : Fin 1))
/-- A vector as a function of its coordinate. -/
abbrev vec1 {a : Nat} (x : (⟨1, ![a]⟩ : Shape).Idx → EReal) (i : Fin a) : EReal := x (ix1 i)

end Cert.HGView

end
-- ==== Proof.Pay0.lean ====
/-
  The first sweep's arithmetic on one tile of 1000 rows, read at one element.
-/
import proofs.«168773_g40587440947829_cont_sun_m_1101_2_alg».proof.Proof.Gen.KernelIdeal.Skeleton
import proofs.«168773_g40587440947829_cont_sun_m_1101_2_alg».proof.Proof.Spec
import proofs.«168773_g40587440947829_cont_sun_m_1101_2_alg».proof.Proof.Views
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Pay0

open Cert.KernelIdeal Cert.KernelIdeal.Gen Cert.HGSpec Cert.HGView

/-! ## Layout forms with a unit column -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A product of matrices into the zero accumulator, read at an element -/

/-- For dimension numbers over `[M, K]`, `[K, N]`, `[M, N]` that contract one axis of extent `K` and whose operand
    indices at `(r, j)` and contraction coordinate `k` are `(r, k)` and `(k, j)` (the four coordinate facts), the
    product into zero at `(r, j)` is `∑ k, a (r, k) · b (k, j)`. -/
theorem matmul_zero_rows {M K N : ℕ} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision)
    (a : FVec Ideal ⟨2, ![M, K]⟩ .f32) (b : FVec Ideal ⟨2, ![K, N]⟩ .f32) (r : Fin M) (j : Fin N) :
    FloatOps.matmul D prec a b (constant ⟨2, ![M, N]⟩ .f32 0x00000000#32) (ix2 r j)
      = ∑ k : Fin K, a (ix2 r k) * b (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact l0 _ _
    | ⟨1, _⟩ => exact (l1 _ _).trans hk)
  have er : D.rhsIdx (ix2 r j) ((contrEquiv1 D K hr hs).symm k) = ix2 k j := funext fun a => Fin.ext (by
    match a with
    | ⟨0, _⟩ => exact (r0 _ _).trans hk
    | ⟨1, _⟩ => exact r1 _ _)
  rw [el, er]

/-! ## Sums along one axis of a matrix -/

/-- The sum along the columns, at row `r`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- The sum along the rows, at column `e`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ src 0x00000000#32 h hφ hacc (ix1 e) = ∑ k : Fin a, src (ix2 k e) := by
  refine (Ideal.multiReduction_add_single src 0x00000000#32 h hφ hacc (ix1 e)).trans ?_
  refine Finset.sum_congr rfl fun k _ => congrArg src ?_
  funext c
  match c with
  | ⟨0, _⟩ => rfl
  | ⟨1, _⟩ => rfl

/-! ## A linear layer on a tile: a product into zero plus a bias row -/

theorem linLayer_apply {M K N : ℕ} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision)
    (a : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (r : Fin M) (j : Fin N) :
    addf (matmul D prec a W (constant ⟨2, ![M, N]⟩ .f32 0x00000000#32))
        (broadcastTo ⟨2, ![M, N]⟩ (shapeCast ⟨2, ![1, N]⟩ b hc) hb) (ix2 r j)
      = lin (fun k => a (ix2 r k)) (fun k d => W (ix2 k d)) (fun d => b (ix2 (0 : Fin 1) d)) j := by
  unfold lin
  rw [addf_apply, shapeCast_self, broadcastTo_1b_ab_apply]
  exact congrArg (· + _) (matmul_zero_rows D hr hs l0 l1 r0 r1 prec a W r j)

/-! ## The coordinate facts of the five row-by-column products and of the transposed one -/

theorem lhs_x_0 (i : S1000x32.Idx) (q : dot_S1000x128_S128x32_S1000x32_1_0_0_1_n_n.contr.Idx) :
    (dot_S1000x128_S128x32_S1000x32_1_0_0_1_n_n.lhsIdx i q 0).val = (i 0).val := by
  unfold DotDims.lhsIdx
  rw [dif_neg (show ¬(0 : Fin S1000x128.rank) ∈ dot_S1000x128_S128x32_S1000x32_1_0_0_1_n_n.lhsBatch by decide), dif_pos (show (0 : Fin S1000x128.rank) ∈ dot_S1000x128_S128x32_S1000x32_1_0_0_1_n_n.lhsNonContracting by decide)]
  rfl
theorem lhs_x_1 (i : S1000x32.Idx) (q : dot_S1000x128_S128x32_S1000x32_1_0_0_1_n_n.contr.Idx) :
    (dot_S1000x128_S128x32_S1000x32_1_0_0_1_n_n.lhsIdx i q 1).val = (q ⟨0, by decide⟩).val :=
  dot_S1000x128_S128x32_S1000x32_1_0_0_1_n_n.lhsIdx_val_of_single rfl i q
theorem rhs_x_0 (i : S1000x32.Idx) (q : dot_S1000x128_S128x32_S1000x32_1_0_0_1_n_n.contr.Idx) :
    (dot_S1000x128_S128x32_S1000x32_1_0_0_1_n_n.rhsIdx i q 0).val = (q ⟨0, by decide⟩).val :=
  dot_S1000x128_S128x32_S1000x32_1_0_0_1_n_n.rhsIdx_val_of_single rfl i q
theorem rhs_x_1 (i : S1000x32.Idx) (q : dot_S1000x128_S128x32_S1000x32_1_0_0_1_n_n.contr.Idx) :
    (dot_S1000x128_S128x32_S1000x32_1_0_0_1_n_n.rhsIdx i q 1).val = (i 1).val := by
  unfold DotDims.rhsIdx
  rw [dif_neg (show ¬(1 : Fin S128x32.rank) ∈ dot_S1000x128_S128x32_S1000x32_1_0_0_1_n_n.rhsBatch by decide), dif_pos (show (1 : Fin S128x32.rank) ∈ dot_S1000x128_S128x32_S1000x32_1_0_0_1_n_n.rhsNonContracting by decide)]
  rfl

theorem lhs_z_0 (i : S1000x32.Idx) (q : dot_S1000x16_S16x32_S1000x32_1_0_0_1_n_n.contr.Idx) :
    (dot_S1000x16_S16x32_S1000x32_1_0_0_1_n_n.lhsIdx i q 0).val = (i 0).val := by
  unfold DotDims.lhsIdx
  rw [dif_neg (show ¬(0 : Fin S1000x16.rank) ∈ dot_S1000x16_S16x32_S1000x32_1_0_0_1_n_n.lhsBatch by decide), dif_pos (show (0 : Fin S1000x16.rank) ∈ dot_S1000x16_S16x32_S1000x32_1_0_0_1_n_n.lhsNonContracting by decide)]
  rfl
theorem lhs_z_1 (i : S1000x32.Idx) (q : dot_S1000x16_S16x32_S1000x32_1_0_0_1_n_n.contr.Idx) :
    (dot_S1000x16_S16x32_S1000x32_1_0_0_1_n_n.lhsIdx i q 1).val = (q ⟨0, by decide⟩).val :=
  dot_S1000x16_S16x32_S1000x32_1_0_0_1_n_n.lhsIdx_val_of_single rfl i q
theorem rhs_z_0 (i : S1000x32.Idx) (q : dot_S1000x16_S16x32_S1000x32_1_0_0_1_n_n.contr.Idx) :
    (dot_S1000x16_S16x32_S1000x32_1_0_0_1_n_n.rhsIdx i q 0).val = (q ⟨0, by decide⟩).val :=
  dot_S1000x16_S16x32_S1000x32_1_0_0_1_n_n.rhsIdx_val_of_single rfl i q
theorem rhs_z_1 (i : S1000x32.Idx) (q : dot_S1000x16_S16x32_S1000x32_1_0_0_1_n_n.contr.Idx) :
    (dot_S1000x16_S16x32_S1000x32_1_0_0_1_n_n.rhsIdx i q 1).val = (i 1).val := by
  unfold DotDims.rhsIdx
  rw [dif_neg (show ¬(1 : Fin S16x32.rank) ∈ dot_S1000x16_S16x32_S1000x32_1_0_0_1_n_n.rhsBatch by decide), dif_pos (show (1 : Fin S16x32.rank) ∈ dot_S1000x16_S16x32_S1000x32_1_0_0_1_n_n.rhsNonContracting by decide)]
  rfl

theorem lhs_g1_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_g1_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs_g1_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs_g1_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

theorem lhs_g2_0 (i : S1000x32.Idx) (q : dot_S1000x64_S64x32_S1000x32_1_0_0_1_n_n.contr.Idx) :
    (dot_S1000x64_S64x32_S1000x32_1_0_0_1_n_n.lhsIdx i q 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem lhs_g2_1 (i : S1000x32.Idx) (q : dot_S1000x64_S64x32_S1000x32_1_0_0_1_n_n.contr.Idx) :
    (dot_S1000x64_S64x32_S1000x32_1_0_0_1_n_n.lhsIdx i q 1).val = (q ⟨0, by decide⟩).val :=
  dot_S1000x64_S64x32_S1000x32_1_0_0_1_n_n.lhsIdx_val_of_single rfl i q
theorem rhs_g2_0 (i : S1000x32.Idx) (q : dot_S1000x64_S64x32_S1000x32_1_0_0_1_n_n.contr.Idx) :
    (dot_S1000x64_S64x32_S1000x32_1_0_0_1_n_n.rhsIdx i q 0).val = (q ⟨0, by decide⟩).val :=
  dot_S1000x64_S64x32_S1000x32_1_0_0_1_n_n.rhsIdx_val_of_single rfl i q
theorem rhs_g2_1 (i : S1000x32.Idx) (q : dot_S1000x64_S64x32_S1000x32_1_0_0_1_n_n.contr.Idx) :
    (dot_S1000x64_S64x32_S1000x32_1_0_0_1_n_n.rhsIdx i q 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl

theorem lhs_c1_0 (i : S1000x64.Idx) (q : dot_S1000x32_S32x64_S1000x64_1_0_0_1_n_n.contr.Idx) :
    (dot_S1000x32_S32x64_S1000x64_1_0_0_1_n_n.lhsIdx i q 0).val = (i 0).val := by
  unfold DotDims.lhsIdx
  rw [dif_neg (show ¬(0 : Fin S1000x32.rank) ∈ dot_S1000x32_S32x64_S1000x64_1_0_0_1_n_n.lhsBatch by decide), dif_pos (show (0 : Fin S1000x32.rank) ∈ dot_S1000x32_S32x64_S1000x64_1_0_0_1_n_n.lhsNonContracting by decide)]
  rfl
theorem lhs_c1_1 (i : S1000x64.Idx) (q : dot_S1000x32_S32x64_S1000x64_1_0_0_1_n_n.contr.Idx) :
    (dot_S1000x32_S32x64_S1000x64_1_0_0_1_n_n.lhsIdx i q 1).val = (q ⟨0, by decide⟩).val :=
  dot_S1000x32_S32x64_S1000x64_1_0_0_1_n_n.lhsIdx_val_of_single rfl i q
theorem rhs_c1_0 (i : S1000x64.Idx) (q : dot_S1000x32_S32x64_S1000x64_1_0_0_1_n_n.contr.Idx) :
    (dot_S1000x32_S32x64_S1000x64_1_0_0_1_n_n.rhsIdx i q 0).val = (q ⟨0, by decide⟩).val :=
  dot_S1000x32_S32x64_S1000x64_1_0_0_1_n_n.rhsIdx_val_of_single rfl i q
theorem rhs_c1_1 (i : S1000x64.Idx) (q : dot_S1000x32_S32x64_S1000x64_1_0_0_1_n_n.contr.Idx) :
    (dot_S1000x32_S32x64_S1000x64_1_0_0_1_n_n.rhsIdx i q 1).val = (i 1).val := by
  unfold DotDims.rhsIdx
  rw [dif_neg (show ¬(1 : Fin S32x64.rank) ∈ dot_S1000x32_S32x64_S1000x64_1_0_0_1_n_n.rhsBatch by decide), dif_pos (show (1 : Fin S32x64.rank) ∈ dot_S1000x32_S32x64_S1000x64_1_0_0_1_n_n.rhsNonContracting by decide)]
  rfl

theorem lhs_agg_0 (i : S2048x64.Idx) (q : dot_S1000x2048_S1000x64_S2048x64_0_0_1_1_n_n.contr.Idx) :
    (dot_S1000x2048_S1000x64_S2048x64_0_0_1_1_n_n.lhsIdx i q 0).val = (q ⟨0, by decide⟩).val :=
  dot_S1000x2048_S1000x64_S2048x64_0_0_1_1_n_n.lhsIdx_val_of_single rfl i q
theorem lhs_agg_1 (i : S2048x64.Idx) (q : dot_S1000x2048_S1000x64_S2048x64_0_0_1_1_n_n.contr.Idx) :
    (dot_S1000x2048_S1000x64_S2048x64_0_0_1_1_n_n.lhsIdx i q 1).val = (i 0).val := by
  unfold DotDims.lhsIdx
  rw [dif_neg (show ¬(1 : Fin S1000x2048.rank) ∈ dot_S1000x2048_S1000x64_S2048x64_0_0_1_1_n_n.lhsBatch by decide), dif_pos (show (1 : Fin S1000x2048.rank) ∈ dot_S1000x2048_S1000x64_S2048x64_0_0_1_1_n_n.lhsNonContracting by decide)]
  rfl
theorem rhs_agg_0 (i : S2048x64.Idx) (q : dot_S1000x2048_S1000x64_S2048x64_0_0_1_1_n_n.contr.Idx) :
    (dot_S1000x2048_S1000x64_S2048x64_0_0_1_1_n_n.rhsIdx i q 0).val = (q ⟨0, by decide⟩).val :=
  dot_S1000x2048_S1000x64_S2048x64_0_0_1_1_n_n.rhsIdx_val_of_single rfl i q
theorem rhs_agg_1 (i : S2048x64.Idx) (q : dot_S1000x2048_S1000x64_S2048x64_0_0_1_1_n_n.contr.Idx) :
    (dot_S1000x2048_S1000x64_S2048x64_0_0_1_1_n_n.rhsIdx i q 1).val = (i 1).val := by
  unfold DotDims.rhsIdx
  rw [dif_neg (show ¬(1 : Fin S1000x64.rank) ∈ dot_S1000x2048_S1000x64_S2048x64_0_0_1_1_n_n.rhsBatch by decide), dif_pos (show (1 : Fin S1000x64.rank) ∈ dot_S1000x2048_S1000x64_S2048x64_0_0_1_1_n_n.rhsNonContracting by decide)]
  rfl

/-- The product Hᵀ · X of a tile into zero: at `(e, d)` the sum over the tile's rows. -/
theorem matmul_agg (a : FVec Ideal S1000x2048 .f32) (b : FVec Ideal S1000x64 .f32) (e : Fin 2048) (d : Fin 64) :
    FloatOps.matmul dot_S1000x2048_S1000x64_S2048x64_0_0_1_1_n_n none a b (constant S2048x64 .f32 0x00000000#32) (ix2 e d)
      = ∑ r : Fin 1000, a (ix2 r e) * b (ix2 r d) := by
  rw [Ideal.matmul_constant_zero_apply, ← Equiv.sum_comp (contrEquiv1 dot_S1000x2048_S1000x64_S2048x64_0_0_1_1_n_n 1000 rfl rfl).symm]
  refine Finset.sum_congr rfl fun k _ => ?_
  have hk := contrEquiv1_symm_val dot_S1000x2048_S1000x64_S2048x64_0_0_1_1_n_n 1000 rfl rfl k
  have el : dot_S1000x2048_S1000x64_S2048x64_0_0_1_1_n_n.lhsIdx (ix2 e d) ((contrEquiv1 dot_S1000x2048_S1000x64_S2048x64_0_0_1_1_n_n 1000 rfl rfl).symm k) = ix2 k e := funext fun c => Fin.ext (by
    match c with
    | ⟨0, _⟩ => exact (lhs_agg_0 _ _).trans hk
    | ⟨1, _⟩ => exact lhs_agg_1 _ _)
  have er : dot_S1000x2048_S1000x64_S2048x64_0_0_1_1_n_n.rhsIdx (ix2 e d) ((contrEquiv1 dot_S1000x2048_S1000x64_S2048x64_0_0_1_1_n_n 1000 rfl rfl).symm k) = ix2 k d := funext fun c => Fin.ext (by
    match c with
    | ⟨0, _⟩ => exact (rhs_agg_0 _ _).trans hk
    | ⟨1, _⟩ => exact rhs_agg_1 _ _)
  rw [el, er]

/-! ## Two tiles of 32 columns side by side -/

theorem concat_cols_apply (u v : FVec Ideal S1000x32 .f32) (h : Shape.Concatenates [S1000x32, S1000x32] S1000x64 1)
    (r : Fin 1000) (k : Fin 64) :
    concatenate S1000x64 1 [⟨S1000x32, u⟩, ⟨S1000x32, v⟩] h (ix2 r k)
      = cat (fun j => u (ix2 r j)) (fun j => v (ix2 r j)) k := by
  unfold cat
  split
  · next hk =>
    exact concatenate_pair_apply_left (1 : Fin S1000x64.rank) u v h (ix2 r k) rfl (ix2 r ⟨k.val, hk⟩)
      (fun b => match b with | ⟨0, _⟩ => rfl | ⟨1, _⟩ => rfl)
  · next hk =>
    exact concatenate_pair_apply_right (1 : Fin S1000x64.rank) u v h (ix2 r k) rfl rfl
      (ix2 r ⟨k.val - 32, by have := k.isLt; omega⟩)
      (fun b hb => match b, hb with | ⟨0, _⟩, _ => rfl | ⟨1, _⟩, hb => (hb rfl).elim)
      (by show (k.val - 32) + 32 = k.val; omega)

/-! ## The payloads of the first sweep at one element -/

/-- The reset of the degree accumulator is zero. -/
theorem pay2_apply (j : S1x2048.Idx) : k0_pay2 (F := Ideal) j = 0 := by
  show Ideal.ofBits .f32 0x00000000#32 = 0
  exact Ideal.ofBits_zero_f32

/-- The reset of the aggregate accumulator is zero. -/
theorem pay3_apply (j : S2048x64.Idx) : k0_pay3 (F := Ideal) j = 0 := by
  show Ideal.ofBits .f32 0x00000000#32 = 0
  exact Ideal.ofBits_zero_f32

/-- The node scaling of row r of the tile. -/
theorem pay4_apply (v3 : Vec Ideal S1000x2048 .f32) (v4 : Vec Ideal S1x2048 .f32) (r : Fin 1000) :
    k0_pay4 v3 v4 (ix2 r (0 : Fin 1)) = nodeScale (mat v3 r) (rowv v4) := by
  unfold k0_pay4 nodeScale
  refine congrArg Ideal.rsqrt ?_
  rw [addf_apply, shapeCast_a_a1_apply, broadcast_apply]
  refine congrArg (· + _) ?_
  refine (rowSum_apply _ _ _ _ r).trans ?_
  refine Finset.sum_congr rfl fun e _ => ?_
  rw [mulf_apply, broadcastTo_1b_ab_apply, shapeCast_self]

/-- The degree accumulator after the tile: what it held plus the tile's column sums. -/
theorem pay5_apply (v3 : Vec Ideal S1000x2048 .f32) (v14 : Vec Ideal S1x2048 .f32) (e : Fin 2048) :
    k0_pay5 v3 v14 (ix2 (0 : Fin 1) e) = v14 (ix2 (0 : Fin 1) e) + ∑ r : Fin 1000, v3 (ix2 r e) := by
  unfold k0_pay5
  rw [addf_apply, shapeCast_self, shapeCast_a_1a_apply]
  exact congrArg (_ + ·) (colSum_apply v3 _ _ _ e)

/-- The x branch's linear layer. -/
theorem pay6_apply (v20 : Vec Ideal S1000x128 .f32) (v21 : Vec Ideal S128x32 .f32) (v23 : Vec Ideal S1x32 .f32)
    (r : Fin 1000) (j : Fin 32) :
    k0_pay6 v20 v21 v23 (ix2 r j) = lin (mat v20 r) (mat v21) (rowv v23) j := by
  unfold k0_pay6
  exact linLayer_apply (M := 1000) (K := 128) (N := 32) dot_S1000x128_S128x32_S1000x32_1_0_0_1_n_n rfl rfl
    lhs_x_0 lhs_x_1 rhs_x_0 rhs_x_1 none v20 v21 v23 _ _ r j

/-- The z branch's linear layer (into the zero accumulator). -/
theorem pay7_apply (v27 : Vec Ideal S1000x16 .f32) (v28 : Vec Ideal S16x32 .f32) (cst : FVec Ideal S1000x32 .f32)
    (hcst : cst = constant S1000x32 .f32 0x00000000#32) (v30 : Vec Ideal S1x32 .f32) (r : Fin 1000) (j : Fin 32) :
    k0_pay7 v27 v28 cst v30 (ix2 r j) = lin (mat v27 r) (mat v28) (rowv v30) j := by
  subst hcst
  unfold k0_pay7
  exact linLayer_apply (M := 1000) (K := 16) (N := 32) dot_S1000x16_S16x32_S1000x32_1_0_0_1_n_n rfl rfl
    lhs_z_0 lhs_z_1 rhs_z_0 rhs_z_1 none v27 v28 v30 _ _ r j

/-- The gate of a row, over whatever the two branches' tiles are. -/
theorem gate_apply (u : FVec Ideal S1000x32 .f32) (v27 : Vec Ideal S1000x16 .f32) (v28 : Vec Ideal S16x32 .f32)
    (v30 : Vec Ideal S1x32 .f32) (v35 : Vec Ideal S64x64 .f32) (v37 : Vec Ideal S1x64 .f32) (v43 : Vec Ideal S64x32 .f32)
    (v45 : Vec Ideal S1x32 .f32) (r : Fin 1000) (j : Fin 32) :
    k0_pay8 u v27 v28 (constant S1000x32 .f32 0x00000000#32) v30 v35 v37 v43 v45 (ix2 r j)
      = Ideal.logistic (lin (fun k => relu (lin (cat (fun c => u (ix2 r c))
            (fun c => k0_pay7 v27 v28 (constant S1000x32 .f32 0x00000000#32) v30 (ix2 r c))) (mat v35) (rowv v37) k))
          (mat v43) (rowv v45) j) := by
  unfold k0_pay8
  refine congrArg Ideal.logistic ?_
  refine (linLayer_apply (M := 1000) (K := 64) (N := 32) dot_S1000x64_S64x32_S1000x32_1_0_0_1_n_n rfl rfl
    lhs_g2_0 lhs_g2_1 rhs_g2_0 rhs_g2_1 none _ v43 v45 _ _ r j).trans ?_
  refine congrArg (fun f => lin f (mat v43) (rowv v45) j) (funext fun k => ?_)
  rw [maximumf_apply, broadcast_apply]
  unfold relu
  refine congrArg₂ max ?_ Ideal.ofBits_zero_f32
  refine (linLayer_apply (M := 1000) (K := 64) (N := 64) dot_S1000x64_S64x64_S1000x64_1_0_0_1_n_n rfl rfl
    lhs_g1_0 lhs_g1_1 rhs_g1_0 rhs_g1_1 none _ v35 v37 _ _ r k).trans ?_
  refine congrArg (fun f => lin f (mat v35) (rowv v37) k) (funext fun c => ?_)
  exact concat_cols_apply u _ _ r c

/-- The gate of row r. -/
theorem pay8_apply (v20 : Vec Ideal S1000x128 .f32) (v21 : Vec Ideal S128x32 .f32) (v23 : Vec Ideal S1x32 .f32)
    (v27 : Vec Ideal S1000x16 .f32) (v28 : Vec Ideal S16x32 .f32) (cst : FVec Ideal S1000x32 .f32)
    (hcst : cst = constant S1000x32 .f32 0x00000000#32) (v30 : Vec Ideal S1x32 .f32)
    (v35 : Vec Ideal S64x64 .f32) (v37 : Vec Ideal S1x64 .f32) (v43 : Vec Ideal S64x32 .f32) (v45 : Vec Ideal S1x32 .f32)
    (r : Fin 1000) (j : Fin 32) :
    k0_pay8 (k0_pay6 v20 v21 v23) v27 v28 cst v30 v35 v37 v43 v45 (ix2 r j)
      = gateRow (mat v21) (rowv v23) (mat v28) (rowv v30) (mat v35) (rowv v37) (mat v43) (rowv v45) (mat v20 r) (mat v27 r) j := by
  subst hcst
  have hx : (fun c => k0_pay6 v20 v21 v23 (ix2 r c)) = lin (mat v20 r) (mat v21) (rowv v23) :=
    funext fun c => pay6_apply v20 v21 v23 r c
  have hz : (fun c => k0_pay7 v27 v28 (constant S1000x32 .f32 0x00000000#32) v30 (ix2 r c)) = lin (mat v27 r) (mat v28) (rowv v30) :=
    funext fun c => pay7_apply v27 v28 _ rfl v30 r c
  rw [gate_apply, hx, hz]
  rfl

/-- The scaled first-layer features of row r: the first convolution's linear layer of the fused row, times the
    node scaling s r handed in as a column. -/
theorem pay9_apply (v12 : FVec Ideal S1000x1 .f32) (v20 : Vec Ideal S1000x128 .f32) (v21 : Vec Ideal S128x32 .f32) (v23 : Vec Ideal S1x32 .f32)
    (v27 : Vec Ideal S1000x16 .f32) (v28 : Vec Ideal S16x32 .f32) (cst : FVec Ideal S1000x32 .f32)
    (hcst : cst = constant S1000x32 .f32 0x00000000#32) (v30 : Vec Ideal S1x32 .f32)
    (v35 : Vec Ideal S64x64 .f32) (v37 : Vec Ideal S1x64 .f32) (v43 : Vec Ideal S64x32 .f32) (v45 : Vec Ideal S1x32 .f32)
    (v56 : Vec Ideal S32x64 .f32) (v58 : Vec Ideal S1x64 .f32) (r : Fin 1000) (d : Fin 64) :
    k0_pay9 v12 (k0_pay6 v20 v21 v23) v27 v28 cst v30 v35 v37 v43 v45 v56 v58 (ix2 r d)
      = conv1Row (mat v21) (rowv v23) (mat v28) (rowv v30) (mat v35) (rowv v37) (mat v43) (rowv v45) (mat v56) (rowv v58) (mat v20 r) (mat v27 r) d
        * v12 (ix2 r (0 : Fin 1)) := by
  unfold k0_pay9 conv1Row
  rw [mulf_apply, broadcastTo_a1_ab_apply]
  refine congrArg (· * _) ?_
  refine (linLayer_apply (M := 1000) (K := 32) (N := 64) dot_S1000x32_S32x64_S1000x64_1_0_0_1_n_n rfl rfl
    lhs_c1_0 lhs_c1_1 rhs_c1_0 rhs_c1_1 none _ v56 v58 _ _ r d).trans ?_
  refine congrArg (fun f => lin f (mat v56) (rowv v58) d) (funext fun k => ?_)
  unfold fusedRow
  rw [addf_apply, mulf_apply, mulf_apply, subf_apply, broadcast_apply,
    pay8_apply v20 v21 v23 v27 v28 cst hcst v30 v35 v37 v43 v45 r k, pay7_apply v27 v28 cst hcst v30 r k,
    pay6_apply v20 v21 v23 r k]
  rfl

/-- The aggregate accumulator after the tile: what it held plus the tile's contribution ∑ᵣ h r e · X r d. -/
theorem pay1_apply (v3 : Vec Ideal S1000x2048 .f32) (v63 : FVec Ideal S1000x64 .f32) (v64 : Vec Ideal S2048x64 .f32)
    (e : Fin 2048) (d : Fin 64) :
    k0_pay1 v3 v63 v64 (ix2 e d) = v64 (ix2 e d) + ∑ r : Fin 1000, v3 (ix2 r e) * v63 (ix2 r d) := by
  unfold k0_pay1
  rw [addf_apply, shapeCast_self]
  exact congrArg (_ + ·) (matmul_agg v3 v63 e d)

end Cert.KernelIdeal.Pay0

end
-- ==== Proof.Algebra.lean ====
/-
  Sums over the 10000 nodes cut into ten tiles of 1000 consecutive rows, over the extended reals.

  A tiled evaluation adds one tile's partial sum onto a running total, tile after tile. The running total after
  tile n is upTo f n; it starts at the first tile's sum, grows by one tile's sum per step, and after the tenth tile
  is the sum over all rows. Addition on the extended reals is commutative and associative (also at the two
  infinities), which is all this needs.
-/
import Mathlib.Data.EReal.Basic
import Mathlib.Algebra.BigOperators.Fin
import Mathlib.Algebra.BigOperators.Group.Finset.Sigma
import Mathlib.Logic.Equiv.Fin.Basic

noncomputable section

open scoped BigOperators

namespace Cert.HGAlg

/-- Row r of tile t among the 10000 rows. -/
def rowOf (t : Fin 10) (r : Fin 1000) : Fin 10000 :=
  ⟨1000 * t.val + r.val, by have := t.isLt; have := r.isLt; omega⟩

@[simp] theorem rowOf_val (t : Fin 10) (r : Fin 1000) : (rowOf t r).val = 1000 * t.val + r.val := rfl

/-- One tile's sum. -/
def tileSum (f : Fin 10000 → EReal) (t : Fin 10) : EReal := ∑ r : Fin 1000, f (rowOf t r)

/-- The running total after tile n. -/
def upTo (f : Fin 10000 → EReal) (n : ℕ) : EReal := ∑ t : Fin 10, if t.val ≤ n then tileSum f t else 0

theorem upTo_zero (f : Fin 10000 → EReal) : upTo f 0 = tileSum f 0 := by
  unfold upTo
  rw [Finset.sum_eq_single (0 : Fin 10)]
  · simp
  · intro t _ ht
    have : ¬ t.val ≤ 0 := by
      intro h
      exact ht (Fin.ext (by simpa using Nat.le_zero.mp h))
    simp [this]
  · intro h; exact absurd (Finset.mem_univ _) h

theorem upTo_succ (f : Fin 10000 → EReal) (n : ℕ) (h : n + 1 < 10) :
    upTo f (n + 1) = upTo f n + tileSum f ⟨n + 1, h⟩ := by
  unfold upTo
  have key : ∀ t : Fin 10, (if t.val ≤ n + 1 then tileSum f t else 0)
      = (if t.val ≤ n then tileSum f t else 0) + (if t = (⟨n + 1, h⟩ : Fin 10) then tileSum f t else 0) := by
    intro t
    by_cases h1 : t.val ≤ n
    · have h2 : t.val ≤ n + 1 := by omega
      have h3 : t ≠ (⟨n + 1, h⟩ : Fin 10) := by
        intro e; have := congrArg Fin.val e; simp at this; omega
      simp [h1, h2, h3]
    · by_cases h4 : t.val = n + 1
      · have h2 : t.val ≤ n + 1 := by omega
        have h3 : t = (⟨n + 1, h⟩ : Fin 10) := Fin.ext h4
        simp [h1, h2, h3]
      · have h2 : ¬ t.val ≤ n + 1 := by omega
        have h3 : t ≠ (⟨n + 1, h⟩ : Fin 10) := by
          intro e; exact h4 (congrArg Fin.val e)
        simp [h1, h2, h3]
  rw [Finset.sum_congr rfl (fun t _ => key t), Finset.sum_add_distrib]
  congr 1
  rw [Finset.sum_ite_eq' Finset.univ (⟨n + 1, h⟩ : Fin 10) (fun t => tileSum f t)]
  simp

theorem sum_tiles (f : Fin 10000 → EReal) : ∑ t : Fin 10, tileSum f t = ∑ n : Fin 10000, f n := by
  unfold tileSum
  rw [← Fintype.sum_prod_type' (fun (t : Fin 10) (r : Fin 1000) => f (rowOf t r))]
  refine Fintype.sum_equiv (finProdFinEquiv (m := 10) (n := 1000)) _ _ (fun p => ?_)
  congr 1
  apply Fin.ext
  show 1000 * p.1.val + p.2.val = p.2.val + 1000 * p.1.val
  omega

theorem upTo_last (f : Fin 10000 → EReal) : upTo f 9 = ∑ n : Fin 10000, f n := by
  rw [← sum_tiles]
  unfold upTo
  refine Finset.sum_congr rfl (fun t _ => ?_)
  have : t.val ≤ 9 := by have := t.isLt; omega
  simp [this]

end Cert.HGAlg

end
-- ==== Proof.Blocks0.lean ====
/-
  What each input window of the first sweep holds at a grid point: a tile of 1000 consecutive rows of a row-blocked
  array, or the whole of an array every point sees whole.
-/
import proofs.«168773_g40587440947829_cont_sun_m_1101_2_alg».proof.Proof.Gen.KernelIdeal.Frame
import proofs.«168773_g40587440947829_cont_sun_m_1101_2_alg».proof.Proof.Algebra
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Blk0

open Cert.KernelIdeal Cert.KernelIdeal.Gen Cert.HGAlg

variable (V : (c : Dev nD) → (b : Ref sig .tc) → Buf (Elt Ideal) ((c : Thread nD τ).loc b))

/-- A grid point as a tile number. -/
abbrev tile (t : Fin cfg0.N) : Fin 10 := ⟨t.val, lt_of_lt_of_eq t.isLt N_0⟩

/-! The block index of each input window at each of the ten grid points, decided once: a row-blocked window sits at
    block (t, 0) at point t, a window whose block is its whole array at block (0, 0) at every point. -/

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 2) = t.val ∧ win0_1.index t (1 : Fin 2) = 0 :=
  (by decide +kernel : ∀ t : Fin grid0.N, _)

theorem idx_2 : ∀ t : Fin cfg0.N, win0_2.index t (0 : Fin 2) = t.val ∧ win0_2.index t (1 : Fin 2) = 0 :=
  (by decide +kernel : ∀ t : Fin grid0.N, _)

theorem idx_3 : ∀ (t : Fin cfg0.N) (a : Fin 2), win0_3.index t a = 0 :=
  (by decide +kernel : ∀ (t : Fin grid0.N) (a : Fin 2), _)

theorem idx_4 : ∀ (t : Fin cfg0.N) (a : Fin 2), win0_4.index t a = 0 :=
  (by decide +kernel : ∀ (t : Fin grid0.N) (a : Fin 2), _)

theorem idx_5 : ∀ (t : Fin cfg0.N) (a : Fin 2), win0_5.index t a = 0 :=
  (by decide +kernel : ∀ (t : Fin grid0.N) (a : Fin 2), _)

theorem idx_6 : ∀ (t : Fin cfg0.N) (a : Fin 2), win0_6.index t a = 0 :=
  (by decide +kernel : ∀ (t : Fin grid0.N) (a : Fin 2), _)

theorem idx_7 : ∀ (t : Fin cfg0.N) (a : Fin 2), win0_7.index t a = 0 :=
  (by decide +kernel : ∀ (t : Fin grid0.N) (a : Fin 2), _)

theorem idx_8 : ∀ (t : Fin cfg0.N) (a : Fin 2), win0_8.index t a = 0 :=
  (by decide +kernel : ∀ (t : Fin grid0.N) (a : Fin 2), _)

theorem idx_9 : ∀ (t : Fin cfg0.N) (a : Fin 2), win0_9.index t a = 0 :=
  (by decide +kernel : ∀ (t : Fin grid0.N) (a : Fin 2), _)

theorem idx_10 : ∀ (t : Fin cfg0.N) (a : Fin 2), win0_10.index t a = 0 :=
  (by decide +kernel : ∀ (t : Fin grid0.N) (a : Fin 2), _)

theorem idx_11 : ∀ (t : Fin cfg0.N) (a : Fin 2), win0_11.index t a = 0 :=
  (by decide +kernel : ∀ (t : Fin grid0.N) (a : Fin 2), _)

theorem idx_12 : ∀ (t : Fin cfg0.N) (a : Fin 2), win0_12.index t a = 0 :=
  (by decide +kernel : ∀ (t : Fin grid0.N) (a : Fin 2), _)

theorem idx_13 : ∀ (t : Fin cfg0.N) (a : Fin 2), win0_13.index t a = 0 :=
  (by decide +kernel : ∀ (t : Fin grid0.N) (a : Fin 2), _)

/-- Row r of tile t of H is row 1000·t + r of H: an element of a block sits in its array, on each axis, at the block
    index times the block's extent plus its own coordinate; the blocks are 1000 rows by all 2048 columns. -/
theorem H_at (c : Dev nD) (t : Fin cfg0.N) (r : Fin 1000) (j : Fin 2048) :
    iblk0 V c 0 t (ix2 r j) = V c main_arg2 (ix2 (rowOf (tile t) r) j) := by
  unfold iblk0
  rw [View.read_apply]
  show V c main_arg2 _ = V c main_arg2 _
  refine congrArg (V c main_arg2) ?_
  funext a
  apply Fin.ext
  match a with
  | ⟨0, _⟩ =>
    show win0_0.index t 0 * 1000 + 1 * r.val = 1000 * t.val + r.val
    rw [(idx_0 t).1]; omega
  | ⟨1, _⟩ =>
    show win0_0.index t 1 * 2048 + 1 * j.val = j.val
    rw [(idx_0 t).2]; omega

/-- Row r of tile t of x. -/
theorem x_at (c : Dev nD) (t : Fin cfg0.N) (r : Fin 1000) (j : Fin 128) :
    iblk0 V c 1 t (ix2 r j) = V c main_arg0 (ix2 (rowOf (tile t) r) j) := by
  unfold iblk0
  rw [View.read_apply]
  show V c main_arg0 _ = V c main_arg0 _
  refine congrArg (V c main_arg0) ?_
  funext a
  apply Fin.ext
  match a with
  | ⟨0, _⟩ =>
    show win0_1.index t 0 * 1000 + 1 * r.val = 1000 * t.val + r.val
    rw [(idx_1 t).1]; omega
  | ⟨1, _⟩ =>
    show win0_1.index t 1 * 128 + 1 * j.val = j.val
    rw [(idx_1 t).2]; omega

/-- Row r of tile t of z. -/
theorem z_at (c : Dev nD) (t : Fin cfg0.N) (r : Fin 1000) (j : Fin 16) :
    iblk0 V c 2 t (ix2 r j) = V c main_arg1 (ix2 (rowOf (tile t) r) j) := by
  unfold iblk0
  rw [View.read_apply]
  show V c main_arg1 _ = V c main_arg1 _
  refine congrArg (V c main_arg1) ?_
  funext a
  apply Fin.ext
  match a with
  | ⟨0, _⟩ =>
    show win0_2.index t 0 * 1000 + 1 * r.val = 1000 * t.val + r.val
    rw [(idx_2 t).1]; omega
  | ⟨1, _⟩ =>
    show win0_2.index t 1 * 16 + 1 * j.val = j.val
    rw [(idx_2 t).2]; omega

/-- The edge weights as a row, whole at every point. -/
theorem w_eq (c : Dev nD) (t : Fin cfg0.N) : (iblk0 V c 3 t : Vec Ideal S1x2048 .f32) = V c main_v0 := by
  funext y
  unfold iblk0
  rw [View.read_apply]
  show V c main_v0 _ = V c main_v0 y
  refine congrArg (V c main_v0) ?_
  funext a
  exact Fin.ext (win0_3.rect_emb_val_of_index_zero t a (idx_3 t a) y)

/-- A weight matrix, whole at every point. -/
theorem psiW_eq (c : Dev nD) (t : Fin cfg0.N) : (iblk0 V c 4 t : Vec Ideal S128x32 .f32) = V c main_arg4 := by
  funext y
  unfold iblk0
  rw [View.read_apply]
  show V c main_arg4 _ = V c main_arg4 y
  refine congrArg (V c main_arg4) ?_
  funext a
  exact Fin.ext (win0_4.rect_emb_val_of_index_zero t a (idx_4 t a) y)

/-- A bias row, whole at every point. -/
theorem psib_eq (c : Dev nD) (t : Fin cfg0.N) : (iblk0 V c 5 t : Vec Ideal S1x32 .f32) = V c main_v2 := by
  funext y
  unfold iblk0
  rw [View.read_apply]
  show V c main_v2 _ = V c main_v2 y
  refine congrArg (V c main_v2) ?_
  funext a
  exact Fin.ext (win0_5.rect_emb_val_of_index_zero t a (idx_5 t a) y)

/-- A weight matrix, whole at every point. -/
theorem phiW_eq (c : Dev nD) (t : Fin cfg0.N) : (iblk0 V c 6 t : Vec Ideal S16x32 .f32) = V c main_arg6 := by
  funext y
  unfold iblk0
  rw [View.read_apply]
  show V c main_arg6 _ = V c main_arg6 y
  refine congrArg (V c main_arg6) ?_
  funext a
  exact Fin.ext (win0_6.rect_emb_val_of_index_zero t a (idx_6 t a) y)

/-- A bias row, whole at every point. -/
theorem phib_eq (c : Dev nD) (t : Fin cfg0.N) : (iblk0 V c 7 t : Vec Ideal S1x32 .f32) = V c main_v3 := by
  funext y
  unfold iblk0
  rw [View.read_apply]
  show V c main_v3 _ = V c main_v3 y
  refine congrArg (V c main_v3) ?_
  funext a
  exact Fin.ext (win0_7.rect_emb_val_of_index_zero t a (idx_7 t a) y)

/-- A weight matrix, whole at every point. -/
theorem g1W_eq (c : Dev nD) (t : Fin cfg0.N) : (iblk0 V c 8 t : Vec Ideal S64x64 .f32) = V c main_arg8 := by
  funext y
  unfold iblk0
  rw [View.read_apply]
  show V c main_arg8 _ = V c main_arg8 y
  refine congrArg (V c main_arg8) ?_
  funext a
  exact Fin.ext (win0_8.rect_emb_val_of_index_zero t a (idx_8 t a) y)

/-- A bias row, whole at every point. -/
theorem g1b_eq (c : Dev nD) (t : Fin cfg0.N) : (iblk0 V c 9 t : Vec Ideal S1x64 .f32) = V c main_v4 := by
  funext y
  unfold iblk0
  rw [View.read_apply]
  show V c main_v4 _ = V c main_v4 y
  refine congrArg (V c main_v4) ?_
  funext a
  exact Fin.ext (win0_9.rect_emb_val_of_index_zero t a (idx_9 t a) y)

/-- A weight matrix, whole at every point. -/
theorem g2W_eq (c : Dev nD) (t : Fin cfg0.N) : (iblk0 V c 10 t : Vec Ideal S64x32 .f32) = V c main_arg10 := by
  funext y
  unfold iblk0
  rw [View.read_apply]
  show V c main_arg10 _ = V c main_arg10 y
  refine congrArg (V c main_arg10) ?_
  funext a
  exact Fin.ext (win0_10.rect_emb_val_of_index_zero t a (idx_10 t a) y)

/-- A bias row, whole at every point. -/
theorem g2b_eq (c : Dev nD) (t : Fin cfg0.N) : (iblk0 V c 11 t : Vec Ideal S1x32 .f32) = V c main_v5 := by
  funext y
  unfold iblk0
  rw [View.read_apply]
  show V c main_v5 _ = V c main_v5 y
  refine congrArg (V c main_v5) ?_
  funext a
  exact Fin.ext (win0_11.rect_emb_val_of_index_zero t a (idx_11 t a) y)

/-- A weight matrix, whole at every point. -/
theorem c1W_eq (c : Dev nD) (t : Fin cfg0.N) : (iblk0 V c 12 t : Vec Ideal S32x64 .f32) = V c main_arg12 := by
  funext y
  unfold iblk0
  rw [View.read_apply]
  show V c main_arg12 _ = V c main_arg12 y
  refine congrArg (V c main_arg12) ?_
  funext a
  exact Fin.ext (win0_12.rect_emb_val_of_index_zero t a (idx_12 t a) y)

/-- A bias row, whole at every point. -/
theorem c1b_eq (c : Dev nD) (t : Fin cfg0.N) : (iblk0 V c 13 t : Vec Ideal S1x64 .f32) = V c main_v6 := by
  funext y
  unfold iblk0
  rw [View.read_apply]
  show V c main_v6 _ = V c main_v6 y
  refine congrArg (V c main_v6) ?_
  funext a
  exact Fin.ext (win0_13.rect_emb_val_of_index_zero t a (idx_13 t a) y)

end Cert.KernelIdeal.Blk0

end
-- ==== Proof.Reg0Tile.lean ====
/-
  The first sweep's two row-blocked outputs, the gate and the node scaling: point t writes rows 1000·t … 1000·t + 999,
  each row a function of the same row of the inputs, so after the ten points the arrays hold that function of every row.
-/
import proofs.«168773_g40587440947829_cont_sun_m_1101_2_alg».proof.Proof.Gen.KernelIdeal.Frame
import proofs.«168773_g40587440947829_cont_sun_m_1101_2_alg».proof.Proof.Pay0
import proofs.«168773_g40587440947829_cont_sun_m_1101_2_alg».proof.Proof.Blocks0
import proofs.«168773_g40587440947829_cont_sun_m_1101_2_alg».proof.Proof.Spec
import proofs.«168773_g40587440947829_cont_sun_m_1101_2_alg».proof.Proof.Views
import proofs.«168773_g40587440947829_cont_sun_m_1101_2_alg».proof.Proof.Algebra
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reg0Tile

open Cert.KernelIdeal Cert.KernelIdeal.Gen Cert.HGSpec Cert.HGView Cert.HGAlg

/-- Both coordinates of a block-sized store are zero. -/
private theorem hz : (![0, 0] : Fin 2 → Nat) = fun _ => 0 := funext fun a => by fin_cases a <;> rfl

/-! ## What one grid point leaves in the two tiles -/

/-- At the first point the gate tile is the gate payload of the point's input blocks. -/
private theorem gate_A {F : FTy → Type} [FloatOps F] (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : cond0_0 i)
    (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) :
    out0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13
      = k0_pay8 (k0_pay6 x1 x4 x5) x2 x6 (constant S1000x32 .f32 0x00000000#32) x7 x8 x9 x10 x11 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, shapeCast_self]

/-- At every later point too. -/
private theorem gate_B {F : FTy → Type} [FloatOps F] (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : ¬cond0_0 i)
    (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) (xo16 : Vec F S1x2048 .f32) (xo17 : Vec F S2048x64 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17
      = k0_pay8 (k0_pay6 x1 x4 x5) x2 x6 (constant S1000x32 .f32 0x00000000#32) x7 x8 x9 x10 x11 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, shapeCast_self]

/-- At the first point the scaling tile is the scaling payload of the H tile and the weight row. -/
private theorem scale_A {F : FTy → Type} [FloatOps F] (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : cond0_0 i)
    (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) :
    out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13
      = k0_pay4 x0 x3 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, shapeCast_self]

/-- At every later point too. -/
private theorem scale_B {F : FTy → Type} [FloatOps F] (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : ¬cond0_0 i)
    (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) (xo16 : Vec F S1x2048 .f32) (xo17 : Vec F S2048x64 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17
      = k0_pay4 x0 x3 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, shapeCast_self]

variable (V : (c : Dev nD) → (b : Ref sig .tc) → Buf (Elt Ideal) ((c : Thread nD τ).loc b))

open Cert.KernelIdeal.Blk0 Cert.KernelIdeal.Pay0

/-! ## The two arrays the sweep should end with -/

/-- The gate of every row, as the array of the sweep's first result. -/
private abbrev gateArr (c : Dev nD) : S10000x32.Idx → EReal := fun i =>
  firstGate (mat (V c main_arg0)) (mat (V c main_arg1)) (mat (V c main_arg4)) (rowv (V c main_v2)) (mat (V c main_arg6)) (rowv (V c main_v3))
      (mat (V c main_arg8)) (rowv (V c main_v4)) (mat (V c main_arg10)) (rowv (V c main_v5)) (i 0) (i 1)

/-- The scaling of every node, as the one-column array of the sweep's second result. -/
private abbrev scaleArr (c : Dev nD) : S10000x1.Idx → EReal := fun i =>
  firstScale (mat (V c main_arg2)) (rowv (V c main_v0)) (i 0)

/-! ## One tile, element by element -/

/-- After point t the gate tile is the gate payload of that point's blocks, whichever of the two control cases ran. -/
private theorem gate_tile (c : Dev nD) (t : Fin cfg0.N) :
    (outsAt0 V c t.val t.isLt).1
      = k0_pay8 (k0_pay6 (iblk0 V c 1 t) (iblk0 V c 4 t) (iblk0 V c 5 t)) (iblk0 V c 2 t) (iblk0 V c 6 t)
          (constant S1000x32 .f32 0x00000000#32) (iblk0 V c 7 t) (iblk0 V c 8 t) (iblk0 V c 9 t) (iblk0 V c 10 t) (iblk0 V c 11 t) := by
  by_cases h0 : t.val % 10 = 0
  · rw [outsAt0_A V c t h0]
    dsimp only
    exact gate_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  · rw [outsAt0_B V c t h0]
    dsimp only
    exact gate_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.2.1 (outsAt0 V c (t.val - 1) (Nat.lt_of_le_of_lt (Nat.sub_le _ _) t.isLt)).2.2.2

/-- After point t the scaling tile is the scaling payload of that point's H tile and weight row. -/
private theorem scale_tile (c : Dev nD) (t : Fin cfg0.N) :
    (outsAt0 V c t.val t.isLt).2.1 = k0_pay4 (iblk0 V c 0 t) (iblk0 V c 3 t) := by
  by_cases h0 : t.val % 10 = 0
  · rw [outsAt0_A V c t h0]
    dsimp only
    exact scale_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  · rw [outsAt0_B V c t h0]
    dsimp only
    exact scale_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.2.1 (outsAt0 V c (t.val - 1) (Nat.lt_of_le_of_lt (Nat.sub_le _ _) t.isLt)).2.2.2

/-- The gate tile at row r, column q is the gate of row 1000·t + r of the inputs. -/
private theorem gate_at (c : Dev nD) (t : Fin cfg0.N) (r : Fin 1000) (q : Fin 32) :
    (outsAt0 V c t.val t.isLt).1 (ix2 r q)
      = firstGate (mat (V c main_arg0)) (mat (V c main_arg1)) (mat (V c main_arg4)) (rowv (V c main_v2)) (mat (V c main_arg6)) (rowv (V c main_v3))
      (mat (V c main_arg8)) (rowv (V c main_v4)) (mat (V c main_arg10)) (rowv (V c main_v5)) (rowOf (tile t) r) q := by
  rw [gate_tile V c t]
  refine (pay8_apply (iblk0 V c 1 t) (iblk0 V c 4 t) (iblk0 V c 5 t) (iblk0 V c 2 t) (iblk0 V c 6 t)
    (constant S1000x32 .f32 0x00000000#32) rfl (iblk0 V c 7 t) (iblk0 V c 8 t) (iblk0 V c 9 t) (iblk0 V c 10 t) (iblk0 V c 11 t) r q).trans ?_
  have ex : mat (iblk0 V c 1 t) r = mat (V c main_arg0) (rowOf (tile t) r) := funext fun k => x_at V c t r k
  have ez : mat (iblk0 V c 2 t) r = mat (V c main_arg1) (rowOf (tile t) r) := funext fun k => z_at V c t r k
  rw [ex, ez, psiW_eq V c t, psib_eq V c t, phiW_eq V c t, phib_eq V c t, g1W_eq V c t, g1b_eq V c t, g2W_eq V c t, g2b_eq V c t]
  rfl

/-- The scaling tile at row r is the scaling of row 1000·t + r of H. -/
private theorem scale_at (c : Dev nD) (t : Fin cfg0.N) (r : Fin 1000) :
    (outsAt0 V c t.val t.isLt).2.1 (ix2 r (0 : Fin 1))
      = firstScale (mat (V c main_arg2)) (rowv (V c main_v0)) (rowOf (tile t) r) := by
  rw [scale_tile V c t]
  refine (pay4_apply (iblk0 V c 0 t) (iblk0 V c 3 t) r).trans ?_
  have eh : mat (iblk0 V c 0 t) r = mat (V c main_arg2) (rowOf (tile t) r) := funext fun k => H_at V c t r k
  rw [eh, w_eq V c t]
  rfl

/-! ## From the tiles to the arrays -/

/-- Point t's gate block is block (t, 0) of the [10000, 32] array, -/
private theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- and its scaling block is block (t, 0) of the [10000, 1] array. -/
private theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-- What point t writes back of the gate is rows 1000·t … 1000·t + 999 of the gate array. -/
private theorem flushed_gate (c : Dev nD) (t : Fin cfg0.N) :
    (dat0 V c).flushed 14 t = ((cfg0.win 14).blk t).view.read (Elt Ideal) (gateArr V c) := by
  show (cfg0.win 14).cut (grid0.coords t) ((dat0 V c).after 14 t) = _
  rw [after0_14]
  obtain ⟨e0, e1⟩ := idx14 t
  funext y
  have hr : (y 0).val < 1000 := (y 0).isLt
  have hq : (y 1).val < 32 := (y 1).isLt
  have hy : (cfg0.win 14).xinj (grid0.coords t) y = ix2 (⟨(y 0).val, hr⟩ : Fin 1000) (⟨(y 1).val, hq⟩ : Fin 32) := by
    funext a
    match a with
    | ⟨0, _⟩ => rfl
    | ⟨1, _⟩ => rfl
  show (outsAt0 V c t.val t.isLt).1 ((cfg0.win 14).xinj (grid0.coords t) y) = gateArr V c (((cfg0.win 14).blk t).view.emb y)
  rw [hy, gate_at V c t ⟨(y 0).val, hr⟩ ⟨(y 1).val, hq⟩]
  have h0 : rowOf (tile t) ⟨(y 0).val, hr⟩ = ((cfg0.win 14).blk t).view.emb y 0 := Fin.ext (by
    show 1000 * t.val + (y 0).val = win0_14.index t (0 : Fin 2) * 1000 + 1 * (y 0).val
    omega)
  have h1 : (⟨(y 1).val, hq⟩ : Fin 32) = ((cfg0.win 14).blk t).view.emb y 1 := Fin.ext (by
    show (y 1).val = win0_14.index t (1 : Fin 2) * 32 + 1 * (y 1).val
    omega)
  rw [h0, h1]

/-- What point t writes back of the scaling is rows 1000·t … 1000·t + 999 of the scaling array. -/
private theorem flushed_scale (c : Dev nD) (t : Fin cfg0.N) :
    (dat0 V c).flushed 15 t = ((cfg0.win 15).blk t).view.read (Elt Ideal) (scaleArr V c) := by
  show (cfg0.win 15).cut (grid0.coords t) ((dat0 V c).after 15 t) = _
  rw [after0_15]
  obtain ⟨e0, e1⟩ := idx15 t
  funext y
  have hr : (y 0).val < 1000 := (y 0).isLt
  have hq : (y 1).val < 1 := (y 1).isLt
  have hy : (cfg0.win 15).xinj (grid0.coords t) y = ix2 (⟨(y 0).val, hr⟩ : Fin 1000) (0 : Fin 1) := by
    funext a
    match a with
    | ⟨0, _⟩ => rfl
    | ⟨1, _⟩ => exact Fin.ext (by show (y 1).val = 0; omega)
  show (outsAt0 V c t.val t.isLt).2.1 ((cfg0.win 15).xinj (grid0.coords t) y) = scaleArr V c (((cfg0.win 15).blk t).view.emb y)
  rw [hy, scale_at V c t ⟨(y 0).val, hr⟩]
  have h0 : rowOf (tile t) ⟨(y 0).val, hr⟩ = ((cfg0.win 15).blk t).view.emb y 0 := Fin.ext (by
    show 1000 * t.val + (y 0).val = win0_15.index t (0 : Fin 2) * 1000 + 1 * (y 0).val
    omega)
  rw [h0]

/-- An entry of the gate array lies in point t's block iff its row is one of that tile's rows (and its column any). -/
private theorem mem_blk14 (t : Fin cfg0.N) (i : S10000x32.Idx) :
    i ∈ ((cfg0.win 14).blk t).view.set
      ↔ ∀ a : Fin 2, win0_14.index t a * S1000x32.size a ≤ (i a).val ∧ (i a).val < win0_14.index t a * S1000x32.size a + S1000x32.size a := by
  show i ∈ ((View.whole main_v7_0).slice (win0_14.rect t)).set ↔ _
  rw [View.set_slice_whole, Rect.mem_set_unit]
  exact Iff.rfl

/-- The same for the one-column scaling array. -/
private theorem mem_blk15 (t : Fin cfg0.N) (i : S10000x1.Idx) :
    i ∈ ((cfg0.win 15).blk t).view.set
      ↔ ∀ a : Fin 2, win0_15.index t a * S1000x1.size a ≤ (i a).val ∧ (i a).val < win0_15.index t a * S1000x1.size a + S1000x1.size a := by
  show i ∈ ((View.whole main_v7_1).slice (win0_15.rect t)).set ↔ _
  rw [View.set_slice_whole, Rect.mem_set_unit]
  exact Iff.rfl

/-- Row n belongs to tile n / 1000. -/
private theorem tile_lt (n : Fin 10000) : n.val / 1000 < cfg0.N := by
  have hN : cfg0.N = 10 := N_0
  have := n.isLt
  omega

/-- After the first sweep the gate array holds the gate of every row. -/
theorem final_gate (c : Dev nD) (n : Fin 10000) (j : Fin 32) :
    (dat0 V c).arrAt 14 cfg0.N (ix2 n j)
      = firstGate (mat (V c main_arg0)) (mat (V c main_arg1)) (mat (V c main_arg4)) (rowv (V c main_v2)) (mat (V c main_arg6)) (rowv (V c main_v3))
          (mat (V c main_arg8)) (rowv (V c main_v4)) (mat (V c main_arg10)) (rowv (V c main_v5)) n j := by
  have hmem : (ix2 n j : S10000x32.Idx) ∈ ((cfg0.win 14).blk ⟨n.val / 1000, tile_lt n⟩).view.set := by
    rw [mem_blk14]
    obtain ⟨e0, e1⟩ := idx14 ⟨n.val / 1000, tile_lt n⟩
    have hn := n.isLt
    have hj := j.isLt
    intro a
    match a with
    | ⟨0, _⟩ =>
      show win0_14.index ⟨n.val / 1000, tile_lt n⟩ (0 : Fin 2) * 1000 ≤ n.val ∧ n.val < win0_14.index ⟨n.val / 1000, tile_lt n⟩ (0 : Fin 2) * 1000 + 1000
      rw [e0]; dsimp only; omega
    | ⟨1, _⟩ =>
      show win0_14.index ⟨n.val / 1000, tile_lt n⟩ (1 : Fin 2) * 32 ≤ j.val ∧ j.val < win0_14.index ⟨n.val / 1000, tile_lt n⟩ (1 : Fin 2) * 32 + 32
      rw [e1]; omega
  exact (dat0 V c).arrAt_apply_of_mem 14 (gateArr V c) (fun t _ => flushed_gate V c t) cfg0.N ⟨n.val / 1000, tile_lt n⟩
    (ix2 n j) (tile_lt n) (flush0_14 _) hmem

/-- After the first sweep the scaling array holds every node's scaling. -/
theorem final_scale (c : Dev nD) (n : Fin 10000) :
    (dat0 V c).arrAt 15 cfg0.N (ix2 n (0 : Fin 1)) = firstScale (mat (V c main_arg2)) (rowv (V c main_v0)) n := by
  have hmem : (ix2 n (0 : Fin 1) : S10000x1.Idx) ∈ ((cfg0.win 15).blk ⟨n.val / 1000, tile_lt n⟩).view.set := by
    rw [mem_blk15]
    obtain ⟨e0, e1⟩ := idx15 ⟨n.val / 1000, tile_lt n⟩
    have hn := n.isLt
    intro a
    match a with
    | ⟨0, _⟩ =>
      show win0_15.index ⟨n.val / 1000, tile_lt n⟩ (0 : Fin 2) * 1000 ≤ n.val ∧ n.val < win0_15.index ⟨n.val / 1000, tile_lt n⟩ (0 : Fin 2) * 1000 + 1000
      rw [e0]; dsimp only; omega
    | ⟨1, _⟩ =>
      show win0_15.index ⟨n.val / 1000, tile_lt n⟩ (1 : Fin 2) * 1 ≤ 0 ∧ 0 < win0_15.index ⟨n.val / 1000, tile_lt n⟩ (1 : Fin 2) * 1 + 1
      rw [e1]; omega
  exact (dat0 V c).arrAt_apply_of_mem 15 (scaleArr V c) (fun t _ => flushed_scale V c t) cfg0.N ⟨n.val / 1000, tile_lt n⟩
    (ix2 n (0 : Fin 1)) (tile_lt n) (flush0_15 _) hmem

end Cert.KernelIdeal.Reg0Tile

end
-- ==== Proof.Reg0Acc.lean ====
/-
  The first sweep's two accumulated outputs, the hyperedge degrees and the first aggregate: their one block is
  reset at the first point, grows by one tile's contribution per point and is written back after the last, so the
  arrays end at the sums over all rows.
-/
import proofs.«168773_g40587440947829_cont_sun_m_1101_2_alg».proof.Proof.Gen.KernelIdeal.Frame
import proofs.«168773_g40587440947829_cont_sun_m_1101_2_alg».proof.Proof.Pay0
import proofs.«168773_g40587440947829_cont_sun_m_1101_2_alg».proof.Proof.Blocks0
import proofs.«168773_g40587440947829_cont_sun_m_1101_2_alg».proof.Proof.Spec
import proofs.«168773_g40587440947829_cont_sun_m_1101_2_alg».proof.Proof.Views
import proofs.«168773_g40587440947829_cont_sun_m_1101_2_alg».proof.Proof.Algebra
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reg0Acc

open Cert.KernelIdeal Cert.KernelIdeal.Gen Cert.HGSpec Cert.HGView Cert.HGAlg

/-! ## What one grid point leaves in the two accumulators

Generic in the float family: the block the body's stores leave is the payload of the last covering store, its loads
reading the whole staging buffers. At the first point the accumulator is first stored as the zero block and read back. -/

section Pieces

variable {F : FTy → Type} [FloatOps F]

theorem hz : (![0, 0] : Fin 2 → Nat) = fun _ => 0 := funext fun a => by fin_cases a <;> rfl

/-- After a later point the degree block is what it held plus the tile's column sums. -/
theorem deg_B (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : ¬cond0_0 i) (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) (xo16 : Vec F S1x2048 .f32) (xo17 : Vec F S2048x64 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17 = k0_pay5 x0 xo16 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, View.ld_unit_zero (S := S1000x32) hz, View.ld_unit_zero (S := S1000x1) hz, View.ld_unit_zero (S := S2048x64) hz, shapeCast_self]

/-- After the first point the degree block is the zero block plus the tile's column sums. -/
theorem deg_A (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : cond0_0 i) (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) :
    out0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 = k0_pay5 x0 k0_pay2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, View.ld_unit_zero (S := S1000x32) hz, View.ld_unit_zero (S := S1000x1) hz, View.ld_unit_zero (S := S2048x64) hz, shapeCast_self]

/-- After a later point the aggregate block is what it held plus the tile's contribution. -/
theorem agg_B (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : ¬cond0_0 i) (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) (xo16 : Vec F S1x2048 .f32) (xo17 : Vec F S2048x64 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17 = k0_pay1 x0 (k0_pay9 (k0_pay4 x0 x3) (k0_pay6 x1 x4 x5) x2 x6 (constant S1000x32 .f32 0x00000000#32) x7 x8 x9 x10 x11 x12 x13) xo17 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 xo16 xo17)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, View.ld_unit_zero (S := S1000x32) hz, View.ld_unit_zero (S := S1000x1) hz, View.ld_unit_zero (S := S2048x64) hz, shapeCast_self]

/-- After the first point the aggregate block is the zero block plus the tile's contribution. -/
theorem agg_A (c : Dev nD) (i : grid0.Coords) (a1 : Memref sig .tc .vmem S1000x2048 .f32) (h1 : a1.IsWhole) (a2 : Memref sig .tc .vmem S1000x128 .f32) (h2 : a2.IsWhole) (a3 : Memref sig .tc .vmem S1000x16 .f32) (h3 : a3.IsWhole) (a4 : Memref sig .tc .vmem S1x2048 .f32) (h4 : a4.IsWhole) (a5 : Memref sig .tc .vmem S128x32 .f32) (h5 : a5.IsWhole) (a6 : Memref sig .tc .vmem S1x32 .f32) (h6 : a6.IsWhole) (a7 : Memref sig .tc .vmem S16x32 .f32) (h7 : a7.IsWhole) (a8 : Memref sig .tc .vmem S1x32 .f32) (h8 : a8.IsWhole) (a9 : Memref sig .tc .vmem S64x64 .f32) (h9 : a9.IsWhole) (a10 : Memref sig .tc .vmem S1x64 .f32) (h10 : a10.IsWhole) (a11 : Memref sig .tc .vmem S64x32 .f32) (h11 : a11.IsWhole) (a12 : Memref sig .tc .vmem S1x32 .f32) (h12 : a12.IsWhole) (a13 : Memref sig .tc .vmem S32x64 .f32) (h13 : a13.IsWhole) (a14 : Memref sig .tc .vmem S1x64 .f32) (h14 : a14.IsWhole) (a15 : Memref sig .tc .vmem S1000x32 .f32) (h15 : a15.IsWhole) (a16 : Memref sig .tc .vmem S1000x1 .f32) (h16 : a16.IsWhole) (a17 : Memref sig .tc .vmem S1x2048 .f32) (h17 : a17.IsWhole) (a18 : Memref sig .tc .vmem S2048x64 .f32) (h18 : a18.IsWhole) (hc : cond0_0 i) (x0 : Vec F S1000x2048 .f32) (x1 : Vec F S1000x128 .f32) (x2 : Vec F S1000x16 .f32) (x3 : Vec F S1x2048 .f32) (x4 : Vec F S128x32 .f32) (x5 : Vec F S1x32 .f32) (x6 : Vec F S16x32 .f32) (x7 : Vec F S1x32 .f32) (x8 : Vec F S64x64 .f32) (x9 : Vec F S1x64 .f32) (x10 : Vec F S64x32 .f32) (x11 : Vec F S1x32 .f32) (x12 : Vec F S32x64 .f32) (x13 : Vec F S1x64 .f32) :
    out0_A_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 = k0_pay1 x0 (k0_pay9 (k0_pay4 x0 x3) (k0_pay6 x1 x4 x5) x2 x6 (constant S1000x32 .f32 0x00000000#32) x7 x8 x9 x10 x11 x12 x13) k0_pay3 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13)]
  unfold kernelRun0_A
  dsimp only
  sl_unfold_words
  rw [View.canon_cons_unit_zero (S := S2048x64) hz, View.readCov_unit_zero (S := S2048x64) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S1000x2048) hz, View.ld_unit_zero (S := S1000x128) hz, View.ld_unit_zero (S := S1000x16) hz, View.ld_unit_zero (S := S1x2048) hz, View.ld_unit_zero (S := S128x32) hz, View.ld_unit_zero (S := S1x32) hz, View.ld_unit_zero (S := S16x32) hz, View.ld_unit_zero (S := S64x64) hz, View.ld_unit_zero (S := S1x64) hz, View.ld_unit_zero (S := S64x32) hz, View.ld_unit_zero (S := S32x64) hz, View.ld_unit_zero (S := S1000x32) hz, View.ld_unit_zero (S := S1000x1) hz, View.ld_unit_zero (S := S2048x64) hz, shapeCast_self]

end Pieces

/-! ## One tile's contribution, at the exact floats -/

open Cert.KernelIdeal.Pay0 Cert.KernelIdeal.Blk0

/-- The degree step at an entry: what the accumulator held there plus the column's sum over the tile's rows. -/
theorem deg_step (b0 : Vec Ideal S1000x2048 .f32) (acc : Vec Ideal S1x2048 .f32) (g : Fin 10000 → EReal)
    (t : Fin 10) (e : Fin 2048) (a : EReal) (hacc : acc (ix2 (0 : Fin 1) e) = a)
    (hH : ∀ r : Fin 1000, b0 (ix2 r e) = g (rowOf t r)) :
    k0_pay5 b0 acc (ix2 (0 : Fin 1) e) = a + tileSum g t := by
  rw [pay5_apply b0 acc e, hacc]
  exact congrArg (a + ·) (Finset.sum_congr rfl fun r _ => hH r)

/-- The aggregate step at an entry: what the accumulator held there plus ∑ᵣ h r e · X r d over the tile's rows. -/
theorem agg_step (b0 : Vec Ideal S1000x2048 .f32) (X : FVec Ideal S1000x64 .f32) (acc : Vec Ideal S2048x64 .f32)
    (g φ : Fin 10000 → EReal) (t : Fin 10) (e : Fin 2048) (d : Fin 64) (a : EReal) (hacc : acc (ix2 e d) = a)
    (hH : ∀ r : Fin 1000, b0 (ix2 r e) = g (rowOf t r)) (hX : ∀ r : Fin 1000, X (ix2 r d) = φ (rowOf t r)) :
    k0_pay1 b0 X acc (ix2 e d) = a + tileSum (fun n => g n * φ n) t := by
  rw [pay1_apply b0 X acc e d, hacc]
  refine congrArg (a + ·) (Finset.sum_congr rfl fun r _ => ?_)
  rw [hH r, hX r]

/-- The tile's scaled first-layer features at row r, when row r of the tile's blocks of H, x and z is row n of the
    arrays and the other blocks are the whole arrays. -/
theorem feat_row (b0 : Vec Ideal S1000x2048 .f32) (b1 : Vec Ideal S1000x128 .f32) (b2 : Vec Ideal S1000x16 .f32) (b3 : Vec Ideal S1x2048 .f32) (b4 : Vec Ideal S128x32 .f32) (b5 : Vec Ideal S1x32 .f32) (b6 : Vec Ideal S16x32 .f32) (b7 : Vec Ideal S1x32 .f32) (b8 : Vec Ideal S64x64 .f32) (b9 : Vec Ideal S1x64 .f32) (b10 : Vec Ideal S64x32 .f32) (b11 : Vec Ideal S1x32 .f32) (b12 : Vec Ideal S32x64 .f32) (b13 : Vec Ideal S1x64 .f32)
    (A2 : Vec Ideal S10000x2048 .f32) (A0 : Vec Ideal S10000x128 .f32) (A1 : Vec Ideal S10000x16 .f32)
    (a3 : Vec Ideal S1x2048 .f32) (a4 : Vec Ideal S128x32 .f32) (a5 : Vec Ideal S1x32 .f32) (a6 : Vec Ideal S16x32 .f32) (a7 : Vec Ideal S1x32 .f32) (a8 : Vec Ideal S64x64 .f32) (a9 : Vec Ideal S1x64 .f32) (a10 : Vec Ideal S64x32 .f32) (a11 : Vec Ideal S1x32 .f32) (a12 : Vec Ideal S32x64 .f32) (a13 : Vec Ideal S1x64 .f32)
    (n : Fin 10000) (r : Fin 1000) (d : Fin 64)
    (hH : ∀ j : Fin 2048, b0 (ix2 r j) = A2 (ix2 n j)) (hx : ∀ j : Fin 128, b1 (ix2 r j) = A0 (ix2 n j))
    (hz : ∀ j : Fin 16, b2 (ix2 r j) = A1 (ix2 n j))
    (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) :
    (k0_pay9 (F := Ideal) (k0_pay4 b0 b3) (k0_pay6 b1 b4 b5) b2 b6 (constant S1000x32 .f32 0x00000000#32) b7 b8 b9 b10 b11 b12 b13) (ix2 r d)
      = conv1Row (mat a4) (rowv a5) (mat a6) (rowv a7) (mat a8) (rowv a9) (mat a10) (rowv a11) (mat a12) (rowv a13)
          (mat A0 n) (mat A1 n) d * nodeScale (mat A2 n) (rowv a3) := by
  subst e3 e4 e5 e6 e7 e8 e9 e10 e11 e12 e13
  rw [pay9_apply (k0_pay4 b0 b3) b1 b4 b5 b2 b6 _ rfl b7 b8 b9 b10 b11 b12 b13 r d, pay4_apply b0 b3 r]
  have e0 : mat b0 r = mat A2 n := funext hH
  have e1 : mat b1 r = mat A0 n := funext hx
  have e2 : mat b2 r = mat A1 n := funext hz
  rw [e0, e1, e2]

/-! ## The accumulators after each grid point -/

variable (V : (c : Dev nD) → (b : Ref sig .tc) → Buf (Elt Ideal) ((c : Thread nD τ).loc b))

/-- The scaled first-layer features of the tile at a grid point, as the body computes them from the point's blocks. -/
abbrev featBlk (c : Dev nD) (t : Fin cfg0.N) : FVec Ideal S1000x64 .f32 :=
  (k0_pay9 (F := Ideal) (k0_pay4 (iblk0 V c 0 t) (iblk0 V c 3 t)) (k0_pay6 (iblk0 V c 1 t) (iblk0 V c 4 t) (iblk0 V c 5 t)) (iblk0 V c 2 t) (iblk0 V c 6 t) (constant S1000x32 .f32 0x00000000#32) (iblk0 V c 7 t) (iblk0 V c 8 t) (iblk0 V c 9 t) (iblk0 V c 10 t) (iblk0 V c 11 t) (iblk0 V c 12 t) (iblk0 V c 13 t))

/-- Row n's scaled first-layer features in the specification's words: the first convolution's linear layer of the
    fused row, times the node scaling of row n of H. -/
def featRow (c : Dev nD) (n : Fin 10000) (d : Fin 64) : EReal :=
  conv1Row (mat (V c main_arg4)) (rowv (V c main_v2)) (mat (V c main_arg6)) (rowv (V c main_v3))
      (mat (V c main_arg8)) (rowv (V c main_v4)) (mat (V c main_arg10)) (rowv (V c main_v5))
      (mat (V c main_arg12)) (rowv (V c main_v6)) (mat (V c main_arg0) n) (mat (V c main_arg1) n) d
    * nodeScale (mat (V c main_arg2) n) (rowv (V c main_v0))

/-- Row r of the tile's features is the specification's row 1000·t + r. -/
theorem featBlk_apply (c : Dev nD) (t : Fin cfg0.N) (r : Fin 1000) (d : Fin 64) :
    featBlk V c t (ix2 r d) = featRow V c (rowOf (tile t) r) d := by
  unfold featRow
  exact feat_row (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    (V c main_arg2) (V c main_arg0) (V c main_arg1)
    (V c main_v0) (V c main_arg4) (V c main_v2) (V c main_arg6) (V c main_v3) (V c main_arg8) (V c main_v4) (V c main_arg10) (V c main_v5) (V c main_arg12) (V c main_v6)
    (rowOf (tile t) r) r d (H_at V c t r) (x_at V c t r) (z_at V c t r)
    (w_eq V c t) (psiW_eq V c t) (psib_eq V c t) (phiW_eq V c t) (phib_eq V c t) (g1W_eq V c t) (g1b_eq V c t) (g2W_eq V c t) (g2b_eq V c t) (c1W_eq V c t) (c1b_eq V c t)

/-- The first point's degree block, at the point's own memrefs and blocks. -/
theorem deg_A_at (c : Dev nD) (t : Fin cfg0.N) (hc : cond0_0 (grid0.coords t)) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
      = k0_pay5 (F := Ideal) (iblk0 V c 0 t) (k0_pay2 (F := Ideal)) :=
  deg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)

/-- A later point's degree block, at the point's own memrefs and blocks. -/
theorem deg_B_at (c : Dev nD) (t : Fin cfg0.N) (hc : ¬cond0_0 (grid0.coords t))
    (xo16 : Vec Ideal S1x2048 .f32) (xo17 : Vec Ideal S2048x64 .f32) :
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) xo16 xo17
      = k0_pay5 (F := Ideal) (iblk0 V c 0 t) xo16 :=
  deg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) xo16 xo17

/-- The first point's aggregate block, at the point's own memrefs and blocks. -/
theorem agg_A_at (c : Dev nD) (t : Fin cfg0.N) (hc : cond0_0 (grid0.coords t)) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
      = k0_pay1 (F := Ideal) (iblk0 V c 0 t) (featBlk V c t) (k0_pay3 (F := Ideal)) :=
  agg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)

/-- A later point's aggregate block, at the point's own memrefs and blocks. -/
theorem agg_B_at (c : Dev nD) (t : Fin cfg0.N) (hc : ¬cond0_0 (grid0.coords t))
    (xo16 : Vec Ideal S1x2048 .f32) (xo17 : Vec Ideal S2048x64 .f32) :
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) xo16 xo17
      = k0_pay1 (F := Ideal) (iblk0 V c 0 t) (featBlk V c t) xo17 :=
  agg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) xo16 xo17

/-- After point n the degree block holds the column sums of H over the tiles up to n, and the aggregate block the
    sums of H n e · X n d over the same rows: the first point resets to zero and adds its tile, every later point
    adds its tile to what the point before left. -/
theorem acc_eq (c : Dev nD) : ∀ (n : ℕ) (h : n < cfg0.N),
    (∀ e : Fin 2048, (outsAt0 V c n h).2.2.1 (ix2 (0 : Fin 1) e) = upTo (fun m => mat (V c main_arg2) m e) n)
      ∧ (∀ (e : Fin 2048) (d : Fin 64), (outsAt0 V c n h).2.2.2 (ix2 e d)
          = upTo (fun m => mat (V c main_arg2) m e * featRow V c m d) n)
  | 0, h => by
    rw [outsAt0_A V c ⟨0, h⟩ rfl]
    dsimp only
    refine ⟨fun e => ?_, fun e d => ?_⟩
    · refine (congrFun (deg_A_at V c ⟨0, h⟩ ((hcond0_0 ⟨0, h⟩).mpr rfl)) (ix2 (0 : Fin 1) e)).trans ?_
      refine (deg_step (iblk0 V c 0 ⟨0, h⟩) (k0_pay2 (F := Ideal)) (fun m => mat (V c main_arg2) m e) (tile ⟨0, h⟩) e 0
        (pay2_apply _) (fun r => H_at V c ⟨0, h⟩ r e)).trans ?_
      rw [zero_add, upTo_zero]
      rfl
    · refine (congrFun (agg_A_at V c ⟨0, h⟩ ((hcond0_0 ⟨0, h⟩).mpr rfl)) (ix2 e d)).trans ?_
      refine (agg_step (iblk0 V c 0 ⟨0, h⟩) (featBlk V c ⟨0, h⟩) (k0_pay3 (F := Ideal)) (fun m => mat (V c main_arg2) m e)
        (fun m => featRow V c m d) (tile ⟨0, h⟩) e d 0
        (pay3_apply _) (fun r => H_at V c ⟨0, h⟩ r e) (fun r => featBlk_apply V c ⟨0, h⟩ r d)).trans ?_
      rw [zero_add, upTo_zero]
      rfl
  | n + 1, h => by
    have hN : cfg0.N = 10 := N_0
    have hB : ¬(⟨n + 1, h⟩ : Fin cfg0.N).val % 10 = 0 := by dsimp only; omega
    have hlt : n + 1 < 10 := by omega
    obtain ⟨ih16, ih17⟩ := acc_eq c n (Nat.lt_of_succ_lt h)
    rw [outsAt0_B V c ⟨n + 1, h⟩ hB]
    dsimp only
    refine ⟨fun e => ?_, fun e d => ?_⟩
    · refine (congrFun (deg_B_at V c ⟨n + 1, h⟩ (fun hh => hB ((hcond0_0 ⟨n + 1, h⟩).mp hh))
        (outsAt0 V c n (Nat.lt_of_succ_lt h)).2.2.1 (outsAt0 V c n (Nat.lt_of_succ_lt h)).2.2.2) (ix2 (0 : Fin 1) e)).trans ?_
      refine (deg_step (iblk0 V c 0 ⟨n + 1, h⟩) (outsAt0 V c n (Nat.lt_of_succ_lt h)).2.2.1
        (fun m => mat (V c main_arg2) m e) (tile ⟨n + 1, h⟩) e _ (ih16 e) (fun r => H_at V c ⟨n + 1, h⟩ r e)).trans ?_
      exact (upTo_succ _ n hlt).symm
    · refine (congrFun (agg_B_at V c ⟨n + 1, h⟩ (fun hh => hB ((hcond0_0 ⟨n + 1, h⟩).mp hh))
        (outsAt0 V c n (Nat.lt_of_succ_lt h)).2.2.1 (outsAt0 V c n (Nat.lt_of_succ_lt h)).2.2.2) (ix2 e d)).trans ?_
      refine (agg_step (iblk0 V c 0 ⟨n + 1, h⟩) (featBlk V c ⟨n + 1, h⟩) (outsAt0 V c n (Nat.lt_of_succ_lt h)).2.2.2
        (fun m => mat (V c main_arg2) m e) (fun m => featRow V c m d) (tile ⟨n + 1, h⟩) e d _ (ih17 e d)
        (fun r => H_at V c ⟨n + 1, h⟩ r e) (fun r => featBlk_apply V c ⟨n + 1, h⟩ r d)).trans ?_
      exact (upTo_succ _ n hlt).symm

/-! ## The arrays after the sweep -/

/-- The last of the ten points. -/
theorem lt9 : 9 < cfg0.N := by rw [show cfg0.N = 10 from N_0]; decide

/-- What the deg block holds after the last point, as contents of its array (the one block is the array). -/
abbrev degLast (c : Dev nD) : Buf (Elt Ideal) ((c : Thread nD τ).loc main_v7_2) := (outsAt0 V c 9 lt9).2.2.1

/-- The one write-back of the deg block, after the last point, writes it: the block at the origin read through
    zero offsets is the array. -/
theorem deg_flushed (c : Dev nD) (t : Fin cfg0.N) (hf : (cfg0.win 16).flush t = true) :
    (dat0 V c).flushed 16 t = ((cfg0.win 16).blk t).view.read (Elt Ideal) (degLast V c) := by
  have hN : cfg0.N = 10 := N_0
  have h9 : t.val = 9 := by have := (flush0_16 t).mp hf; have := t.isLt; omega
  obtain rfl : t = t0_9 := Fin.ext h9
  show (cfg0.win 16).cut (grid0.coords t0_9) ((dat0 V c).after 16 t0_9) = _
  rw [after0_16]
  have hz' : (fun a => win0_16.index t0_9 a * main_v7_2.ty.shape.size a) = fun _ => 0 :=
    funext fun a => by fin_cases a <;> decide
  exact (Memref.read_access_unit_zero (Elt Ideal) main_v7_2 hz' (fun a => by rw [congrFun hz' a]; simp) (degLast V c)).symm

/-- So the deg array ends holding what the block held after the last point. -/
theorem deg_arr (c : Dev nD) : (dat0 V c).arrAt 16 cfg0.N = degLast V c :=
  (dat0 V c).arrAt_eq_of_cover 16 (degLast V c) (deg_flushed V c) fun i =>
    ⟨t0_9, (flush0_16 t0_9).mpr rfl, by
      show i ∈ ((View.whole main_v7_2).slice (win0_16.rect t0_9)).set
      rw [View.set_slice_whole, Rect.mem_set_unit]
      intro a
      have h0 : (i 0 : Nat) < 1 := (i 0).isLt
      have h1 : (i 1 : Nat) < 2048 := (i 1).isLt
      match a with
      | ⟨0, _⟩ =>
        show win0_16.index t0_9 0 * win0_16.size 0 ≤ (i 0 : Nat)
          ∧ (i 0 : Nat) < win0_16.index t0_9 0 * win0_16.size 0 + win0_16.xsize (grid0.coords t0_9) 0
        rw [show win0_16.index t0_9 0 * win0_16.size 0 = 0 from by decide +kernel,
          show win0_16.xsize (grid0.coords t0_9) 0 = 1 from by decide +kernel]
        omega
      | ⟨1, _⟩ =>
        show win0_16.index t0_9 1 * win0_16.size 1 ≤ (i 1 : Nat)
          ∧ (i 1 : Nat) < win0_16.index t0_9 1 * win0_16.size 1 + win0_16.xsize (grid0.coords t0_9) 1
        rw [show win0_16.index t0_9 1 * win0_16.size 1 = 0 from by decide +kernel,
          show win0_16.xsize (grid0.coords t0_9) 1 = 2048 from by decide +kernel]
        omega⟩

/-- What the agg block holds after the last point, as contents of its array (the one block is the array). -/
abbrev aggLast (c : Dev nD) : Buf (Elt Ideal) ((c : Thread nD τ).loc main_v7_3) := (outsAt0 V c 9 lt9).2.2.2

/-- The one write-back of the agg block, after the last point, writes it: the block at the origin read through
    zero offsets is the array. -/
theorem agg_flushed (c : Dev nD) (t : Fin cfg0.N) (hf : (cfg0.win 17).flush t = true) :
    (dat0 V c).flushed 17 t = ((cfg0.win 17).blk t).view.read (Elt Ideal) (aggLast V c) := by
  have hN : cfg0.N = 10 := N_0
  have h9 : t.val = 9 := by have := (flush0_17 t).mp hf; have := t.isLt; omega
  obtain rfl : t = t0_9 := Fin.ext h9
  show (cfg0.win 17).cut (grid0.coords t0_9) ((dat0 V c).after 17 t0_9) = _
  rw [after0_17]
  have hz' : (fun a => win0_17.index t0_9 a * main_v7_3.ty.shape.size a) = fun _ => 0 :=
    funext fun a => by fin_cases a <;> decide
  exact (Memref.read_access_unit_zero (Elt Ideal) main_v7_3 hz' (fun a => by rw [congrFun hz' a]; simp) (aggLast V c)).symm

/-- So the agg array ends holding what the block held after the last point. -/
theorem agg_arr (c : Dev nD) : (dat0 V c).arrAt 17 cfg0.N = aggLast V c :=
  (dat0 V c).arrAt_eq_of_cover 17 (aggLast V c) (agg_flushed V c) fun i =>
    ⟨t0_9, (flush0_17 t0_9).mpr rfl, by
      show i ∈ ((View.whole main_v7_3).slice (win0_17.rect t0_9)).set
      rw [View.set_slice_whole, Rect.mem_set_unit]
      intro a
      have h0 : (i 0 : Nat) < 2048 := (i 0).isLt
      have h1 : (i 1 : Nat) < 64 := (i 1).isLt
      match a with
      | ⟨0, _⟩ =>
        show win0_17.index t0_9 0 * win0_17.size 0 ≤ (i 0 : Nat)
          ∧ (i 0 : Nat) < win0_17.index t0_9 0 * win0_17.size 0 + win0_17.xsize (grid0.coords t0_9) 0
        rw [show win0_17.index t0_9 0 * win0_17.size 0 = 0 from by decide +kernel,
          show win0_17.xsize (grid0.coords t0_9) 0 = 2048 from by decide +kernel]
        omega
      | ⟨1, _⟩ =>
        show win0_17.index t0_9 1 * win0_17.size 1 ≤ (i 1 : Nat)
          ∧ (i 1 : Nat) < win0_17.index t0_9 1 * win0_17.size 1 + win0_17.xsize (grid0.coords t0_9) 1
        rw [show win0_17.index t0_9 1 * win0_17.size 1 = 0 from by decide +kernel,
          show win0_17.xsize (grid0.coords t0_9) 1 = 64 from by decide +kernel]
        omega⟩

/-- After the first sweep the degree array holds every hyperedge's degree. -/
theorem final_deg (c : Dev nD) (e : Fin 2048) :
    (dat0 V c).arrAt 16 cfg0.N (ix2 (0 : Fin 1) e) = edgeDeg (mat (V c main_arg2)) e := by
  refine (congrFun (deg_arr V c) (ix2 (0 : Fin 1) e)).trans ?_
  refine ((acc_eq V c 9 lt9).1 e).trans ?_
  exact upTo_last _

/-- After the first sweep the aggregate array holds the first hyperedge aggregate. -/
theorem final_agg (c : Dev nD) (e : Fin 2048) (d : Fin 64) :
    (dat0 V c).arrAt 17 cfg0.N (ix2 e d)
      = firstAgg (mat (V c main_arg2)) (mat (V c main_arg0)) (mat (V c main_arg1)) (rowv (V c main_v0))
          (mat (V c main_arg4)) (rowv (V c main_v2)) (mat (V c main_arg6)) (rowv (V c main_v3))
          (mat (V c main_arg8)) (rowv (V c main_v4)) (mat (V c main_arg10)) (rowv (V c main_v5))
          (mat (V c main_arg12)) (rowv (V c main_v6)) e d := by
  refine (congrFun (agg_arr V c) (ix2 e d)).trans ?_
  refine ((acc_eq V c 9 lt9).2 e d).trans ?_
  exact upTo_last _

end Cert.KernelIdeal.Reg0Acc

end
-- ==== Proof.Pay12.lean ====
/-
  The second and third sweeps' arithmetic on one tile of 1000 rows, read at one element.
-/
import proofs.«168773_g40587440947829_cont_sun_m_1101_2_alg».proof.Proof.Gen.KernelIdeal.Skeleton
import proofs.«168773_g40587440947829_cont_sun_m_1101_2_alg».proof.Proof.Spec
import proofs.«168773_g40587440947829_cont_sun_m_1101_2_alg».proof.Proof.Views
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Pay12

open Cert.KernelIdeal Cert.KernelIdeal.Gen Cert.HGSpec Cert.HGView

/-! ### A column broadcast along the rows -/

/-- A `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### A tile of H times a hyperedge array -/

theorem lhs_hm_0 (i : S1000x64.Idx) (q : dot_S1000x2048_S2048x64_S1000x64_1_0_0_1_n_n.contr.Idx) :
    (dot_S1000x2048_S2048x64_S1000x64_1_0_0_1_n_n.lhsIdx i q 0).val = (i 0).val := by
  unfold DotDims.lhsIdx
  rw [dif_neg (show ¬(0 : Fin S1000x2048.rank) ∈ dot_S1000x2048_S2048x64_S1000x64_1_0_0_1_n_n.lhsBatch by decide), dif_pos (show (0 : Fin S1000x2048.rank) ∈ dot_S1000x2048_S2048x64_S1000x64_1_0_0_1_n_n.lhsNonContracting by decide)]
  rfl
theorem lhs_hm_1 (i : S1000x64.Idx) (q : dot_S1000x2048_S2048x64_S1000x64_1_0_0_1_n_n.contr.Idx) :
    (dot_S1000x2048_S2048x64_S1000x64_1_0_0_1_n_n.lhsIdx i q 1).val = (q ⟨0, by decide⟩).val :=
  dot_S1000x2048_S2048x64_S1000x64_1_0_0_1_n_n.lhsIdx_val_of_single rfl i q
theorem rhs_hm_0 (i : S1000x64.Idx) (q : dot_S1000x2048_S2048x64_S1000x64_1_0_0_1_n_n.contr.Idx) :
    (dot_S1000x2048_S2048x64_S1000x64_1_0_0_1_n_n.rhsIdx i q 0).val = (q ⟨0, by decide⟩).val :=
  dot_S1000x2048_S2048x64_S1000x64_1_0_0_1_n_n.rhsIdx_val_of_single rfl i q
theorem rhs_hm_1 (i : S1000x64.Idx) (q : dot_S1000x2048_S2048x64_S1000x64_1_0_0_1_n_n.contr.Idx) :
    (dot_S1000x2048_S2048x64_S1000x64_1_0_0_1_n_n.rhsIdx i q 1).val = (i 1).val := by
  unfold DotDims.rhsIdx
  rw [dif_neg (show ¬(1 : Fin S2048x64.rank) ∈ dot_S1000x2048_S2048x64_S1000x64_1_0_0_1_n_n.rhsBatch by decide), dif_pos (show (1 : Fin S2048x64.rank) ∈ dot_S1000x2048_S2048x64_S1000x64_1_0_0_1_n_n.rhsNonContracting by decide)]
  rfl

/-- A tile of H times a hyperedge array: entry (p, c) of the product into a zero accumulator is ∑ₖ x p k · y k c. -/
theorem mm_hm_apply (x : FVec Ideal S1000x2048 .f32) (y : FVec Ideal S2048x64 .f32) (p : Fin 1000) (c : Fin 64) :
    matmul dot_S1000x2048_S2048x64_S1000x64_1_0_0_1_n_n none x y (constant S1000x64 .f32 0x00000000#32) (ix2 p c)
      = ∑ k : Fin 2048, x (ix2 p k) * y (ix2 k c) := by
  show FloatOps.matmul dot_S1000x2048_S2048x64_S1000x64_1_0_0_1_n_n none x y (constant S1000x64 .f32 0x00000000#32) (ix2 p c) = _
  rw [Ideal.matmul_constant_zero_apply, ← Equiv.sum_comp (ValueIdx.contrEquiv1 dot_S1000x2048_S2048x64_S1000x64_1_0_0_1_n_n 2048 rfl rfl).symm]
  refine Finset.sum_congr rfl fun k _ => ?_
  have hk := ValueIdx.contrEquiv1_symm_val dot_S1000x2048_S2048x64_S1000x64_1_0_0_1_n_n 2048 rfl rfl k
  have el : dot_S1000x2048_S2048x64_S1000x64_1_0_0_1_n_n.lhsIdx (ix2 p c) ((ValueIdx.contrEquiv1 dot_S1000x2048_S2048x64_S1000x64_1_0_0_1_n_n 2048 rfl rfl).symm k) = ix2 p k := funext fun a => Fin.ext (by
    match a with
    | ⟨0, _⟩ => exact lhs_hm_0 _ _
    | ⟨1, _⟩ => exact (lhs_hm_1 _ _).trans hk)
  have er : dot_S1000x2048_S2048x64_S1000x64_1_0_0_1_n_n.rhsIdx (ix2 p c) ((ValueIdx.contrEquiv1 dot_S1000x2048_S2048x64_S1000x64_1_0_0_1_n_n 2048 rfl rfl).symm k) = ix2 k c := funext fun a => Fin.ext (by
    match a with
    | ⟨0, _⟩ => exact (rhs_hm_0 _ _).trans hk
    | ⟨1, _⟩ => exact rhs_hm_1 _ _)
  rw [el, er]

/-! ### A tile of node features times the second layer's weights -/

theorem lhs_cc_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_cc_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs_cc_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs_cc_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A tile of node features times the second layer's weights: entry (p, c) of the product into a zero accumulator is ∑ₖ x p k · y k c. -/
theorem mm_cc_apply (x : FVec Ideal S1000x64 .f32) (y : FVec Ideal S64x64 .f32) (p : Fin 1000) (c : Fin 64) :
    matmul dot_S1000x64_S64x64_S1000x64_1_0_0_1_n_n none x y (constant S1000x64 .f32 0x00000000#32) (ix2 p c)
      = ∑ k : Fin 64, x (ix2 p k) * y (ix2 k c) := by
  show FloatOps.matmul dot_S1000x64_S64x64_S1000x64_1_0_0_1_n_n none x y (constant S1000x64 .f32 0x00000000#32) (ix2 p c) = _
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p c) ((ValueIdx.contrEquiv1 dot_S1000x64_S64x64_S1000x64_1_0_0_1_n_n 64 rfl rfl).symm k) = ix2 p k := funext fun a => Fin.ext (by
    match a with
    | ⟨0, _⟩ => exact lhs_cc_0 _ _
    | ⟨1, _⟩ => exact (lhs_cc_1 _ _).trans hk)
  have er : dot_S1000x64_S64x64_S1000x64_1_0_0_1_n_n.rhsIdx (ix2 p c) ((ValueIdx.contrEquiv1 dot_S1000x64_S64x64_S1000x64_1_0_0_1_n_n 64 rfl rfl).symm k) = ix2 k c := funext fun a => Fin.ext (by
    match a with
    | ⟨0, _⟩ => exact (rhs_cc_0 _ _).trans hk
    | ⟨1, _⟩ => exact rhs_cc_1 _ _)
  rw [el, er]

/-! ### A tile of node features times the head's weights -/

theorem lhs_hd_0 (i : S1000x2.Idx) (q : dot_S1000x64_S64x2_S1000x2_1_0_0_1_n_n.contr.Idx) :
    (dot_S1000x64_S64x2_S1000x2_1_0_0_1_n_n.lhsIdx i q 0).val = (i 0).val := by
  unfold DotDims.lhsIdx
  rw [dif_neg (show ¬(0 : Fin S1000x64.rank) ∈ dot_S1000x64_S64x2_S1000x2_1_0_0_1_n_n.lhsBatch by decide), dif_pos (show (0 : Fin S1000x64.rank) ∈ dot_S1000x64_S64x2_S1000x2_1_0_0_1_n_n.lhsNonContracting by decide)]
  rfl
theorem lhs_hd_1 (i : S1000x2.Idx) (q : dot_S1000x64_S64x2_S1000x2_1_0_0_1_n_n.contr.Idx) :
    (dot_S1000x64_S64x2_S1000x2_1_0_0_1_n_n.lhsIdx i q 1).val = (q ⟨0, by decide⟩).val :=
  dot_S1000x64_S64x2_S1000x2_1_0_0_1_n_n.lhsIdx_val_of_single rfl i q
theorem rhs_hd_0 (i : S1000x2.Idx) (q : dot_S1000x64_S64x2_S1000x2_1_0_0_1_n_n.contr.Idx) :
    (dot_S1000x64_S64x2_S1000x2_1_0_0_1_n_n.rhsIdx i q 0).val = (q ⟨0, by decide⟩).val :=
  dot_S1000x64_S64x2_S1000x2_1_0_0_1_n_n.rhsIdx_val_of_single rfl i q
theorem rhs_hd_1 (i : S1000x2.Idx) (q : dot_S1000x64_S64x2_S1000x2_1_0_0_1_n_n.contr.Idx) :
    (dot_S1000x64_S64x2_S1000x2_1_0_0_1_n_n.rhsIdx i q 1).val = (i 1).val := by
  unfold DotDims.rhsIdx
  rw [dif_neg (show ¬(1 : Fin S64x2.rank) ∈ dot_S1000x64_S64x2_S1000x2_1_0_0_1_n_n.rhsBatch by decide), dif_pos (show (1 : Fin S64x2.rank) ∈ dot_S1000x64_S64x2_S1000x2_1_0_0_1_n_n.rhsNonContracting by decide)]
  rfl

/-- A tile of node features times the head's weights: entry (p, c) of the product into a zero accumulator is ∑ₖ x p k · y k c. -/
theorem mm_hd_apply (x : FVec Ideal S1000x64 .f32) (y : FVec Ideal S64x2 .f32) (p : Fin 1000) (c : Fin 2) :
    matmul dot_S1000x64_S64x2_S1000x2_1_0_0_1_n_n none x y (constant S1000x2 .f32 0x00000000#32) (ix2 p c)
      = ∑ k : Fin 64, x (ix2 p k) * y (ix2 k c) := by
  show FloatOps.matmul dot_S1000x64_S64x2_S1000x2_1_0_0_1_n_n none x y (constant S1000x2 .f32 0x00000000#32) (ix2 p c) = _
  rw [Ideal.matmul_constant_zero_apply, ← Equiv.sum_comp (ValueIdx.contrEquiv1 dot_S1000x64_S64x2_S1000x2_1_0_0_1_n_n 64 rfl rfl).symm]
  refine Finset.sum_congr rfl fun k _ => ?_
  have hk := ValueIdx.contrEquiv1_symm_val dot_S1000x64_S64x2_S1000x2_1_0_0_1_n_n 64 rfl rfl k
  have el : dot_S1000x64_S64x2_S1000x2_1_0_0_1_n_n.lhsIdx (ix2 p c) ((ValueIdx.contrEquiv1 dot_S1000x64_S64x2_S1000x2_1_0_0_1_n_n 64 rfl rfl).symm k) = ix2 p k := funext fun a => Fin.ext (by
    match a with
    | ⟨0, _⟩ => exact lhs_hd_0 _ _
    | ⟨1, _⟩ => exact (lhs_hd_1 _ _).trans hk)
  have er : dot_S1000x64_S64x2_S1000x2_1_0_0_1_n_n.rhsIdx (ix2 p c) ((ValueIdx.contrEquiv1 dot_S1000x64_S64x2_S1000x2_1_0_0_1_n_n 64 rfl rfl).symm k) = ix2 k c := funext fun a => Fin.ext (by
    match a with
    | ⟨0, _⟩ => exact (rhs_hd_0 _ _).trans hk
    | ⟨1, _⟩ => exact rhs_hd_1 _ _)
  rw [el, er]

/-! ### The transpose of a tile of H times a node array -/

theorem lhs_ht_0 (i : S2048x64.Idx) (q : dot_S1000x2048_S1000x64_S2048x64_0_0_1_1_n_n.contr.Idx) :
    (dot_S1000x2048_S1000x64_S2048x64_0_0_1_1_n_n.lhsIdx i q 0).val = (q ⟨0, by decide⟩).val :=
  dot_S1000x2048_S1000x64_S2048x64_0_0_1_1_n_n.lhsIdx_val_of_single rfl i q
theorem lhs_ht_1 (i : S2048x64.Idx) (q : dot_S1000x2048_S1000x64_S2048x64_0_0_1_1_n_n.contr.Idx) :
    (dot_S1000x2048_S1000x64_S2048x64_0_0_1_1_n_n.lhsIdx i q 1).val = (i 0).val := by
  unfold DotDims.lhsIdx
  rw [dif_neg (show ¬(1 : Fin S1000x2048.rank) ∈ dot_S1000x2048_S1000x64_S2048x64_0_0_1_1_n_n.lhsBatch by decide), dif_pos (show (1 : Fin S1000x2048.rank) ∈ dot_S1000x2048_S1000x64_S2048x64_0_0_1_1_n_n.lhsNonContracting by decide)]
  rfl
theorem rhs_ht_0 (i : S2048x64.Idx) (q : dot_S1000x2048_S1000x64_S2048x64_0_0_1_1_n_n.contr.Idx) :
    (dot_S1000x2048_S1000x64_S2048x64_0_0_1_1_n_n.rhsIdx i q 0).val = (q ⟨0, by decide⟩).val :=
  dot_S1000x2048_S1000x64_S2048x64_0_0_1_1_n_n.rhsIdx_val_of_single rfl i q
theorem rhs_ht_1 (i : S2048x64.Idx) (q : dot_S1000x2048_S1000x64_S2048x64_0_0_1_1_n_n.contr.Idx) :
    (dot_S1000x2048_S1000x64_S2048x64_0_0_1_1_n_n.rhsIdx i q 1).val = (i 1).val := by
  unfold DotDims.rhsIdx
  rw [dif_neg (show ¬(1 : Fin S1000x64.rank) ∈ dot_S1000x2048_S1000x64_S2048x64_0_0_1_1_n_n.rhsBatch by decide), dif_pos (show (1 : Fin S1000x64.rank) ∈ dot_S1000x2048_S1000x64_S2048x64_0_0_1_1_n_n.rhsNonContracting by decide)]
  rfl

/-- Both operands contracted along their rows: entry (e, d) of xᵀ · y into a zero accumulator is ∑ᵣ x r e · y r d. -/
theorem mm_ht_apply (x : FVec Ideal S1000x2048 .f32) (y : FVec Ideal S1000x64 .f32) (e : Fin 2048) (d : Fin 64) :
    matmul dot_S1000x2048_S1000x64_S2048x64_0_0_1_1_n_n none x y (constant S2048x64 .f32 0x00000000#32) (ix2 e d)
      = ∑ r : Fin 1000, x (ix2 r e) * y (ix2 r d) := by
  show FloatOps.matmul dot_S1000x2048_S1000x64_S2048x64_0_0_1_1_n_n none x y (constant S2048x64 .f32 0x00000000#32) (ix2 e d) = _
  rw [Ideal.matmul_constant_zero_apply, ← Equiv.sum_comp (ValueIdx.contrEquiv1 dot_S1000x2048_S1000x64_S2048x64_0_0_1_1_n_n 1000 rfl rfl).symm]
  refine Finset.sum_congr rfl fun k _ => ?_
  have hk := ValueIdx.contrEquiv1_symm_val dot_S1000x2048_S1000x64_S2048x64_0_0_1_1_n_n 1000 rfl rfl k
  have el : dot_S1000x2048_S1000x64_S2048x64_0_0_1_1_n_n.lhsIdx (ix2 e d) ((ValueIdx.contrEquiv1 dot_S1000x2048_S1000x64_S2048x64_0_0_1_1_n_n 1000 rfl rfl).symm k) = ix2 k e := funext fun a => Fin.ext (by
    match a with
    | ⟨0, _⟩ => exact (lhs_ht_0 _ _).trans hk
    | ⟨1, _⟩ => exact lhs_ht_1 _ _)
  have er : dot_S1000x2048_S1000x64_S2048x64_0_0_1_1_n_n.rhsIdx (ix2 e d) ((ValueIdx.contrEquiv1 dot_S1000x2048_S1000x64_S2048x64_0_0_1_1_n_n 1000 rfl rfl).symm k) = ix2 k d := funext fun a => Fin.ext (by
    match a with
    | ⟨0, _⟩ => exact (rhs_ht_0 _ _).trans hk
    | ⟨1, _⟩ => exact rhs_ht_1 _ _)
  rw [el, er]

/-! ### The scatter back to the nodes, rectified -/

/-- Row r of the tile: the hyperedge array scaled edge by edge, summed against row r of H, scaled by the node's s, rectified. -/
theorem scatter_apply (h : FVec Ideal S1000x2048 .f32) (s : FVec Ideal S1000x1 .f32) (m : FVec Ideal S2048x64 .f32)
    (w de : FVec Ideal S2048x1 .f32) (r : Fin 1000) (k : Fin 64) :
    maximumf
        (mulf
          (matmul dot_S1000x2048_S2048x64_S1000x64_1_0_0_1_n_n none h
            (mulf m (broadcastTo S2048x64 (divf w (addf de (broadcast S2048x1 (Scalar.ofBits (F := Ideal) .f32 0x3089705F#32))))
              broadcasts_S2048x1_S2048x64))
            (constant S1000x64 .f32 0x00000000#32))
          (broadcastTo S1000x64 s broadcasts_S1000x1_S1000x64))
        (broadcast S1000x64 (Scalar.ofBits (F := Ideal) .f32 0x00000000#32)) (ix2 r k)
      = scatterRow (mat h r) (colv s r) (mat m) (colv w) (colv de) k := by
  rw [maximumf_apply, mulf_apply, broadcast_apply, broadcastTo_a1_ab_apply, mm_hm_apply]
  unfold scatterRow relu
  rw [show (Scalar.ofBits (F := Ideal) .f32 0x00000000#32 : EReal) = 0 from Ideal.ofBits_zero_f32]
  refine congrArg (fun t : EReal => max (t * s (ix2 r (0 : Fin 1))) 0) (Finset.sum_congr rfl fun e _ => ?_)
  rw [mulf_apply, broadcastTo_a1_ab_apply, divf_apply, addf_apply, broadcast_apply]
  rfl

/-! ### The three payloads -/

/-- The reset of the second aggregate is zero. -/
theorem k1pay1_apply (j : S2048x64.Idx) : k1_pay1 (F := Ideal) j = 0 := by
  unfold k1_pay1
  exact Ideal.ofBits_zero_f32

/-- The second aggregate after a tile: what it held plus ∑ᵣ h r e · (second layer of the scattered row r) d · s r. -/
theorem k1pay2_apply (v3 : Vec Ideal S1000x2048 .f32) (v4 : Vec Ideal S1000x1 .f32) (v6 : Vec Ideal S2048x64 .f32)
    (v8 v10 : Vec Ideal S2048x1 .f32) (v22 : Vec Ideal S64x64 .f32) (v24 : Vec Ideal S1x64 .f32) (v30 : Vec Ideal S2048x64 .f32)
    (e : Fin 2048) (d : Fin 64) :
    k1_pay2 v3 v4 v6 v8 v10 v22 v24 v30 (ix2 e d)
      = v30 (ix2 e d) + ∑ r : Fin 1000, v3 (ix2 r e)
          * (lin (scatterRow (mat v3 r) (colv v4 r) (mat v6) (colv v8) (colv v10)) (mat v22) (rowv v24) d * colv v4 r) := by
  unfold k1_pay2
  simp only [shapeCast_self]
  rw [addf_apply, mm_ht_apply]
  refine congrArg (v30 (ix2 e d) + ·) (Finset.sum_congr rfl fun r _ => congrArg (v3 (ix2 r e) * ·) ?_)
  rw [mulf_apply, addf_apply, broadcastTo_a1_ab_apply, broadcastTo_1b_ab_apply, mm_cc_apply]
  unfold lin
  refine congrArg (fun t : EReal => (t + v24 (ix2 (0 : Fin 1) d)) * v4 (ix2 r (0 : Fin 1))) (Finset.sum_congr rfl fun k _ => congrArg (· * v22 (ix2 k d)) ?_)
  exact scatter_apply v3 v4 v6 v8 v10 r k

/-- The logits of row r of the tile. -/
theorem k2pay1_apply (v0 : Vec Ideal S1000x2048 .f32) (v1 : Vec Ideal S1000x1 .f32) (v3 : Vec Ideal S2048x64 .f32)
    (v5 v7 : Vec Ideal S2048x1 .f32) (v19 : Vec Ideal S64x2 .f32) (v21 : Vec Ideal S1x2 .f32) (r : Fin 1000) (o : Fin 2) :
    k2_pay1 v0 v1 v3 v5 v7 v19 v21 (ix2 r o)
      = lin (scatterRow (mat v0 r) (colv v1 r) (mat v3) (colv v5) (colv v7)) (mat v19) (rowv v21) o := by
  unfold k2_pay1
  simp only [shapeCast_self]
  rw [addf_apply, broadcastTo_1b_ab_apply, mm_hd_apply]
  unfold lin
  refine congrArg (· + v21 (ix2 (0 : Fin 1) o)) (Finset.sum_congr rfl fun k _ => congrArg (· * v19 (ix2 k o)) ?_)
  exact scatter_apply v0 v1 v3 v5 v7 r k

end Cert.KernelIdeal.Pay12

end
-- ==== Proof.Blocks1.lean ====
/-
  What each input window of the second sweep holds at a grid point.
-/
import proofs.«168773_g40587440947829_cont_sun_m_1101_2_alg».proof.Proof.Gen.KernelIdeal.Frame
import proofs.«168773_g40587440947829_cont_sun_m_1101_2_alg».proof.Proof.Algebra
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Blk1

open Cert.KernelIdeal Cert.KernelIdeal.Gen Cert.HGAlg

variable (V : (c : Dev nD) → (b : Ref sig .tc) → Buf (Elt Ideal) ((c : Thread nD τ).loc b))

/-- A grid point as a tile number. -/
abbrev tile (t : Fin cfg1.N) : Fin 10 := ⟨t.val, lt_of_lt_of_eq t.isLt N_1⟩

/-! The block index of each input window at each of the ten grid points, decided once: a row-blocked window sits at
    block (t, 0) at point t, a window whose block is its whole array at block (0, 0) at every point. -/

theorem idx_0 : ∀ t : Fin cfg1.N, win1_0.index t (0 : Fin 2) = t.val ∧ win1_0.index t (1 : Fin 2) = 0 :=
  (by decide +kernel : ∀ t : Fin grid1.N, _)

theorem idx_1 : ∀ t : Fin cfg1.N, win1_1.index t (0 : Fin 2) = t.val ∧ win1_1.index t (1 : Fin 2) = 0 :=
  (by decide +kernel : ∀ t : Fin grid1.N, _)

theorem idx_2 : ∀ (t : Fin cfg1.N) (a : Fin 2), win1_2.index t a = 0 :=
  (by decide +kernel : ∀ (t : Fin grid1.N) (a : Fin 2), _)

theorem idx_3 : ∀ (t : Fin cfg1.N) (a : Fin 2), win1_3.index t a = 0 :=
  (by decide +kernel : ∀ (t : Fin grid1.N) (a : Fin 2), _)

theorem idx_4 : ∀ (t : Fin cfg1.N) (a : Fin 2), win1_4.index t a = 0 :=
  (by decide +kernel : ∀ (t : Fin grid1.N) (a : Fin 2), _)

theorem idx_5 : ∀ (t : Fin cfg1.N) (a : Fin 2), win1_5.index t a = 0 :=
  (by decide +kernel : ∀ (t : Fin grid1.N) (a : Fin 2), _)

theorem idx_6 : ∀ (t : Fin cfg1.N) (a : Fin 2), win1_6.index t a = 0 :=
  (by decide +kernel : ∀ (t : Fin grid1.N) (a : Fin 2), _)

/-- Row r of tile t of H is row 1000·t + r of H: an element of a block sits in its array, on each axis, at the block
    index times the block's extent plus its own coordinate; the blocks are 1000 rows by all 2048 columns. -/
theorem H_at (c : Dev nD) (t : Fin cfg1.N) (r : Fin 1000) (j : Fin 2048) :
    iblk1 V c 0 t (ix2 r j) = V c main_arg2 (ix2 (rowOf (tile t) r) j) := by
  unfold iblk1
  rw [View.read_apply]
  show V c main_arg2 _ = V c main_arg2 _
  refine congrArg (V c main_arg2) ?_
  funext a
  apply Fin.ext
  match a with
  | ⟨0, _⟩ =>
    show win1_0.index t 0 * 1000 + 1 * r.val = 1000 * t.val + r.val
    rw [(idx_0 t).1]; omega
  | ⟨1, _⟩ =>
    show win1_0.index t 1 * 2048 + 1 * j.val = j.val
    rw [(idx_0 t).2]; omega

/-- Row r of tile t of the node scaling. -/
theorem s_at (c : Dev nD) (t : Fin cfg1.N) (r : Fin 1000) (j : Fin 1) :
    iblk1 V c 1 t (ix2 r j) = V c main_v7_1 (ix2 (rowOf (tile t) r) j) := by
  unfold iblk1
  rw [View.read_apply]
  show V c main_v7_1 _ = V c main_v7_1 _
  refine congrArg (V c main_v7_1) ?_
  funext a
  apply Fin.ext
  match a with
  | ⟨0, _⟩ =>
    show win1_1.index t 0 * 1000 + 1 * r.val = 1000 * t.val + r.val
    rw [(idx_1 t).1]; omega
  | ⟨1, _⟩ =>
    show win1_1.index t 1 * 1 + 1 * j.val = j.val
    rw [(idx_1 t).2]; omega

/-- The first aggregate, whole at every point. -/
theorem m1_eq (c : Dev nD) (t : Fin cfg1.N) : (iblk1 V c 2 t : Vec Ideal S2048x64 .f32) = V c main_v7_3 := by
  funext y
  unfold iblk1
  rw [View.read_apply]
  show V c main_v7_3 _ = V c main_v7_3 y
  refine congrArg (V c main_v7_3) ?_
  funext a
  exact Fin.ext (win1_2.rect_emb_val_of_index_zero t a (idx_2 t a) y)

/-- The edge weights as a column, whole at every point. -/
theorem w_eq (c : Dev nD) (t : Fin cfg1.N) : (iblk1 V c 3 t : Vec Ideal S2048x1 .f32) = V c main_v1 := by
  funext y
  unfold iblk1
  rw [View.read_apply]
  show V c main_v1 _ = V c main_v1 y
  refine congrArg (V c main_v1) ?_
  funext a
  exact Fin.ext (win1_3.rect_emb_val_of_index_zero t a (idx_3 t a) y)

/-- The edge degrees as a column, whole at every point. -/
theorem de_eq (c : Dev nD) (t : Fin cfg1.N) : (iblk1 V c 4 t : Vec Ideal S2048x1 .f32) = V c main_v8 := by
  funext y
  unfold iblk1
  rw [View.read_apply]
  show V c main_v8 _ = V c main_v8 y
  refine congrArg (V c main_v8) ?_
  funext a
  exact Fin.ext (win1_4.rect_emb_val_of_index_zero t a (idx_4 t a) y)

/-- A weight matrix, whole at every point. -/
theorem c2W_eq (c : Dev nD) (t : Fin cfg1.N) : (iblk1 V c 5 t : Vec Ideal S64x64 .f32) = V c main_arg14 := by
  funext y
  unfold iblk1
  rw [View.read_apply]
  show V c main_arg14 _ = V c main_arg14 y
  refine congrArg (V c main_arg14) ?_
  funext a
  exact Fin.ext (win1_5.rect_emb_val_of_index_zero t a (idx_5 t a) y)

/-- A bias row, whole at every point. -/
theorem c2b_eq (c : Dev nD) (t : Fin cfg1.N) : (iblk1 V c 6 t : Vec Ideal S1x64 .f32) = V c main_v9 := by
  funext y
  unfold iblk1
  rw [View.read_apply]
  show V c main_v9 _ = V c main_v9 y
  refine congrArg (V c main_v9) ?_
  funext a
  exact Fin.ext (win1_6.rect_emb_val_of_index_zero t a (idx_6 t a) y)

end Cert.KernelIdeal.Blk1

end
-- ==== Proof.Reg1.lean ====
/-
  The second sweep's one output, the second aggregate, accumulated over the ten points like the first.

  One block of the output's size stands for the whole array and every point revisits it. The first point overwrites it
  with zero and then adds the shares of the first tile's thousand nodes; each later point adds its own tile's shares to
  what the point before left. So after point n the block holds the shares of the tiles 0 … n (induction on the point),
  after the tenth point the sum over all 10000 nodes, which is the second aggregate; and the one write-back, after the
  tenth point, copies the block over the whole array.
-/
import proofs.«168773_g40587440947829_cont_sun_m_1101_2_alg».proof.Proof.Gen.KernelIdeal.Frame
import proofs.«168773_g40587440947829_cont_sun_m_1101_2_alg».proof.Proof.Pay12
import proofs.«168773_g40587440947829_cont_sun_m_1101_2_alg».proof.Proof.Blocks1
import proofs.«168773_g40587440947829_cont_sun_m_1101_2_alg».proof.Proof.Spec
import proofs.«168773_g40587440947829_cont_sun_m_1101_2_alg».proof.Proof.Views
import proofs.«168773_g40587440947829_cont_sun_m_1101_2_alg».proof.Proof.Algebra
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.HGSpec Cert.HGView Cert.HGAlg
open Cert.KernelIdeal.Blk1 Cert.KernelIdeal.Pay12

variable (V : (c : Dev nD) → (b : Ref sig .tc) → Buf (Elt Ideal) ((c : Thread nD τ).loc b))

/-- Offsets (0, 0), however they are spelt. -/
theorem hz : (![0, 0] : Fin 2 → Nat) = fun _ => 0 := funext fun a => by fin_cases a <;> rfl

/-! ## What one grid point leaves in the accumulator block -/

section Pieces
variable {F : FTy → Type} [FloatOps F]

/-- A point after the first: the block held xo on entry; the one store that covers it writes the tile's update of xo. -/
theorem out_B (c : Dev nD) (i : grid1.Coords) (a1 : Memref sig .tc .vmem S1000x2048 .f32) (h1 : a1.IsWhole) (a2 : Memref sig .tc .vmem S1000x1 .f32) (h2 : a2.IsWhole) (a3 : Memref sig .tc .vmem S2048x64 .f32) (h3 : a3.IsWhole) (a4 : Memref sig .tc .vmem S2048x1 .f32) (h4 : a4.IsWhole) (a5 : Memref sig .tc .vmem S2048x1 .f32) (h5 : a5.IsWhole) (a6 : Memref sig .tc .vmem S64x64 .f32) (h6 : a6.IsWhole) (a7 : Memref sig .tc .vmem S1x64 .f32) (h7 : a7.IsWhole) (a8 : Memref sig .tc .vmem S2048x64 .f32) (h8 : a8.IsWhole) (hc : ¬cond1_0 i)
    (x0 : Vec F S1000x2048 .f32) (x1 : Vec F S1000x1 .f32) (x2 : Vec F S2048x64 .f32) (x3 : Vec F S2048x1 .f32) (x4 : Vec F S2048x1 .f32) (x5 : Vec F S64x64 .f32) (x6 : Vec F S1x64 .f32) (xo : Vec F S2048x64 .f32) :
    out1_B_7 c i a1 h1 a2 h2 a3 h3 a4 h4 a5 h5 a6 h6 a7 h7 a8 h8 hc x0 x1 x2 x3 x4 x5 x6 xo = k1_pay2 x0 x1 x2 x3 x4 x5 x6 xo := by
  unfold out1_B_7
  rw [View.read_writes_eq_canon _ _ _ (cover1_B_7 c i a1 h1 a2 h2 a3 h3 a4 h4 a5 h5 a6 h6 a7 h7 a8 h8 hc x0 x1 x2 x3 x4 x5 x6 xo)]
  unfold kernelRun1_B
  dsimp only
  sl_unfold_words
  rw [View.canon_unit_zero hz]
  simp only [View.readAt_eq_ld, h1.read_unread, h2.read_unread, h3.read_unread, h4.read_unread, h5.read_unread,
    h6.read_unread, h7.read_unread, h8.read_unread,
    View.ld_unit_zero (S := S1000x2048) hz, View.ld_unit_zero (S := S1000x1) hz, View.ld_unit_zero (S := S2048x64) hz,
    View.ld_unit_zero (S := S2048x1) hz, View.ld_unit_zero (S := S64x64) hz, View.ld_unit_zero (S := S1x64) hz, shapeCast_self]

/-- The first point: the block is first overwritten by the reset value, that is read back, and the last store writes the
    tile's update of it. -/
theorem out_A (c : Dev nD) (i : grid1.Coords) (a1 : Memref sig .tc .vmem S1000x2048 .f32) (h1 : a1.IsWhole) (a2 : Memref sig .tc .vmem S1000x1 .f32) (h2 : a2.IsWhole) (a3 : Memref sig .tc .vmem S2048x64 .f32) (h3 : a3.IsWhole) (a4 : Memref sig .tc .vmem S2048x1 .f32) (h4 : a4.IsWhole) (a5 : Memref sig .tc .vmem S2048x1 .f32) (h5 : a5.IsWhole) (a6 : Memref sig .tc .vmem S64x64 .f32) (h6 : a6.IsWhole) (a7 : Memref sig .tc .vmem S1x64 .f32) (h7 : a7.IsWhole) (a8 : Memref sig .tc .vmem S2048x64 .f32) (h8 : a8.IsWhole) (hc : cond1_0 i)
    (x0 : Vec F S1000x2048 .f32) (x1 : Vec F S1000x1 .f32) (x2 : Vec F S2048x64 .f32) (x3 : Vec F S2048x1 .f32) (x4 : Vec F S2048x1 .f32) (x5 : Vec F S64x64 .f32) (x6 : Vec F S1x64 .f32) :
    out1_A_7 c i a1 h1 a2 h2 a3 h3 a4 h4 a5 h5 a6 h6 a7 h7 a8 h8 hc x0 x1 x2 x3 x4 x5 x6 = k1_pay2 x0 x1 x2 x3 x4 x5 x6 k1_pay1 := by
  unfold out1_A_7
  rw [View.read_writes_eq_canon _ _ _ (cover1_A_7 c i a1 h1 a2 h2 a3 h3 a4 h4 a5 h5 a6 h6 a7 h7 a8 h8 hc x0 x1 x2 x3 x4 x5 x6)]
  unfold kernelRun1_A
  dsimp only
  sl_unfold_words
  rw [View.canon_cons_unit_zero (S := S2048x64) hz]
  simp only [View.readAt_eq_ld, h1.read_unread, h2.read_unread, h3.read_unread, h4.read_unread, h5.read_unread,
    h6.read_unread, h7.read_unread, View.readCov_unit_zero (S := S2048x64) _ hz,
    View.ld_unit_zero (S := S1000x2048) hz, View.ld_unit_zero (S := S1000x1) hz, View.ld_unit_zero (S := S2048x64) hz,
    View.ld_unit_zero (S := S2048x1) hz, View.ld_unit_zero (S := S64x64) hz, View.ld_unit_zero (S := S1x64) hz, shapeCast_self]

end Pieces

/-! ## One tile's update, in the words of the whole arrays -/

/-- Node n's share of the second aggregate at hyperedge e and column d: H n e · (second layer of the scattered row n) d · s n,
    over the seven arrays the sweep is handed. -/
def contrib (A2 : Vec Ideal S10000x2048 .f32) (A71 : Vec Ideal S10000x1 .f32) (A73 : Vec Ideal S2048x64 .f32)
    (A1 A8 : Vec Ideal S2048x1 .f32) (A14 : Vec Ideal S64x64 .f32) (A9 : Vec Ideal S1x64 .f32)
    (e : Fin 2048) (d : Fin 64) (n : Fin 10000) : EReal :=
  mat A2 n e * (lin (scatterRow (mat A2 n) (colv A71 n) (mat A73) (colv A1) (colv A8)) (mat A14) (rowv A9) d * colv A71 n)

/-- The second aggregate is the sum of the nodes' shares. -/
theorem secondAgg_eq (A2 : Vec Ideal S10000x2048 .f32) (A71 : Vec Ideal S10000x1 .f32) (A73 : Vec Ideal S2048x64 .f32)
    (A1 A8 : Vec Ideal S2048x1 .f32) (A14 : Vec Ideal S64x64 .f32) (A9 : Vec Ideal S1x64 .f32) (e : Fin 2048) (d : Fin 64) :
    secondAgg (mat A2) (colv A71) (mat A73) (colv A1) (colv A8) (mat A14) (rowv A9) e d
      = ∑ n : Fin 10000, contrib A2 A71 A73 A1 A8 A14 A9 e d n := rfl

/-- If the H block and the s block are tile t's rows of H and s, and the other five blocks are whole arrays, the update adds
    to what the block held the shares of tile t's thousand nodes. -/
theorem pay2_tile (A2 : Vec Ideal S10000x2048 .f32) (A71 : Vec Ideal S10000x1 .f32) (A73 : Vec Ideal S2048x64 .f32)
    (A1 A8 : Vec Ideal S2048x1 .f32) (A14 : Vec Ideal S64x64 .f32) (A9 : Vec Ideal S1x64 .f32)
    (x0 : Vec Ideal S1000x2048 .f32) (x1 : Vec Ideal S1000x1 .f32) (x2 : Vec Ideal S2048x64 .f32) (x3 x4 : Vec Ideal S2048x1 .f32)
    (x5 : Vec Ideal S64x64 .f32) (x6 : Vec Ideal S1x64 .f32) (xo : Vec Ideal S2048x64 .f32) (t : Fin 10)
    (h0 : ∀ (r : Fin 1000) (j : Fin 2048), x0 (ix2 r j) = A2 (ix2 (rowOf t r) j))
    (h1 : ∀ (r : Fin 1000) (j : Fin 1), x1 (ix2 r j) = A71 (ix2 (rowOf t r) j))
    (h2 : x2 = A73) (h3 : x3 = A1) (h4 : x4 = A8) (h5 : x5 = A14) (h6 : x6 = A9) (e : Fin 2048) (d : Fin 64) :
    k1_pay2 x0 x1 x2 x3 x4 x5 x6 xo (ix2 e d) = xo (ix2 e d) + tileSum (contrib A2 A71 A73 A1 A8 A14 A9 e d) t := by
  subst h2 h3 h4 h5 h6
  refine (k1pay2_apply x0 x1 x2 x3 x4 x5 x6 xo e d).trans ?_
  congr 1
  unfold tileSum
  refine Finset.sum_congr rfl fun r _ => ?_
  have e0 : mat x0 r = mat A2 (rowOf t r) := funext fun j => h0 r j
  have e1 : colv x1 r = colv A71 (rowOf t r) := h1 r 0
  rw [e0, e1, h0 r e]
  rfl

/-! ## The accumulator after each point -/

/-- Node n's share, over the arrays as the sweep finds them. -/
abbrev term (c : Dev nD) (e : Fin 2048) (d : Fin 64) : Fin 10000 → EReal :=
  contrib (V c main_arg2) (V c main_v7_1) (V c main_v7_3) (V c main_v1) (V c main_v8) (V c main_arg14) (V c main_v9) e d

/-- A point after the first adds its tile's shares to what the point before left. -/
theorem step_B (c : Dev nD) (t : Fin cfg1.N) (hB : ¬t.val % 10 = 0) (e : Fin 2048) (d : Fin 64) :
    outsAt1 V c t.val t.isLt (ix2 e d)
      = outsAt1 V c (t.val - 1) (Nat.lt_of_le_of_lt (Nat.sub_le _ _) t.isLt) (ix2 e d) + tileSum (term V c e d) (tile t) := by
  refine (congrFun (outsAt1_B V c t hB) (ix2 e d)).trans ?_
  refine (congrFun (out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => hB ((hcond1_0 t).mp h))
    (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt))) (ix2 e d)).trans ?_
  exact pay2_tile (V c main_arg2) (V c main_v7_1) (V c main_v7_3) (V c main_v1) (V c main_v8) (V c main_arg14) (V c main_v9)
    (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)) (tile t)
    (H_at V c t) (s_at V c t) (m1_eq V c t) (w_eq V c t) (de_eq V c t) (c2W_eq V c t) (c2b_eq V c t) e d

/-- The first point resets the block to zero and adds its tile's shares. -/
theorem step_A (c : Dev nD) (t : Fin cfg1.N) (hA : t.val % 10 = 0) (e : Fin 2048) (d : Fin 64) :
    outsAt1 V c t.val t.isLt (ix2 e d) = tileSum (term V c e d) (tile t) := by
  refine (congrFun (outsAt1_A V c t hA) (ix2 e d)).trans ?_
  refine (congrFun (out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr hA)
    (iblk1 V c 0 t) (iblk1 V c 1 t) (iblk1 V c 2 t) (iblk1 V c 3 t) (iblk1 V c 4 t) (iblk1 V c 5 t) (iblk1 V c 6 t)) (ix2 e d)).trans ?_
  refine (pay2_tile (V c main_arg2) (V c main_v7_1) (V c main_v7_3) (V c main_v1) (V c main_v8) (V c main_arg14) (V c main_v9)
    (iblk1 V c 0 t) (iblk1 V c 1 t) (iblk1 V c 2 t) (iblk1 V c 3 t) (iblk1 V c 4 t) (iblk1 V c 5 t) (iblk1 V c 6 t) (k1_pay1 (F := Ideal)) (tile t)
    (H_at V c t) (s_at V c t) (m1_eq V c t) (w_eq V c t) (de_eq V c t) (c2W_eq V c t) (c2b_eq V c t) e d).trans ?_
  rw [k1pay1_apply, zero_add]

/-- After point n the block holds the shares of the tiles 0 … n: by induction on the point. -/
theorem outsAt_eq (c : Dev nD) (e : Fin 2048) (d : Fin 64) :
    ∀ (n : ℕ) (h : n < cfg1.N), outsAt1 V c n h (ix2 e d) = upTo (term V c e d) n
  | 0, h => by
    rw [upTo_zero]
    exact step_A V c ⟨0, h⟩ (Nat.zero_mod _) e d
  | n + 1, h => by
    have hN : cfg1.N = 10 := N_1
    have hB : ¬(⟨n + 1, h⟩ : Fin cfg1.N).val % 10 = 0 := by dsimp only; omega
    rw [upTo_succ _ n (by omega)]
    refine (step_B V c ⟨n + 1, h⟩ hB e d).trans ?_
    show outsAt1 V c n _ (ix2 e d) + _ = _
    rw [outsAt_eq c e d n]

/-! ## The array after the sweep -/

/-- The second aggregate of the arrays the sweep finds, as an array. -/
def agg (c : Dev nD) : Vec Ideal S2048x64 .f32 := fun j =>
  secondAgg (mat (V c main_arg2)) (colv (V c main_v7_1)) (mat (V c main_v7_3)) (colv (V c main_v1)) (colv (V c main_v8))
    (mat (V c main_arg14)) (rowv (V c main_v9)) (j 0) (j 1)

/-- After the tenth point the block is the second aggregate. -/
theorem outsAt_last (c : Dev nD) (t : Fin cfg1.N) (h9 : t.val = 9) : outsAt1 V c t.val t.isLt = agg V c := by
  funext j
  rw [eq_ix2 j]
  refine (outsAt_eq V c (j 0) (j 1) t.val t.isLt).trans ?_
  rw [h9, upTo_last]
  rfl

/-- The one write-back, after the tenth point, writes it: the block at (0, 0) through zero offsets is the whole array. -/
theorem flushed_eq (c : Dev nD) (t : Fin cfg1.N) (hf : (cfg1.win 7).flush t = true) :
    (dat1 V c).flushed 7 t = ((cfg1.win 7).blk t).view.read (Elt Ideal) (agg V c) := by
  have hN : cfg1.N = 10 := N_1
  have h9 : t.val = 9 := by have := (flush1_7 t).mp hf; have := t.isLt; omega
  show (cfg1.win 7).cut (grid1.coords t) ((dat1 V c).after 7 t) = _
  rw [after1_7, outsAt_last V c t h9]
  obtain rfl : t = t1_9 := Fin.ext h9
  have hz' : (fun a => win1_7.index t1_9 a * main_v10.ty.shape.size a) = fun _ => 0 := funext fun a => by fin_cases a <;> decide
  exact (Memref.read_access_unit_zero (Elt Ideal) main_v10 hz' (fun a => by rw [congrFun hz' a]; simp) (agg V c)).symm

/-- So the array ends holding the second aggregate: the tenth point's block covers it. -/
theorem final_arr (c : Dev nD) : (dat1 V c).arrAt 7 cfg1.N = agg V c :=
  (dat1 V c).arrAt_eq_of_cover 7 (agg V c) (flushed_eq V c) fun i =>
    ⟨t1_9, (flush1_7 t1_9).mpr rfl, by
      show i ∈ ((View.whole main_v10).slice (win1_7.rect t1_9)).set
      rw [View.set_slice_whole, Rect.mem_set_unit]
      intro a
      have h0 : (i 0 : Nat) < 2048 := (i 0).isLt
      have h1 : (i 1 : Nat) < 64 := (i 1).isLt
      match a with
      | ⟨0, _⟩ => show win1_7.index t1_9 0 * win1_7.size 0 ≤ (i 0 : Nat) ∧ (i 0 : Nat) < win1_7.index t1_9 0 * win1_7.size 0 + win1_7.xsize (grid1.coords t1_9) 0
                  rw [show win1_7.index t1_9 0 * win1_7.size 0 = 0 from by decide +kernel, show win1_7.xsize (grid1.coords t1_9) 0 = 2048 from by decide +kernel]; omega
      | ⟨1, _⟩ => show win1_7.index t1_9 1 * win1_7.size 1 ≤ (i 1 : Nat) ∧ (i 1 : Nat) < win1_7.index t1_9 1 * win1_7.size 1 + win1_7.xsize (grid1.coords t1_9) 1
                  rw [show win1_7.index t1_9 1 * win1_7.size 1 = 0 from by decide +kernel, show win1_7.xsize (grid1.coords t1_9) 1 = 64 from by decide +kernel]; omega⟩

/-- After the second sweep its array holds the second hyperedge aggregate of the arrays the sweep was handed. -/
theorem final (c : Dev nD) (e : Fin 2048) (d : Fin 64) :
    (dat1 V c).arrAt 7 cfg1.N (ix2 e d)
      = secondAgg (mat (V c main_arg2)) (colv (V c main_v7_1)) (mat (V c main_v7_3)) (colv (V c main_v1)) (colv (V c main_v8))
          (mat (V c main_arg14)) (rowv (V c main_v9)) e d :=
  congrFun (final_arr V c) (ix2 e d)

end Cert.KernelIdeal.Reg1

end
-- ==== Proof.Blocks2.lean ====
/-
  What each input window of the third sweep holds at a grid point.
-/
import proofs.«168773_g40587440947829_cont_sun_m_1101_2_alg».proof.Proof.Gen.KernelIdeal.Frame
import proofs.«168773_g40587440947829_cont_sun_m_1101_2_alg».proof.Proof.Algebra
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Blk2

open Cert.KernelIdeal Cert.KernelIdeal.Gen Cert.HGAlg

variable (V : (c : Dev nD) → (b : Ref sig .tc) → Buf (Elt Ideal) ((c : Thread nD τ).loc b))

/-- A grid point as a tile number. -/
abbrev tile (t : Fin cfg2.N) : Fin 10 := ⟨t.val, lt_of_lt_of_eq t.isLt N_2⟩

/-! The block index of each input window at each of the ten grid points, decided once: a row-blocked window sits at
    block (t, 0) at point t, a window whose block is its whole array at block (0, 0) at every point. -/

theorem idx_0 : ∀ t : Fin cfg2.N, win2_0.index t (0 : Fin 2) = t.val ∧ win2_0.index t (1 : Fin 2) = 0 :=
  (by decide +kernel : ∀ t : Fin grid2.N, _)

theorem idx_1 : ∀ t : Fin cfg2.N, win2_1.index t (0 : Fin 2) = t.val ∧ win2_1.index t (1 : Fin 2) = 0 :=
  (by decide +kernel : ∀ t : Fin grid2.N, _)

theorem idx_2 : ∀ (t : Fin cfg2.N) (a : Fin 2), win2_2.index t a = 0 :=
  (by decide +kernel : ∀ (t : Fin grid2.N) (a : Fin 2), _)

theorem idx_3 : ∀ (t : Fin cfg2.N) (a : Fin 2), win2_3.index t a = 0 :=
  (by decide +kernel : ∀ (t : Fin grid2.N) (a : Fin 2), _)

theorem idx_4 : ∀ (t : Fin cfg2.N) (a : Fin 2), win2_4.index t a = 0 :=
  (by decide +kernel : ∀ (t : Fin grid2.N) (a : Fin 2), _)

theorem idx_5 : ∀ (t : Fin cfg2.N) (a : Fin 2), win2_5.index t a = 0 :=
  (by decide +kernel : ∀ (t : Fin grid2.N) (a : Fin 2), _)

theorem idx_6 : ∀ (t : Fin cfg2.N) (a : Fin 2), win2_6.index t a = 0 :=
  (by decide +kernel : ∀ (t : Fin grid2.N) (a : Fin 2), _)

/-- Row r of tile t of H is row 1000·t + r of H: an element of a block sits in its array, on each axis, at the block
    index times the block's extent plus its own coordinate; the blocks are 1000 rows by all 2048 columns. -/
theorem H_at (c : Dev nD) (t : Fin cfg2.N) (r : Fin 1000) (j : Fin 2048) :
    iblk2 V c 0 t (ix2 r j) = V c main_arg2 (ix2 (rowOf (tile t) r) j) := by
  unfold iblk2
  rw [View.read_apply]
  show V c main_arg2 _ = V c main_arg2 _
  refine congrArg (V c main_arg2) ?_
  funext a
  apply Fin.ext
  match a with
  | ⟨0, _⟩ =>
    show win2_0.index t 0 * 1000 + 1 * r.val = 1000 * t.val + r.val
    rw [(idx_0 t).1]; omega
  | ⟨1, _⟩ =>
    show win2_0.index t 1 * 2048 + 1 * j.val = j.val
    rw [(idx_0 t).2]; omega

/-- Row r of tile t of the node scaling. -/
theorem s_at (c : Dev nD) (t : Fin cfg2.N) (r : Fin 1000) (j : Fin 1) :
    iblk2 V c 1 t (ix2 r j) = V c main_v7_1 (ix2 (rowOf (tile t) r) j) := by
  unfold iblk2
  rw [View.read_apply]
  show V c main_v7_1 _ = V c main_v7_1 _
  refine congrArg (V c main_v7_1) ?_
  funext a
  apply Fin.ext
  match a with
  | ⟨0, _⟩ =>
    show win2_1.index t 0 * 1000 + 1 * r.val = 1000 * t.val + r.val
    rw [(idx_1 t).1]; omega
  | ⟨1, _⟩ =>
    show win2_1.index t 1 * 1 + 1 * j.val = j.val
    rw [(idx_1 t).2]; omega

/-- The second aggregate, whole at every point. -/
theorem m2_eq (c : Dev nD) (t : Fin cfg2.N) : (iblk2 V c 2 t : Vec Ideal S2048x64 .f32) = V c main_v10 := by
  funext y
  unfold iblk2
  rw [View.read_apply]
  show V c main_v10 _ = V c main_v10 y
  refine congrArg (V c main_v10) ?_
  funext a
  exact Fin.ext (win2_2.rect_emb_val_of_index_zero t a (idx_2 t a) y)

/-- The edge weights as a column, whole at every point. -/
theorem w_eq (c : Dev nD) (t : Fin cfg2.N) : (iblk2 V c 3 t : Vec Ideal S2048x1 .f32) = V c main_v1 := by
  funext y
  unfold iblk2
  rw [View.read_apply]
  show V c main_v1 _ = V c main_v1 y
  refine congrArg (V c main_v1) ?_
  funext a
  exact Fin.ext (win2_3.rect_emb_val_of_index_zero t a (idx_3 t a) y)

/-- The edge degrees as a column, whole at every point. -/
theorem de_eq (c : Dev nD) (t : Fin cfg2.N) : (iblk2 V c 4 t : Vec Ideal S2048x1 .f32) = V c main_v8 := by
  funext y
  unfold iblk2
  rw [View.read_apply]
  show V c main_v8 _ = V c main_v8 y
  refine congrArg (V c main_v8) ?_
  funext a
  exact Fin.ext (win2_4.rect_emb_val_of_index_zero t a (idx_4 t a) y)

/-- The head's weight matrix, whole at every point. -/
theorem hdW_eq (c : Dev nD) (t : Fin cfg2.N) : (iblk2 V c 5 t : Vec Ideal S64x2 .f32) = V c main_arg16 := by
  funext y
  unfold iblk2
  rw [View.read_apply]
  show V c main_arg16 _ = V c main_arg16 y
  refine congrArg (V c main_arg16) ?_
  funext a
  exact Fin.ext (win2_5.rect_emb_val_of_index_zero t a (idx_5 t a) y)

/-- The head's bias row, whole at every point. -/
theorem hdb_eq (c : Dev nD) (t : Fin cfg2.N) : (iblk2 V c 6 t : Vec Ideal S1x2 .f32) = V c main_v11 := by
  funext y
  unfold iblk2
  rw [View.read_apply]
  show V c main_v11 _ = V c main_v11 y
  refine congrArg (V c main_v11) ?_
  funext a
  exact Fin.ext (win2_6.rect_emb_val_of_index_zero t a (idx_6 t a) y)

end Cert.KernelIdeal.Blk2

end
-- ==== Proof.Reg2.lean ====
/-
  The third sweep's one output, the logits, written tile by tile.
-/
import proofs.«168773_g40587440947829_cont_sun_m_1101_2_alg».proof.Proof.Gen.KernelIdeal.Frame
import proofs.«168773_g40587440947829_cont_sun_m_1101_2_alg».proof.Proof.Pay12
import proofs.«168773_g40587440947829_cont_sun_m_1101_2_alg».proof.Proof.Blocks2
import proofs.«168773_g40587440947829_cont_sun_m_1101_2_alg».proof.Proof.Spec
import proofs.«168773_g40587440947829_cont_sun_m_1101_2_alg».proof.Proof.Views
import proofs.«168773_g40587440947829_cont_sun_m_1101_2_alg».proof.Proof.Algebra
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.HGSpec Cert.HGView Cert.HGAlg

variable (V : (c : Dev nD) → (b : Ref sig .tc) → Buf (Elt Ideal) ((c : Thread nD τ).loc b))

/-- Both offsets of a whole-block access are zero. -/
theorem hz : (![0, 0] : Fin 2 → Nat) = fun _ => 0 := funext fun a => by
  match a with
  | ⟨0, _⟩ => rfl
  | ⟨1, _⟩ => rfl

/-- The output's block at point t is block (t, 0): rows 1000·t … 1000·t + 999, both columns. -/
theorem idx_7 : ∀ t : Fin cfg2.N, win2_7.index t (0 : Fin 2) = t.val ∧ win2_7.index t (1 : Fin 2) = 0 :=
  (by decide +kernel : ∀ t : Fin grid2.N, _)

/-- The logits of the arrays the sweep is handed, as an array of 10000 rows. -/
def G (c : Dev nD) : Buf (Elt Ideal) ((c : Thread nD τ).loc main_v12) := fun i =>
  thirdOut (mat (V c main_arg2)) (colv (V c main_v7_1)) (mat (V c main_v10)) (colv (V c main_v1)) (colv (V c main_v8))
          (mat (V c main_arg16)) (rowv (V c main_v11)) (i 0) (i 1)

/-- What the body leaves for row r of tile t is the logits of row 1000·t + r: the body's one store is the payload of
    its loaded blocks, and each block is the rows of its array that the tile names. -/
theorem out_at (c : Dev nD) (t : Fin cfg2.N) (r : Fin 1000) (o : Fin 2) :
    out2_7 (iblk2 V c 0 t) (iblk2 V c 1 t) (iblk2 V c 2 t) (iblk2 V c 3 t) (iblk2 V c 4 t) (iblk2 V c 5 t) (iblk2 V c 6 t) (ix2 r o)
      = thirdOut (mat (V c main_arg2)) (colv (V c main_v7_1)) (mat (V c main_v10)) (colv (V c main_v1)) (colv (V c main_v8))
          (mat (V c main_arg16)) (rowv (V c main_v11)) (rowOf (Blk2.tile t) r) o := by
  unfold out2_7
  rw [View.canon_unit_zero hz]
  simp only [View.ld_unit_zero (S := S1000x2048) hz, View.ld_unit_zero (S := S1000x1) hz, View.ld_unit_zero (S := S2048x64) hz,
    View.ld_unit_zero (S := S2048x1) hz, View.ld_unit_zero (S := S64x2) hz, View.ld_unit_zero (S := S1x2) hz]
  rw [Pay12.k2pay1_apply, Blk2.m2_eq, Blk2.w_eq, Blk2.de_eq, Blk2.hdW_eq, Blk2.hdb_eq]
  have eH : mat (iblk2 V c 0 t : Vec Ideal S1000x2048 .f32) r = mat (V c main_arg2) (rowOf (Blk2.tile t) r) :=
    funext fun j => Blk2.H_at V c t r j
  have es : colv (iblk2 V c 1 t : Vec Ideal S1000x1 .f32) r = colv (V c main_v7_1) (rowOf (Blk2.tile t) r) :=
    Blk2.s_at V c t r 0
  rw [eH, es]
  rfl

/-- What point t writes back is block t of the logits: element (r, o) of the block sits at row 1000·t + r, column o. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  funext y
  rw [View.read_apply]
  revert y
  show ∀ y : S1000x2.Idx, out2_7 (iblk2 V c 0 t) (iblk2 V c 1 t) (iblk2 V c 2 t) (iblk2 V c 3 t) (iblk2 V c 4 t) (iblk2 V c 5 t) (iblk2 V c 6 t) y = G V c (((cfg2.win 7).blk t).view.emb y)
  intro y
  obtain ⟨r, o, rfl⟩ : ∃ (r : Fin 1000) (o : Fin 2), y = ix2 r o := ⟨y 0, y 1, eq_ix2 y⟩
  rw [out_at]
  have e : ((cfg2.win 7).blk t).view.emb (ix2 r o) = ix2 (rowOf (Blk2.tile t) r) o := by
    funext a
    apply Fin.ext
    match a with
    | ⟨0, _⟩ =>
      show win2_7.index t 0 * 1000 + 1 * r.val = 1000 * t.val + r.val
      rw [(idx_7 t).1]; omega
    | ⟨1, _⟩ =>
      show win2_7.index t 1 * 2 + 1 * o.val = o.val
      rw [(idx_7 t).2]; omega
  rw [e]
  rfl

/-- A row of the array is in point t's block iff each coordinate is in the block's range on its axis. -/
theorem mem_blk (t : Fin cfg2.N) (i : S10000x2.Idx) :
    i ∈ ((cfg2.win 7).blk t).view.set
      ↔ ∀ a : Fin 2, win2_7.index t a * S1000x2.size a ≤ (i a).val ∧ (i a).val < win2_7.index t a * S1000x2.size a + S1000x2.size a := by
  show i ∈ ((View.whole main_v12).slice (win2_7.rect t)).set ↔ _
  rw [View.set_slice_whole, Rect.mem_set_unit]
  exact Iff.rfl

/-- Every row is written back by some point: row n by point n / 1000. -/
theorem cover (i : S10000x2.Idx) :
    ∃ t : Fin cfg2.N, (cfg2.win 7).flush t = true ∧ i ∈ ((cfg2.win 7).blk t).view.set := by
  have hi0 : (i 0).val < 10000 := (i 0).isLt
  have hi1 : (i 1).val < 2 := (i 1).isLt
  have hq : (i 0).val / 1000 < 10 := by omega
  refine ⟨⟨(i 0).val / 1000, lt_of_lt_of_eq hq N_2.symm⟩, flush2_7 _, ?_⟩
  rw [mem_blk]
  intro a
  match a with
  | ⟨0, _⟩ =>
    show win2_7.index _ 0 * 1000 ≤ (i 0).val ∧ (i 0).val < win2_7.index _ 0 * 1000 + 1000
    rw [(idx_7 _).1]
    show (i 0).val / 1000 * 1000 ≤ (i 0).val ∧ (i 0).val < (i 0).val / 1000 * 1000 + 1000
    omega
  | ⟨1, _⟩ =>
    show win2_7.index _ 1 * 2 ≤ (i 1).val ∧ (i 1).val < win2_7.index _ 1 * 2 + 2
    rw [(idx_7 _).2]
    omega

/-- After the third sweep its array holds the logits of the arrays the sweep was handed. -/
theorem final (c : Dev nD) (n : Fin 10000) (o : Fin 2) :
    (dat2 V c).arrAt 7 cfg2.N (ix2 n o)
      = thirdOut (mat (V c main_arg2)) (colv (V c main_v7_1)) (mat (V c main_v10)) (colv (V c main_v1)) (colv (V c main_v8))
          (mat (V c main_arg16)) (rowv (V c main_v11)) n o := by
  rw [(dat2 V c).arrAt_eq_of_cover 7 (G V c) (fun t _ => flushed_eq V c t) cover]
  rfl

end Cert.KernelIdeal.Reg2

end
-- ==== Proof.KernelValue.lean ====
/-
  The three sweeps composed: the array each sweep reads is an argument as launched, a bias or the edge weights laid
  out as a row or a column, or what an earlier sweep left; substituting each in turn, the logits array ends at the
  specification's logits of the launch contents and the gate array at its gate.
-/
import proofs.«168773_g40587440947829_cont_sun_m_1101_2_alg».proof.Proof.Gen.KernelIdeal.Frame
import proofs.«168773_g40587440947829_cont_sun_m_1101_2_alg».proof.Proof.RunNamed
import proofs.«168773_g40587440947829_cont_sun_m_1101_2_alg».proof.Proof.Fold
import proofs.«168773_g40587440947829_cont_sun_m_1101_2_alg».proof.Proof.Reg0Tile
import proofs.«168773_g40587440947829_cont_sun_m_1101_2_alg».proof.Proof.Reg0Acc
import proofs.«168773_g40587440947829_cont_sun_m_1101_2_alg».proof.Proof.Reg1
import proofs.«168773_g40587440947829_cont_sun_m_1101_2_alg».proof.Proof.Reg2
import proofs.«168773_g40587440947829_cont_sun_m_1101_2_alg».proof.Proof.Spec
import proofs.«168773_g40587440947829_cont_sun_m_1101_2_alg».proof.Proof.Views
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.HGSpec Cert.HGView

variable (m : (ℓ : Loc nD τ sig) → Buf (Elt Ideal) ℓ) (ρ : Dev nD → PrngReg)

/-! ## The arguments as launched, by coordinates -/

abbrev aX (c : Dev nD) : Fin 10000 → Fin 128 → EReal := mat (m ((c : Thread nD τ).loc main_arg0))
abbrev aZ (c : Dev nD) : Fin 10000 → Fin 16 → EReal := mat (m ((c : Thread nD τ).loc main_arg1))
abbrev aH (c : Dev nD) : Fin 10000 → Fin 2048 → EReal := mat (m ((c : Thread nD τ).loc main_arg2))
abbrev aW (c : Dev nD) : Fin 2048 → EReal := vec1 (m ((c : Thread nD τ).loc main_arg3))
abbrev aPsiW (c : Dev nD) : Fin 128 → Fin 32 → EReal := mat (m ((c : Thread nD τ).loc main_arg4))
abbrev aPsib (c : Dev nD) : Fin 32 → EReal := vec1 (m ((c : Thread nD τ).loc main_arg5))
abbrev aPhiW (c : Dev nD) : Fin 16 → Fin 32 → EReal := mat (m ((c : Thread nD τ).loc main_arg6))
abbrev aPhib (c : Dev nD) : Fin 32 → EReal := vec1 (m ((c : Thread nD τ).loc main_arg7))
abbrev aG1W (c : Dev nD) : Fin 64 → Fin 64 → EReal := mat (m ((c : Thread nD τ).loc main_arg8))
abbrev aG1b (c : Dev nD) : Fin 64 → EReal := vec1 (m ((c : Thread nD τ).loc main_arg9))
abbrev aG2W (c : Dev nD) : Fin 64 → Fin 32 → EReal := mat (m ((c : Thread nD τ).loc main_arg10))
abbrev aG2b (c : Dev nD) : Fin 32 → EReal := vec1 (m ((c : Thread nD τ).loc main_arg11))
abbrev aC1W (c : Dev nD) : Fin 32 → Fin 64 → EReal := mat (m ((c : Thread nD τ).loc main_arg12))
abbrev aC1b (c : Dev nD) : Fin 64 → EReal := vec1 (m ((c : Thread nD τ).loc main_arg13))
abbrev aC2W (c : Dev nD) : Fin 64 → Fin 64 → EReal := mat (m ((c : Thread nD τ).loc main_arg14))
abbrev aC2b (c : Dev nD) : Fin 64 → EReal := vec1 (m ((c : Thread nD τ).loc main_arg15))
abbrev aHdW (c : Dev nD) : Fin 64 → Fin 2 → EReal := mat (m ((c : Thread nD τ).loc main_arg16))
abbrev aHdb (c : Dev nD) : Fin 2 → EReal := vec1 (m ((c : Thread nD τ).loc main_arg17))

/-- The node scaling of the launch contents. -/
abbrev sc (c : Dev nD) : Fin 10000 → EReal := firstScale (aH m c) (aW m c)
/-- The first aggregate of the launch contents. -/
abbrev ag1 (c : Dev nD) : Fin 2048 → Fin 64 → EReal :=
  firstAgg (aH m c) (aX m c) (aZ m c) (aW m c) (aPsiW m c) (aPsib m c) (aPhiW m c) (aPhib m c) (aG1W m c) (aG1b m c) (aG2W m c) (aG2b m c) (aC1W m c) (aC1b m c)
/-- The second aggregate of the launch contents. -/
abbrev ag2 (c : Dev nD) : Fin 2048 → Fin 64 → EReal :=
  secondAgg (aH m c) (sc m c) (ag1 m c) (aW m c) (edgeDeg (aH m c)) (aC2W m c) (aC2b m c)

/-! ## The first sweep, from the launch contents -/

theorem gate1 (c : Dev nD) (n : Fin 10000) (j : Fin 32) :
    (dat0 (V1 m ρ) c).arrAt 14 cfg0.N (ix2 n j)
      = firstGate (aX m c) (aZ m c) (aPsiW m c) (aPsib m c) (aPhiW m c) (aPhib m c) (aG1W m c) (aG1b m c) (aG2W m c) (aG2b m c) n j := by
  rw [Reg0Tile.final_gate (V1 m ρ) c n j, Fold.V1_arg0, Fold.V1_arg1, Fold.V1_arg4, Fold.V1_arg6, Fold.V1_arg8, Fold.V1_arg10,
    show rowv (V1 m ρ c main_v2) = aPsib m c from funext (Fold.V1_psib m ρ c),
    show rowv (V1 m ρ c main_v3) = aPhib m c from funext (Fold.V1_phib m ρ c),
    show rowv (V1 m ρ c main_v4) = aG1b m c from funext (Fold.V1_g1b m ρ c),
    show rowv (V1 m ρ c main_v5) = aG2b m c from funext (Fold.V1_g2b m ρ c)]

theorem scale1 (c : Dev nD) (n : Fin 10000) :
    (dat0 (V1 m ρ) c).arrAt 15 cfg0.N (ix2 n (0 : Fin 1)) = sc m c n := by
  rw [Reg0Tile.final_scale (V1 m ρ) c n, Fold.V1_arg2,
    show rowv (V1 m ρ c main_v0) = aW m c from funext (Fold.V1_w m ρ c)]

theorem deg1 (c : Dev nD) (e : Fin 2048) :
    (dat0 (V1 m ρ) c).arrAt 16 cfg0.N (ix2 (0 : Fin 1) e) = edgeDeg (aH m c) e := by
  rw [Reg0Acc.final_deg (V1 m ρ) c e, Fold.V1_arg2]

theorem agg1 (c : Dev nD) (e : Fin 2048) (d : Fin 64) :
    (dat0 (V1 m ρ) c).arrAt 17 cfg0.N (ix2 e d) = ag1 m c e d := by
  rw [Reg0Acc.final_agg (V1 m ρ) c e d, Fold.V1_arg2, Fold.V1_arg0, Fold.V1_arg1, Fold.V1_arg4, Fold.V1_arg6, Fold.V1_arg8, Fold.V1_arg10, Fold.V1_arg12,
    show rowv (V1 m ρ c main_v0) = aW m c from funext (Fold.V1_w m ρ c),
    show rowv (V1 m ρ c main_v2) = aPsib m c from funext (Fold.V1_psib m ρ c),
    show rowv (V1 m ρ c main_v3) = aPhib m c from funext (Fold.V1_phib m ρ c),
    show rowv (V1 m ρ c main_v4) = aG1b m c from funext (Fold.V1_g1b m ρ c),
    show rowv (V1 m ρ c main_v5) = aG2b m c from funext (Fold.V1_g2b m ρ c),
    show rowv (V1 m ρ c main_v6) = aC1b m c from funext (Fold.V1_c1b m ρ c)]

/-! ## The second sweep -/

theorem agg2 (c : Dev nD) (e : Fin 2048) (d : Fin 64) :
    (dat1 (V3 m ρ) c).arrAt 7 cfg1.N (ix2 e d) = ag2 m c e d := by
  rw [Reg1.final (V3 m ρ) c e d, Fold.V3_arg2, Fold.V3_arg14,
    show colv (V3 m ρ c main_v7_1) = sc m c from funext fun n => by
      show V3 m ρ c main_v7_1 (ix2 n (0 : Fin 1)) = _
      rw [Fold.V3_s]; exact scale1 m ρ c n,
    show mat (V3 m ρ c main_v7_3) = ag1 m c from funext fun e' => funext fun d' => by
      show V3 m ρ c main_v7_3 (ix2 e' d') = _
      rw [Fold.V3_m1]; exact agg1 m ρ c e' d',
    show colv (V3 m ρ c main_v1) = aW m c from funext (Fold.V3_w m ρ c),
    show colv (V3 m ρ c main_v8) = edgeDeg (aH m c) from funext fun e' => (Fold.V3_de m ρ c e').trans (deg1 m ρ c e'),
    show rowv (V3 m ρ c main_v9) = aC2b m c from funext (Fold.V3_c2b m ρ c)]

/-! ## The third sweep, and the two results -/

/-- The logits of the launch contents, as the contents of the logits array. -/
def logitsOf (c : Dev nD) : Buf (Elt Ideal) ((c : Thread nD τ).loc main_v12) := fun i =>
  logits (aX m c) (aZ m c) (aH m c) (aW m c) (aPsiW m c) (aPsib m c) (aPhiW m c) (aPhib m c) (aG1W m c) (aG1b m c) (aG2W m c) (aG2b m c)
    (aC1W m c) (aC1b m c) (aC2W m c) (aC2b m c) (aHdW m c) (aHdb m c) (i 0) (i 1)

/-- The gate of the launch contents, as the contents of the gate array. -/
def gateOf (c : Dev nD) : Buf (Elt Ideal) ((c : Thread nD τ).loc main_v7_0) := fun i =>
  firstGate (aX m c) (aZ m c) (aPsiW m c) (aPsib m c) (aPhiW m c) (aPhib m c) (aG1W m c) (aG1b m c) (aG2W m c) (aG2b m c) (i 0) (i 1)

theorem out3 (c : Dev nD) (n : Fin 10000) (o : Fin 2) :
    (dat2 (V5 m ρ) c).arrAt 7 cfg2.N (ix2 n o)
      = thirdOut (aH m c) (sc m c) (ag2 m c) (aW m c) (edgeDeg (aH m c)) (aHdW m c) (aHdb m c) n o := by
  rw [Reg2.final (V5 m ρ) c n o, Fold.V5_arg2, Fold.V5_arg16,
    show colv (V5 m ρ c main_v7_1) = sc m c from funext fun n' => by
      show V5 m ρ c main_v7_1 (ix2 n' (0 : Fin 1)) = _
      rw [Fold.V5_s]; exact scale1 m ρ c n',
    show mat (V5 m ρ c main_v10) = ag2 m c from funext fun e' => funext fun d' => by
      show V5 m ρ c main_v10 (ix2 e' d') = _
      rw [Fold.V5_m2]; exact agg2 m ρ c e' d',
    show colv (V5 m ρ c main_v1) = aW m c from funext (Fold.V5_w m ρ c),
    show colv (V5 m ρ c main_v8) = edgeDeg (aH m c) from funext fun e' => (Fold.V5_de m ρ c e').trans (deg1 m ρ c e'),
    show rowv (V5 m ρ c main_v11) = aHdb m c from funext (Fold.V5_hdb m ρ c)]

theorem result_logits (c : Dev nD) : W6 m ρ c (Proc.devRef .tc main_v12) = logitsOf m c := by
  rw [Fold.W6_logits]
  funext i
  have hi : i = ix2 (i 0) (i 1) := eq_ix2 (n0 := 10000) (n1 := 2) i
  rw [hi]
  exact out3 m ρ c (i 0) (i 1)

theorem result_gate (c : Dev nD) : W6 m ρ c (Proc.devRef .tc main_v7_0) = gateOf m c := by
  rw [Fold.W6_gate]
  funext i
  have hi : i = ix2 (i 0) (i 1) := eq_ix2 (n0 := 10000) (n1 := 32) i
  rw [hi]
  exact gate1 m ρ c (i 0) (i 1)

/-- The kernel's run, read: the two result arrays at the specification's functions of the launch contents, the
    arguments unchanged. -/
theorem run : θ_run defs (onTc (τ := τ) (main (F := Ideal))) ⟨m, fun _ => 0, ρ⟩ (fun r => ∀ c : Dev nD,
      r.2.mem ((c.tc : Thread nD τ).loc main_v12) = logitsOf m c
      ∧ r.2.mem ((c.tc : Thread nD τ).loc main_v7_0) = gateOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (result_logits m ρ c), (h c).2.1.trans (result_gate m ρ c), (h c).2.2⟩)
    (run_named (F := Ideal) m ρ)

end Cert.KernelIdeal.Whole

end
-- ==== Proof.RefA.lean ====
/-
  The reference's gate and first-layer features, read stage by stage at one element: each row's gate is the logistic
  (spelt 1 / (1 + exp (−·))) of the perceptron of the row's two linear images, and the first convolution's linear layer
  is applied to the fused row.
-/
import proofs.«168773_g40587440947829_cont_sun_m_1101_2_alg».proof.Proof.Gen.ReferenceIdeal.Read
import proofs.«168773_g40587440947829_cont_sun_m_1101_2_alg».proof.Proof.Spec
import proofs.«168773_g40587440947829_cont_sun_m_1101_2_alg».proof.Proof.Views
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Layers

open Cert.ReferenceIdeal Cert.ReferenceIdeal.Gen Cert.ReferenceIdeal.Read Cert.HGSpec Cert.HGView

/-- The float one is the extended real one. -/
private theorem ofBits_one_f32 : Ideal.ofBits .f32 0x3F800000#32 = (1 : EReal) := by
  simp [Ideal.ofBits, Ideal.ieee]
  norm_cast
  norm_num

/-! ## Where each stage reads its operands

At the element (n, j) a product of matrices reads row n of its left factor and column j of its right factor,
and a bias spread over the rows reads its entry j. -/

private theorem lidx_v0 (n : Fin 10000) (j : Fin 32) (k : Fin 128) : lidx_main_v0 (ix2 n j) k = ix2 n k := by
  funext a; match a with | ⟨0, _⟩ => rfl | ⟨1, _⟩ => rfl
private theorem ridx_v0 (n : Fin 10000) (j : Fin 32) (k : Fin 128) : ridx_main_v0 (ix2 n j) k = ix2 k j := by
  funext a; match a with | ⟨0, _⟩ => rfl | ⟨1, _⟩ => rfl
private theorem idx_v2_v1 (n : Fin 10000) (j : Fin 32) : idx_main_v1 (idx_main_v2 (ix2 n j)) = ix1 j := by
  funext a; match a with | ⟨0, _⟩ => rfl
private theorem lidx_v4 (n : Fin 10000) (j : Fin 32) (k : Fin 16) : lidx_main_v4 (ix2 n j) k = ix2 n k := by
  funext a; match a with | ⟨0, _⟩ => rfl | ⟨1, _⟩ => rfl
private theorem ridx_v4 (n : Fin 10000) (j : Fin 32) (k : Fin 16) : ridx_main_v4 (ix2 n j) k = ix2 k j := by
  funext a; match a with | ⟨0, _⟩ => rfl | ⟨1, _⟩ => rfl
private theorem idx_v6_v5 (n : Fin 10000) (j : Fin 32) : idx_main_v5 (idx_main_v6 (ix2 n j)) = ix1 j := by
  funext a; match a with | ⟨0, _⟩ => rfl
private theorem lidx_v9 (n : Fin 10000) (j : Fin 64) (k : Fin 64) : lidx_main_v9 (ix2 n j) k = ix2 n k := by
  funext a; match a with | ⟨0, _⟩ => rfl | ⟨1, _⟩ => rfl
private theorem ridx_v9 (n : Fin 10000) (j : Fin 64) (k : Fin 64) : ridx_main_v9 (ix2 n j) k = ix2 k j := by
  funext a; match a with | ⟨0, _⟩ => rfl | ⟨1, _⟩ => rfl
private theorem idx_v11_v10 (n : Fin 10000) (j : Fin 64) : idx_main_v10 (idx_main_v11 (ix2 n j)) = ix1 j := by
  funext a; match a with | ⟨0, _⟩ => rfl
private theorem lidx_v14 (n : Fin 10000) (j : Fin 32) (k : Fin 64) : lidx_main_v14 (ix2 n j) k = ix2 n k := by
  funext a; match a with | ⟨0, _⟩ => rfl | ⟨1, _⟩ => rfl
private theorem ridx_v14 (n : Fin 10000) (j : Fin 32) (k : Fin 64) : ridx_main_v14 (ix2 n j) k = ix2 k j := by
  funext a; match a with | ⟨0, _⟩ => rfl | ⟨1, _⟩ => rfl
private theorem idx_v16_v15 (n : Fin 10000) (j : Fin 32) : idx_main_v15 (idx_main_v16 (ix2 n j)) = ix1 j := by
  funext a; match a with | ⟨0, _⟩ => rfl
private theorem lidx_v29 (n : Fin 10000) (j : Fin 64) (k : Fin 32) : lidx_main_v29 (ix2 n j) k = ix2 n k := by
  funext a; match a with | ⟨0, _⟩ => rfl | ⟨1, _⟩ => rfl
private theorem ridx_v29 (n : Fin 10000) (j : Fin 64) (k : Fin 32) : ridx_main_v29 (ix2 n j) k = ix2 k j := by
  funext a; match a with | ⟨0, _⟩ => rfl | ⟨1, _⟩ => rfl
private theorem idx_v31_v30 (n : Fin 10000) (j : Fin 64) : idx_main_v30 (idx_main_v31 (ix2 n j)) = ix1 j := by
  funext a; match a with | ⟨0, _⟩ => rfl

/-! ## The stages, one named quantity at a time -/

section Stages
variable (x0 : (⟨S10000x128, .f32⟩ : BufTy).Contents (Elt Ideal)) (x1 : (⟨S10000x16, .f32⟩ : BufTy).Contents (Elt Ideal))
  (x4 : (⟨S128x32, .f32⟩ : BufTy).Contents (Elt Ideal)) (x5 : (⟨S32, .f32⟩ : BufTy).Contents (Elt Ideal))
  (x6 : (⟨S16x32, .f32⟩ : BufTy).Contents (Elt Ideal)) (x7 : (⟨S32, .f32⟩ : BufTy).Contents (Elt Ideal))
  (x8 : (⟨S64x64, .f32⟩ : BufTy).Contents (Elt Ideal)) (x9 : (⟨S64, .f32⟩ : BufTy).Contents (Elt Ideal))
  (x10 : (⟨S64x32, .f32⟩ : BufTy).Contents (Elt Ideal)) (x11 : (⟨S32, .f32⟩ : BufTy).Contents (Elt Ideal))
  (x12 : (⟨S32x64, .f32⟩ : BufTy).Contents (Elt Ideal)) (x13 : (⟨S64, .f32⟩ : BufTy).Contents (Elt Ideal))

/-- The row's first linear image, x · ψ_W + ψ_b. -/
private theorem x1_eq (n : Fin 10000) (j : Fin 32) :
    val_main_v3 x0 x4 x5 (ix2 n j) = lin (mat x0 n) (mat x4) (vec1 x5) j := by
  rw [val_main_v3_apply, val_main_v0_apply, val_main_v2_apply, val_main_v1_apply]
  simp only [lidx_v0, ridx_v0, idx_v2_v1, Ideal.addf_def]
  rfl

/-- The row's second linear image, z · φ_W + φ_b. -/
private theorem z1_eq (n : Fin 10000) (j : Fin 32) :
    val_main_v7 x1 x6 x7 (ix2 n j) = lin (mat x1 n) (mat x6) (vec1 x7) j := by
  rw [val_main_v7_apply, val_main_v4_apply, val_main_v6_apply, val_main_v5_apply]
  simp only [lidx_v4, ridx_v4, idx_v6_v5, Ideal.addf_def]
  rfl

/-- The two images side by side: columns below 32 come from the first, the others from the second. -/
private theorem cat_eq (n : Fin 10000) (k : Fin 64) :
    val_main_v8 x0 x1 x4 x5 x6 x7 (ix2 n k)
      = cat (lin (mat x0 n) (mat x4) (vec1 x5)) (lin (mat x1 n) (mat x6) (vec1 x7)) k := by
  unfold val_main_v8 cat
  by_cases h : k.val < 32
  · rw [dif_pos h]
    refine (concatenate_pair_apply_left (s₁ := S10000x32) (s₂ := S10000x32) (1 : Fin S10000x64.rank) _ _ _ (ix2 n k) rfl
      (ix2 n (⟨k.val, h⟩ : Fin 32)) ?_).trans (x1_eq x0 x4 x5 n ⟨k.val, h⟩)
    intro b; match b with | ⟨0, _⟩ => rfl | ⟨1, _⟩ => rfl
  · rw [dif_neg h]
    have hk : k.val - 32 < 32 := by have := k.isLt; omega
    refine (concatenate_pair_apply_right (s₁ := S10000x32) (s₂ := S10000x32) (1 : Fin S10000x64.rank) _ _ _ (ix2 n k) rfl rfl
      (ix2 n (⟨k.val - 32, hk⟩ : Fin 32)) ?_ ?_).trans (z1_eq x1 x6 x7 n ⟨k.val - 32, hk⟩)
    · intro b hb; match b, hb with | ⟨0, _⟩, _ => rfl | ⟨1, _⟩, hb => exact absurd rfl hb
    · show (k.val - 32) + 32 = k.val
      omega

/-- The hidden layer of the perceptron: the rectified linear image of the joined row. -/
private theorem hid_eq (n : Fin 10000) (k : Fin 64) :
    val_main_v13 x0 x1 x4 x5 x6 x7 x8 x9 (ix2 n k)
      = relu (lin (cat (lin (mat x0 n) (mat x4) (vec1 x5)) (lin (mat x1 n) (mat x6) (vec1 x7))) (mat x8) (vec1 x9) k) := by
  rw [val_main_v13_apply, val_main_v12_apply, val_main_v9_apply, val_main_v11_apply, val_main_v10_apply,
    val_main_call0_v0_apply, val_main_call0_cst_apply]
  simp only [lidx_v9, ridx_v9, idx_v11_v10, cat_eq, Ideal.addf_def, Ideal.maximumf_def, Ideal.ofBits_def,
    Ideal.ofBits_zero_f32]
  rfl

/-- The perceptron's output before the logistic. -/
private theorem pre_eq (n : Fin 10000) (j : Fin 32) :
    val_main_v17 x0 x1 x4 x5 x6 x7 x8 x9 x10 x11 (ix2 n j)
      = lin (fun k => relu (lin (cat (lin (mat x0 n) (mat x4) (vec1 x5)) (lin (mat x1 n) (mat x6) (vec1 x7))) (mat x8) (vec1 x9) k))
          (mat x10) (vec1 x11) j := by
  rw [val_main_v17_apply, val_main_v14_apply, val_main_v16_apply, val_main_v15_apply]
  simp only [lidx_v14, ridx_v14, idx_v16_v15, hid_eq, Ideal.addf_def]
  rfl

/-- The gate: 1 / (1 + exp (−·)) of the perceptron's output is its logistic. -/
private theorem gateRow_eq (n : Fin 10000) (j : Fin 32) :
    val_main_v23 x0 x1 x4 x5 x6 x7 x8 x9 x10 x11 (ix2 n j)
      = gateRow (mat x4) (vec1 x5) (mat x6) (vec1 x7) (mat x8) (vec1 x9) (mat x10) (vec1 x11) (mat x0 n) (mat x1 n) j := by
  rw [val_main_v23_apply, val_main_v22_apply, val_main_cst_0_apply, val_main_v21_apply, val_main_v20_apply,
    val_main_cst_apply, val_main_v19_apply, val_main_v18_apply, pre_eq]
  simp only [Ideal.hostDivf_def, Ideal.addf_def, Ideal.hostUnary_exp_def, Ideal.hostNegf_def, Ideal.negf_def,
    Ideal.ofBits_def, ofBits_one_f32]
  rfl

/-- The fused row g · z1 + (1 − g) · x1. -/
private theorem fused_eq (n : Fin 10000) (j : Fin 32) :
    val_main_v28 x0 x1 x4 x5 x6 x7 x8 x9 x10 x11 (ix2 n j)
      = fusedRow (mat x4) (vec1 x5) (mat x6) (vec1 x7) (mat x8) (vec1 x9) (mat x10) (vec1 x11) (mat x0 n) (mat x1 n) j := by
  rw [val_main_v28_apply, val_main_v24_apply, val_main_v27_apply, val_main_v26_apply, val_main_v25_apply,
    val_main_cst_1_apply, gateRow_eq, z1_eq, x1_eq]
  simp only [Ideal.addf_def, Ideal.mulf_def, Ideal.subf_def, Ideal.ofBits_def]
  rfl

end Stages

/-- The reference's gate at (n, j). -/
theorem gate_eq (x0 : (⟨S10000x128, .f32⟩ : BufTy).Contents (Elt Ideal)) (x1 : (⟨S10000x16, .f32⟩ : BufTy).Contents (Elt Ideal)) (x4 : (⟨S128x32, .f32⟩ : BufTy).Contents (Elt Ideal)) (x5 : (⟨S32, .f32⟩ : BufTy).Contents (Elt Ideal)) (x6 : (⟨S16x32, .f32⟩ : BufTy).Contents (Elt Ideal)) (x7 : (⟨S32, .f32⟩ : BufTy).Contents (Elt Ideal))
    (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal))
    (n : Fin 10000) (j : Fin 32) :
    val_main_v23 x0 x1 x4 x5 x6 x7 x8 x9 x10 x11 (ix2 n j)
      = firstGate (mat x0) (mat x1) (mat x4) (vec1 x5) (mat x6) (vec1 x7) (mat x8) (vec1 x9) (mat x10) (vec1 x11) n j :=
  gateRow_eq x0 x1 x4 x5 x6 x7 x8 x9 x10 x11 n j

/-- The reference's first-layer features before the node scaling, at (n, d). -/
theorem conv1_eq (x0 : (⟨S10000x128, .f32⟩ : BufTy).Contents (Elt Ideal)) (x1 : (⟨S10000x16, .f32⟩ : BufTy).Contents (Elt Ideal)) (x4 : (⟨S128x32, .f32⟩ : BufTy).Contents (Elt Ideal)) (x5 : (⟨S32, .f32⟩ : BufTy).Contents (Elt Ideal)) (x6 : (⟨S16x32, .f32⟩ : BufTy).Contents (Elt Ideal)) (x7 : (⟨S32, .f32⟩ : BufTy).Contents (Elt Ideal))
    (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal))
    (x12 : (⟨S32x64, .f32⟩ : BufTy).Contents (Elt Ideal)) (x13 : (⟨S64, .f32⟩ : BufTy).Contents (Elt Ideal)) (n : Fin 10000) (d : Fin 64) :
    val_main_v32 x0 x1 x4 x5 x6 x7 x8 x9 x10 x11 x12 x13 (ix2 n d)
      = conv1Row (mat x4) (vec1 x5) (mat x6) (vec1 x7) (mat x8) (vec1 x9) (mat x10) (vec1 x11) (mat x12) (vec1 x13) (mat x0 n) (mat x1 n) d := by
  rw [val_main_v32_apply, val_main_v29_apply, val_main_v31_apply, val_main_v30_apply]
  simp only [lidx_v29, ridx_v29, idx_v31_v30, fused_eq, Ideal.addf_def]
  rfl

end Cert.ReferenceIdeal.Layers

end
-- ==== Proof.RefB.lean ====
/-
  The reference's two convolutions and its head, read stage by stage at one element, down to the logits.
-/
import proofs.«168773_g40587440947829_cont_sun_m_1101_2_alg».proof.Proof.Gen.ReferenceIdeal.Read
import proofs.«168773_g40587440947829_cont_sun_m_1101_2_alg».proof.Proof.RefA
import proofs.«168773_g40587440947829_cont_sun_m_1101_2_alg».proof.Proof.Spec
import proofs.«168773_g40587440947829_cont_sun_m_1101_2_alg».proof.Proof.Views
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Layers

open Cert.ReferenceIdeal Cert.ReferenceIdeal.Gen Cert.ReferenceIdeal.Read Cert.HGSpec Cert.HGView

section Stages

variable (x0 : (⟨S10000x128, .f32⟩ : BufTy).Contents (Elt Ideal)) (x1 : (⟨S10000x16, .f32⟩ : BufTy).Contents (Elt Ideal))
  (x2 : (⟨S10000x2048, .f32⟩ : BufTy).Contents (Elt Ideal)) (x3 : (⟨S2048, .f32⟩ : BufTy).Contents (Elt Ideal))
  (x4 : (⟨S128x32, .f32⟩ : BufTy).Contents (Elt Ideal)) (x5 : (⟨S32, .f32⟩ : BufTy).Contents (Elt Ideal))
  (x6 : (⟨S16x32, .f32⟩ : BufTy).Contents (Elt Ideal)) (x7 : (⟨S32, .f32⟩ : BufTy).Contents (Elt Ideal))
  (x8 : (⟨S64x64, .f32⟩ : BufTy).Contents (Elt Ideal)) (x9 : (⟨S64, .f32⟩ : BufTy).Contents (Elt Ideal))
  (x10 : (⟨S64x32, .f32⟩ : BufTy).Contents (Elt Ideal)) (x11 : (⟨S32, .f32⟩ : BufTy).Contents (Elt Ideal))
  (x12 : (⟨S32x64, .f32⟩ : BufTy).Contents (Elt Ideal)) (x13 : (⟨S64, .f32⟩ : BufTy).Contents (Elt Ideal))
  (x14 : (⟨S64x64, .f32⟩ : BufTy).Contents (Elt Ideal)) (x15 : (⟨S64, .f32⟩ : BufTy).Contents (Elt Ideal))
  (x16 : (⟨S64x2, .f32⟩ : BufTy).Contents (Elt Ideal)) (x17 : (⟨S2, .f32⟩ : BufTy).Contents (Elt Ideal))

/-! ## The node scaling and the hyperedge scaling (each computed twice by the reference, by the same terms) -/

/-- The first node scaling at n: the host sum starts from the zero word, so it is the plain weighted row sum,
    then ε is added and the inverse square root taken. -/
theorem scale_eq (n : Fin 10000) : val_main_v40 x2 x3 (ix1 n) = firstScale (mat x2) (vec1 x3) n := by
  have hi : ∀ k : Fin 2048, idx_main_v36 (ix1 n) k = ix2 n k := fun k =>
    funext fun a => Fin.ext (by match a with | ⟨0, _⟩ => rfl | ⟨1, _⟩ => rfl)
  have hw : ∀ k : Fin 2048, idx_main_v33 (idx_main_v34 (ix2 n k)) = ix1 k := fun k =>
    funext fun a => Fin.ext (by match a with | ⟨0, _⟩ => rfl)
  rw [val_main_v40_apply, val_main_v39_apply, val_main_v36_apply, val_main_cst_2_apply, val_main_v38_apply,
    val_main_cst_4_apply]
  simp only [hi, val_main_v35_apply, val_main_v34_apply, val_main_v33_apply, hw, Ideal.ofBits_def,
    Ideal.ofBits_zero_f32, zero_add, Ideal.mulf_def, Ideal.addf_def, Ideal.hostUnary_rsqrt_def]
  rfl

/-- The hyperedge degree at e: the column sum of H, the host sum again starting from the zero word. -/
theorem deg_eq (e : Fin 2048) : val_main_v37 x2 (ix1 e) = edgeDeg (mat x2) e := by
  have hi : ∀ k : Fin 10000, idx_main_v37 (ix1 e) k = ix2 k e := fun k =>
    funext fun a => Fin.ext (by match a with | ⟨0, _⟩ => rfl | ⟨1, _⟩ => rfl)
  rw [val_main_v37_apply, val_main_cst_3_apply]
  simp only [hi, Ideal.ofBits_def, Ideal.ofBits_zero_f32, zero_add]
  rfl

/-- The hyperedge scaling at e: w e over the degree plus ε. -/
theorem edgeScale_eq (e : Fin 2048) : val_main_v48 x2 x3 (ix1 e) = edgeScale (vec1 x3) (edgeDeg (mat x2)) e := by
  rw [val_main_v48_apply, val_main_v47_apply, deg_eq, val_main_v46_apply, val_main_cst_5_apply]
  simp only [Ideal.ofBits_def, Ideal.addf_def, Ideal.hostDivf_def]
  rfl

/-! ## The first convolution -/

/-- The node scaling broadcast along the feature axis (its first use: scaling the first-layer features). -/
theorem scaleA_at (n : Fin 10000) (d : Fin 64) : val_main_v42 x2 x3 (ix2 n d) = firstScale (mat x2) (vec1 x3) n := by
  have hi : idx_main_v41 (idx_main_v42 (ix2 n d)) = ix1 n :=
    funext fun a => Fin.ext (by match a with | ⟨0, _⟩ => rfl)
  rw [val_main_v42_apply, val_main_v41_apply, hi, scale_eq]

/-- The node scaling broadcast along the feature axis (its second use: scaling the scattered rows). -/
theorem scaleB_at (n : Fin 10000) (d : Fin 64) : val_main_v54 x2 x3 (ix2 n d) = firstScale (mat x2) (vec1 x3) n := by
  have hi : idx_main_v53 (idx_main_v54 (ix2 n d)) = ix1 n :=
    funext fun a => Fin.ext (by match a with | ⟨0, _⟩ => rfl)
  rw [val_main_v54_apply, val_main_v53_apply, hi, scale_eq]

/-- The hyperedge scaling broadcast along the feature axis. -/
theorem edgeScale_at (e : Fin 2048) (d : Fin 64) :
    val_main_v50 x2 x3 (ix2 e d) = edgeScale (vec1 x3) (edgeDeg (mat x2)) e := by
  have hi : idx_main_v49 (idx_main_v50 (ix2 e d)) = ix1 e :=
    funext fun a => Fin.ext (by match a with | ⟨0, _⟩ => rfl)
  rw [val_main_v50_apply, val_main_v49_apply, hi, edgeScale_eq]

/-- Node to hyperedge: Hᵀ times the scaled first-layer features. The transpose read at (e, n) is H at (n, e). -/
theorem agg1_eq (e : Fin 2048) (d : Fin 64) :
    val_main_v45 x0 x1 x2 x3 x4 x5 x6 x7 x8 x9 x10 x11 x12 x13 (ix2 e d)
      = firstAgg (mat x2) (mat x0) (mat x1) (vec1 x3) (mat x4) (vec1 x5) (mat x6) (vec1 x7) (mat x8) (vec1 x9)
          (mat x10) (vec1 x11) (mat x12) (vec1 x13) e d := by
  have hl : ∀ k : Fin 10000, idx_main_v44 (lidx_main_v45 (ix2 e d) k) = ix2 k e := fun k =>
    funext fun a => Fin.ext (by match a with | ⟨0, _⟩ => rfl | ⟨1, _⟩ => rfl)
  have hr : ∀ k : Fin 10000, ridx_main_v45 (ix2 e d) k = ix2 k d := fun k =>
    funext fun a => Fin.ext (by match a with | ⟨0, _⟩ => rfl | ⟨1, _⟩ => rfl)
  rw [val_main_v45_apply]
  simp only [val_main_v44_apply, hl, hr, val_main_v43_apply, conv1_eq, scaleA_at, Ideal.mulf_def]
  rfl

/-- Hyperedge to node, scaled by the node's s and rectified: the first convolution's output row. -/
theorem h1_eq (n : Fin 10000) (d : Fin 64) :
    val_main_v56 x0 x1 x2 x3 x4 x5 x6 x7 x8 x9 x10 x11 x12 x13 (ix2 n d)
      = scatterRow (mat x2 n) (firstScale (mat x2) (vec1 x3) n)
          (firstAgg (mat x2) (mat x0) (mat x1) (vec1 x3) (mat x4) (vec1 x5) (mat x6) (vec1 x7) (mat x8) (vec1 x9)
            (mat x10) (vec1 x11) (mat x12) (vec1 x13))
          (vec1 x3) (edgeDeg (mat x2)) d := by
  have hl : ∀ k : Fin 2048, lidx_main_v52 (ix2 n d) k = ix2 n k := fun k =>
    funext fun a => Fin.ext (by match a with | ⟨0, _⟩ => rfl | ⟨1, _⟩ => rfl)
  have hr : ∀ k : Fin 2048, ridx_main_v52 (ix2 n d) k = ix2 k d := fun k =>
    funext fun a => Fin.ext (by match a with | ⟨0, _⟩ => rfl | ⟨1, _⟩ => rfl)
  rw [val_main_v56_apply, val_main_v55_apply, val_main_v52_apply, scaleB_at, val_main_call1_v0_apply,
    val_main_call1_cst_apply]
  simp only [hl, hr, val_main_v51_apply, agg1_eq, edgeScale_at, Ideal.mulf_def, Ideal.maximumf_def,
    Ideal.ofBits_def, Ideal.ofBits_zero_f32]
  rfl

/-! ## The second layer's linear map -/

/-- The second layer's linear map on the first convolution's output row. -/
theorem lin2_eq (n : Fin 10000) (d : Fin 64) :
    val_main_v60 x0 x1 x2 x3 x4 x5 x6 x7 x8 x9 x10 x11 x12 x13 x14 x15 (ix2 n d)
      = lin (scatterRow (mat x2 n) (firstScale (mat x2) (vec1 x3) n)
          (firstAgg (mat x2) (mat x0) (mat x1) (vec1 x3) (mat x4) (vec1 x5) (mat x6) (vec1 x7) (mat x8) (vec1 x9)
            (mat x10) (vec1 x11) (mat x12) (vec1 x13))
          (vec1 x3) (edgeDeg (mat x2))) (mat x14) (vec1 x15) d := by
  have hl : ∀ k : Fin 64, lidx_main_v57 (ix2 n d) k = ix2 n k := fun k =>
    funext fun a => Fin.ext (by match a with | ⟨0, _⟩ => rfl | ⟨1, _⟩ => rfl)
  have hr : ∀ k : Fin 64, ridx_main_v57 (ix2 n d) k = ix2 k d := fun k =>
    funext fun a => Fin.ext (by match a with | ⟨0, _⟩ => rfl | ⟨1, _⟩ => rfl)
  have hb : idx_main_v58 (idx_main_v59 (ix2 n d)) = ix1 d :=
    funext fun a => Fin.ext (by match a with | ⟨0, _⟩ => rfl)
  rw [val_main_v60_apply, val_main_v57_apply, val_main_v59_apply, val_main_v58_apply, hb]
  simp only [hl, hr, h1_eq, Ideal.addf_def]
  rfl

/-! ## The second convolution: the scalings are computed again by the same terms -/

/-- The node scaling at n, as the reference recomputes it. -/
theorem scale2_eq (n : Fin 10000) : val_main_v68 x2 x3 (ix1 n) = firstScale (mat x2) (vec1 x3) n := by
  have hi : ∀ k : Fin 2048, idx_main_v64 (ix1 n) k = ix2 n k := fun k =>
    funext fun a => Fin.ext (by match a with | ⟨0, _⟩ => rfl | ⟨1, _⟩ => rfl)
  have hw : ∀ k : Fin 2048, idx_main_v61 (idx_main_v62 (ix2 n k)) = ix1 k := fun k =>
    funext fun a => Fin.ext (by match a with | ⟨0, _⟩ => rfl)
  rw [val_main_v68_apply, val_main_v67_apply, val_main_v64_apply, val_main_cst_6_apply, val_main_v66_apply,
    val_main_cst_8_apply]
  simp only [hi, val_main_v63_apply, val_main_v62_apply, val_main_v61_apply, hw, Ideal.ofBits_def,
    Ideal.ofBits_zero_f32, zero_add, Ideal.mulf_def, Ideal.addf_def, Ideal.hostUnary_rsqrt_def]
  rfl

/-- The hyperedge degree at e, as the reference recomputes it. -/
theorem deg2_eq (e : Fin 2048) : val_main_v65 x2 (ix1 e) = edgeDeg (mat x2) e := by
  have hi : ∀ k : Fin 10000, idx_main_v65 (ix1 e) k = ix2 k e := fun k =>
    funext fun a => Fin.ext (by match a with | ⟨0, _⟩ => rfl | ⟨1, _⟩ => rfl)
  rw [val_main_v65_apply, val_main_cst_7_apply]
  simp only [hi, Ideal.ofBits_def, Ideal.ofBits_zero_f32, zero_add]
  rfl

/-- The hyperedge scaling at e, as the reference recomputes it. -/
theorem edgeScale2_eq (e : Fin 2048) : val_main_v76 x2 x3 (ix1 e) = edgeScale (vec1 x3) (edgeDeg (mat x2)) e := by
  rw [val_main_v76_apply, val_main_v75_apply, deg2_eq, val_main_v74_apply, val_main_cst_9_apply]
  simp only [Ideal.ofBits_def, Ideal.addf_def, Ideal.hostDivf_def]
  rfl

/-- The recomputed node scaling broadcast along the feature axis (scaling the second layer's rows). -/
theorem scale2A_at (n : Fin 10000) (d : Fin 64) : val_main_v70 x2 x3 (ix2 n d) = firstScale (mat x2) (vec1 x3) n := by
  have hi : idx_main_v69 (idx_main_v70 (ix2 n d)) = ix1 n :=
    funext fun a => Fin.ext (by match a with | ⟨0, _⟩ => rfl)
  rw [val_main_v70_apply, val_main_v69_apply, hi, scale2_eq]

/-- The recomputed node scaling broadcast along the feature axis (scaling the scattered rows). -/
theorem scale2B_at (n : Fin 10000) (d : Fin 64) : val_main_v82 x2 x3 (ix2 n d) = firstScale (mat x2) (vec1 x3) n := by
  have hi : idx_main_v81 (idx_main_v82 (ix2 n d)) = ix1 n :=
    funext fun a => Fin.ext (by match a with | ⟨0, _⟩ => rfl)
  rw [val_main_v82_apply, val_main_v81_apply, hi, scale2_eq]

/-- The recomputed hyperedge scaling broadcast along the feature axis. -/
theorem edgeScale2_at (e : Fin 2048) (d : Fin 64) :
    val_main_v78 x2 x3 (ix2 e d) = edgeScale (vec1 x3) (edgeDeg (mat x2)) e := by
  have hi : idx_main_v77 (idx_main_v78 (ix2 e d)) = ix1 e :=
    funext fun a => Fin.ext (by match a with | ⟨0, _⟩ => rfl)
  rw [val_main_v78_apply, val_main_v77_apply, hi, edgeScale2_eq]

/-- Node to hyperedge again: Hᵀ times the scaled second-layer rows. -/
theorem agg2_eq (e : Fin 2048) (d : Fin 64) :
    val_main_v73 x0 x1 x2 x3 x4 x5 x6 x7 x8 x9 x10 x11 x12 x13 x14 x15 (ix2 e d)
      = secondAgg (mat x2) (firstScale (mat x2) (vec1 x3))
          (firstAgg (mat x2) (mat x0) (mat x1) (vec1 x3) (mat x4) (vec1 x5) (mat x6) (vec1 x7) (mat x8) (vec1 x9)
            (mat x10) (vec1 x11) (mat x12) (vec1 x13))
          (vec1 x3) (edgeDeg (mat x2)) (mat x14) (vec1 x15) e d := by
  have hl : ∀ k : Fin 10000, idx_main_v72 (lidx_main_v73 (ix2 e d) k) = ix2 k e := fun k =>
    funext fun a => Fin.ext (by match a with | ⟨0, _⟩ => rfl | ⟨1, _⟩ => rfl)
  have hr : ∀ k : Fin 10000, ridx_main_v73 (ix2 e d) k = ix2 k d := fun k =>
    funext fun a => Fin.ext (by match a with | ⟨0, _⟩ => rfl | ⟨1, _⟩ => rfl)
  rw [val_main_v73_apply]
  simp only [val_main_v72_apply, hl, hr, val_main_v71_apply, lin2_eq, scale2A_at, Ideal.mulf_def]
  rfl

/-- Hyperedge to node again, scaled and rectified: the second convolution's output row. -/
theorem h2_eq (n : Fin 10000) (d : Fin 64) :
    val_main_v84 x0 x1 x2 x3 x4 x5 x6 x7 x8 x9 x10 x11 x12 x13 x14 x15 (ix2 n d)
      = scatterRow (mat x2 n) (firstScale (mat x2) (vec1 x3) n)
          (secondAgg (mat x2) (firstScale (mat x2) (vec1 x3))
            (firstAgg (mat x2) (mat x0) (mat x1) (vec1 x3) (mat x4) (vec1 x5) (mat x6) (vec1 x7) (mat x8) (vec1 x9)
              (mat x10) (vec1 x11) (mat x12) (vec1 x13))
            (vec1 x3) (edgeDeg (mat x2)) (mat x14) (vec1 x15))
          (vec1 x3) (edgeDeg (mat x2)) d := by
  have hl : ∀ k : Fin 2048, lidx_main_v80 (ix2 n d) k = ix2 n k := fun k =>
    funext fun a => Fin.ext (by match a with | ⟨0, _⟩ => rfl | ⟨1, _⟩ => rfl)
  have hr : ∀ k : Fin 2048, ridx_main_v80 (ix2 n d) k = ix2 k d := fun k =>
    funext fun a => Fin.ext (by match a with | ⟨0, _⟩ => rfl | ⟨1, _⟩ => rfl)
  rw [val_main_v84_apply, val_main_v83_apply, val_main_v80_apply, scale2B_at, val_main_call2_v0_apply,
    val_main_call2_cst_apply]
  simp only [hl, hr, val_main_v79_apply, agg2_eq, edgeScale2_at, Ideal.mulf_def, Ideal.maximumf_def,
    Ideal.ofBits_def, Ideal.ofBits_zero_f32]
  rfl

end Stages

/-- The reference's logits at (n, o). -/
theorem logits_eq (x0 : (⟨S10000x128, .f32⟩ : BufTy).Contents (Elt Ideal)) (x1 : (⟨S10000x16, .f32⟩ : BufTy).Contents (Elt Ideal)) (x2 : (⟨S10000x2048, .f32⟩ : BufTy).Contents (Elt Ideal)) (x3 : (⟨S2048, .f32⟩ : BufTy).Contents (Elt Ideal))
    (x4 : (⟨S128x32, .f32⟩ : BufTy).Contents (Elt Ideal)) (x5 : (⟨S32, .f32⟩ : BufTy).Contents (Elt Ideal)) (x6 : (⟨S16x32, .f32⟩ : BufTy).Contents (Elt Ideal)) (x7 : (⟨S32, .f32⟩ : BufTy).Contents (Elt Ideal))
    (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal))
    (x12 : (⟨S32x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal))
    (x16 : (⟨S64x2, .f32⟩ : BufTy).Contents (Elt Ideal)) (x17 : (⟨S2, .f32⟩ : BufTy).Contents (Elt Ideal)) (n : Fin 10000) (o : Fin 2) :
    val_main_v88 x0 x1 x2 x3 x4 x5 x6 x7 x8 x9 x10 x11 x12 x13 x14 x15 x16 x17 (ix2 n o)
      = logits (mat x0) (mat x1) (mat x2) (vec1 x3) (mat x4) (vec1 x5) (mat x6) (vec1 x7) (mat x8) (vec1 x9) (mat x10) (vec1 x11)
          (mat x12) (vec1 x13) (mat x14) (vec1 x15) (mat x16) (vec1 x17) n o := by
  have hl : ∀ k : Fin 64, lidx_main_v85 (ix2 n o) k = ix2 n k := fun k =>
    funext fun a => Fin.ext (by match a with | ⟨0, _⟩ => rfl | ⟨1, _⟩ => rfl)
  have hr : ∀ k : Fin 64, ridx_main_v85 (ix2 n o) k = ix2 k o := fun k =>
    funext fun a => Fin.ext (by match a with | ⟨0, _⟩ => rfl | ⟨1, _⟩ => rfl)
  have hb : idx_main_v86 (idx_main_v87 (ix2 n o)) = ix1 o :=
    funext fun a => Fin.ext (by match a with | ⟨0, _⟩ => rfl)
  rw [val_main_v88_apply, val_main_v85_apply, val_main_v87_apply, val_main_v86_apply, hb]
  simp only [hl, hr, h2_eq, Ideal.addf_def]
  rfl

end Cert.ReferenceIdeal.Layers

end
-- ==== Proof.lean ====
/-
  The certificate that the tiled three-sweep evaluation and the plain evaluation of the gated fusion followed by two
  hypergraph convolutions and a linear head compute the same logits and the same gate over the extended reals.

  Both programs terminate without a fault and leave their arguments as they were: the tiled one by its generated
  frame, the plain one by its generated run. No operation was rewritten on the way to the idealized kernel, so there
  is nothing to preserve. The two idealized programs end with equal results: the tiled one's result arrays are the
  specification's logits and gate of the launch contents (each sweep's output read off its ten grid points, the
  accumulated ones as a running total over the tiles that ends at the sum over all rows, the sweeps composed through
  the arrays they hand one another), and the plain one's results are the same functions read stage by stage; the
  arguments agree, so the results do.
-/
import proofs.«168773_g40587440947829_cont_sun_m_1101_2_alg».proof.Defs
import proofs.«168773_g40587440947829_cont_sun_m_1101_2_alg».proof.Proof.Gen.Kernel
import proofs.«168773_g40587440947829_cont_sun_m_1101_2_alg».proof.Proof.Gen.Kernel.Frame
import proofs.«168773_g40587440947829_cont_sun_m_1101_2_alg».proof.Proof.Gen.KernelIdeal
import proofs.«168773_g40587440947829_cont_sun_m_1101_2_alg».proof.Proof.Gen.KernelIdeal.Frame
import proofs.«168773_g40587440947829_cont_sun_m_1101_2_alg».proof.Proof.Gen.ReferenceIdeal
import proofs.«168773_g40587440947829_cont_sun_m_1101_2_alg».proof.Proof.Gen.ReferenceIdeal.Run
import proofs.«168773_g40587440947829_cont_sun_m_1101_2_alg».proof.Proof.Gen.ReferenceIdeal.Read
import proofs.«168773_g40587440947829_cont_sun_m_1101_2_alg».proof.Proof.Gen.Pre_finite_inputs
import proofs.«168773_g40587440947829_cont_sun_m_1101_2_alg».proof.Proof.KernelValue
import proofs.«168773_g40587440947829_cont_sun_m_1101_2_alg».proof.Proof.RefA
import proofs.«168773_g40587440947829_cont_sun_m_1101_2_alg».proof.Proof.RefB
import Idealize.ShloMosaic.Adequacy
import Idealize.ShloMosaic.Init
import Idealize.ShloMosaic.Lib.ValueIdx

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The plain program's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the specification's logits and gate of arguments that agree. -/
theorem algebraic : Cert.algebraic_KernelIdeal_ReferenceIdeal := by
  intro m ρ m' ρ' _ hagree
  refine ⟨fun c => Cert.KernelIdeal.Whole.logitsOf m c, fun c => Cert.KernelIdeal.Whole.gateOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [Cert.ReferenceIdeal.Read.val_main_v88_eq]
    funext i
    obtain ⟨n, o, rfl⟩ : ∃ (n : Fin 10000) (o : Fin 2), i = ix2 n o := ⟨i 0, i 1, eq_ix2 i⟩
    rw [Cert.ReferenceIdeal.Layers.logits_eq, h0, h1, h2, h3, h4, h5, h6, h7, h8, h9, h10, h11, h12, h13, h14, h15, h16, h17]
    rfl
  · obtain ⟨h0, h1, h2, h3, h4, h5, h6, h7, h8, h9, h10, h11, h12, h13, h14, h15, h16, h17⟩ := hagree c
    rw [Cert.ReferenceIdeal.Read.val_main_v23_eq]
    funext i
    obtain ⟨n, j, rfl⟩ : ∃ (n : Fin 10000) (j : Fin 32), i = ix2 n j := ⟨i 0, i 1, eq_ix2 i⟩
    rw [Cert.ReferenceIdeal.Layers.gate_eq, h0, h1, h4, h5, h6, h7, h8, h9, h10, h11]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
